-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v63)) (v3 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_v79) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S1280000 : Shape := ⟨1, ![1280000]⟩
abbrev S64x64 : Shape := ⟨2, ![64, 64]⟩
abbrev S64 : Shape := ⟨1, ![64]⟩
abbrev S_ : Shape := ⟨0, ![]⟩
abbrev S1x1280000 : Shape := ⟨2, ![1, 1280000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1280000 : S_.BroadcastsInDim S1280000 (![] : Fin 0 → Fin S1280000.rank)
  reducesTo_S1280000_S_d0 : S1280000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1280000_S1x1280000_0_0 : S2x1280000.Slices ![0, 0] S1x1280000
  shapeCasts_S1x1280000_S1280000 : S1x1280000.ShapeCasts S1280000

variable [Facts]

def fn_part2 {F : FTy → Type} [FloatOps F] (main_arg1 : IVec S2x1280000 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : IVec S1x1280000 32 := (extractStridedSlice S1x1280000 ![0, 0] · slices_S2x1280000_S1x1280000_0_0) main_arg1
  let main_v40 : IVec S1280000 32 := shapeCast S1280000 main_v39 shapeCasts_S1x1280000_S1280000
  let main_c_14 : IVec S_ 32 := constantI S_ 32 0#32
  let main_v41 : IVec S1280000 32 := broadcastInDim S1280000 ![] bcast_S_S1280000 main_c_14
  let main_v42 : IVec S1280000 1 := cmpi .sge main_v40 main_v41
  let main_c_15 : IVec S_ 1 := constantI S_ 1 1#1
  let main_v43 : IVec S_ 1 := (fun x v => Host.reduce IntOp.andi x v reducesTo_S1280000_S_d0 h_S_) main_v42 main_c_15
  let main_v44 : IVec S_ 1 := andi main_v38 main_v43
  let main_v45 : IVec S1x1280000 32 := (extractStridedSlice S1x1280000 ![0, 0] · slices_S2x1280000_S1x1280000_0_0) main_arg1
  let main_v46 : IVec S1280000 32 := shapeCast S1280000 main_v45 shapeCasts_S1x1280000_S1280000
  let main_c_16 : IVec S_ 32 := constantI S_ 32 100000#32
  let main_v47 : IVec S1280000 32 := broadcastInDim S1280000 ![] bcast_S_S1280000 main_c_16
  let main_v48 : IVec S1280000 1 := cmpi .slt main_v46 main_v47
  let main_c_17 : IVec S_ 1 := constantI S_ 1 1#1
  let main_v49 : IVec S_ 1 := (fun x v => Host.reduce IntOp.andi x v reducesTo_S1280000_S_d0 h_S_) main_v48 main_c_17
  let main_v50 : IVec S_ 1 := andi main_v44 main_v49
  main_v50

def fn_part1 {F : FTy → Type} [FloatOps F] (main_arg1 : IVec S2x1280000 32) (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_v33

def fn {F : FTy → Type} [FloatOps F] (main_arg0 : FVec F S100000x64 .f32) (main_arg1 : IVec S2x1280000 32) (main_arg2 : FVec F S1280000 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1280000 .f32 := Host.absf main_arg2
  let main_cst_0 : FVec F S_ .f32 := constant S_ .f32 0x7F800000#32
  let main_v5 : FVec F S1280000 .f32 := broadcastInDim S1280000 ![] bcast_S_S1280000 main_cst_0
  let main_v6 : IVec S1280000 1 := cmpf .olt main_v4 main_v5
  let main_c_1 : IVec S_ 1 := constantI S_ 1 1#1
  let main_v7 : IVec S_ 1 := (fun x v => Host.reduce IntOp.andi x v reducesTo_S1280000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_v13 main_v16
-- ==== Kernel.lean ====
abbrev S100000x64 : Shape := ⟨2, ![100000, 64]⟩
abbrev S2x1280000 : Shape := ⟨2, ![2, 1280000]⟩
abbrev S1280000 : Shape := ⟨1, ![1280000]⟩
abbrev S64x64 : Shape := ⟨2, ![64, 64]⟩
abbrev S64 : Shape := ⟨1, ![64]⟩
abbrev S1x1280000 : Shape := ⟨2, ![1, 1280000]⟩
abbrev S100000 : Shape := ⟨1, ![100000]⟩
abbrev S1380000 : Shape := ⟨1, ![1380000]⟩
abbrev S_ : Shape := ⟨0, ![]⟩
abbrev S1380000x1 : Shape := ⟨2, ![1380000, 1]⟩
abbrev S1 : Shape := ⟨1, ![1]⟩
abbrev S1x1 : Shape := ⟨2, ![1, 1]⟩
abbrev S1380000x64 : Shape := ⟨2, ![1380000, 64]⟩
abbrev S50000x128 : Shape := ⟨2, ![50000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 171
  | .vmem => 18
  | .smem => 0
  | _ => 0

abbrev hbmTy0_0 (i : Nat) : BufTy := match i % 128 with
  | 0 => ⟨S100000x64, .f32⟩
  | 1 => ⟨S2x1280000, .i32⟩
  | 2 => ⟨S1280000, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x1280000, .i32⟩
  | 10 => ⟨S1280000, .i32⟩
  | 11 => ⟨S1x1280000, .i32⟩
  | 12 => ⟨S1280000, .i32⟩
  | 13 => ⟨S100000, .i32⟩
  | 14 => ⟨S1380000, .i32⟩
  | 15 => ⟨S1380000, .i32⟩
  | 16 => ⟨S_, .f32⟩
  | 17 => ⟨S100000, .f32⟩
  | 18 => ⟨S1380000, .f32⟩
  | 19 => ⟨S_, .f32⟩
  | 20 => ⟨S100000, .f32⟩
  | 21 => ⟨S1380000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1380000, .i32⟩
  | 33 => ⟨S1380000, .i1⟩
  | 34 => ⟨S_, .i32⟩
  | 35 => ⟨S1380000, .i32⟩
  | 36 => ⟨S1380000, .i32⟩
  | 37 => ⟨S1380000, .i32⟩
  | 38 => ⟨S1380000x1, .i32⟩
  | 39 => ⟨S1380000, .f32⟩
  | 40 => ⟨S1380000, .f32⟩
  | 41 => ⟨S_, .i32⟩
  | 42 => ⟨S1380000, .i32⟩
  | 43 => ⟨S1380000, .i1⟩
  | 44 => ⟨S_, .i32⟩
  | 45 => ⟨S1380000, .i32⟩
  | 46 => ⟨S1380000, .i32⟩
  | 47 => ⟨S1380000, .i32⟩
  | 48 => ⟨S1380000x1, .i32⟩
  | 49 => ⟨S1380000, .f32⟩
  | 50 => ⟨S1380000, .f32⟩
  | 51 => ⟨S_, .i32⟩
  | 52 => ⟨S1380000, .i32⟩
  | 53 => ⟨S1380000, .i1⟩
  | 54 => ⟨S_, .i32⟩
  | 55 => ⟨S1380000, .i32⟩
  | 56 => ⟨S1380000, .i32⟩
  | 57 => ⟨S1380000, .i32⟩
  | 58 => ⟨S1380000x1, .i32⟩
  | 59 => ⟨S1, .i32⟩
  | 60 => ⟨S_, .i32⟩
  | 61 => ⟨S1380000x1, .i32⟩
  | 62 => ⟨S1380000x1, .i1⟩
  | 63 => ⟨S1x1, .i32⟩
  | 64 => ⟨S1380000x1, .i32⟩
  | 65 => ⟨S1380000x1, .i1⟩
  | 66 => ⟨S1380000x1, .i1⟩
  | 67 => ⟨S_, .i1⟩
  | 68 => ⟨S1380000, .i1⟩
  | 69 => ⟨S1380000x64, .f32⟩
  | 70 => ⟨S1380000x64, .i1⟩
  | 71 => ⟨S_, .f32⟩
  | 72 => ⟨S1380000x64, .f32⟩
  | 73 => ⟨S1380000x64, .f32⟩
  | 74 => ⟨S1380000x1, .f32⟩
  | 75 => ⟨S1380000x64, .f32⟩
  | 76 => ⟨S1380000x64, .f32⟩
  | 77 => ⟨S_, .f32⟩
  | 78 => ⟨S100000x64, .f32⟩
  | 79 => ⟨S1380000x1, .i32⟩
  | 80 => ⟨S100000x64, .f32⟩
  | 81 => ⟨S50000x128, .f32⟩
  | 82 => ⟨S_, .f32⟩
  | 83 => ⟨S64x64, .f32⟩
  | 84 => ⟨S64x128, .f32⟩
  | 85 => ⟨S64x128, .f32⟩
  | 86 => ⟨S128x128, .f32⟩
  | 87 => ⟨S128, .f32⟩
  | 88 => ⟨S1x128, .f32⟩
  | 89 => ⟨S50000x128, .f32⟩
  | 90 => ⟨S100000x64, .f32⟩
  | 91 => ⟨S_, .i32⟩
  | 92 => ⟨S1380000, .i32⟩
  | 93 => ⟨S1380000, .i1⟩
  | 94 => ⟨S_, .i32⟩
  | 95 => ⟨S1380000, .i32⟩
  | 96 => ⟨S1380000, .i32⟩
  | 97 => ⟨S1380000, .i32⟩
  | 98 => ⟨S1380000x1, .i32⟩
  | 99 => ⟨S1, .i32⟩
  | 100 => ⟨S_, .i32⟩
  | 101 => ⟨S1380000x1, .i32⟩
  | 102 => ⟨S1380000x1, .i1⟩
  | 103 => ⟨S1x1, .i32⟩
  | 104 => ⟨S1380000x1, .i32⟩
  | 105 => ⟨S1380000x1, .i1⟩
  | 106 => ⟨S1380000x1, .i1⟩
  | 107 => ⟨S_, .i1⟩
  | 108 => ⟨S1380000, .i1⟩
  | 109 => ⟨S1380000x64, .f32⟩
  | 110 => ⟨S1380000x64, .i1⟩
  | 111 => ⟨S_, .f32⟩
  | 112 => ⟨S1380000x64, .f32⟩
  | 113 => ⟨S1380000x64, .f32⟩
  | 114 => ⟨S1380000x1, .f32⟩
  | 115 => ⟨S1380000x64, .f32⟩
  | 116 => ⟨S1380000x64, .f32⟩
  | 117 => ⟨S_, .f32⟩
  | 118 => ⟨S100000x64, .f32⟩
  | 119 => ⟨S1380000x1, .i32⟩
  | 120 => ⟨S100000x64, .f32⟩
  | 121 => ⟨S50000x128, .f32⟩
  | 122 => ⟨S_, .f32⟩
  | 123 => ⟨S64x64, .f32⟩
  | 124 => ⟨S64x128, .f32⟩
  | 125 => ⟨S64x128, .f32⟩
  | 126 => ⟨S128x128, .f32⟩
  | 127 => ⟨S128, .f32⟩
  | _ => ⟨S100000x64, .f32⟩

abbrev hbmTy0_1 (i : Nat) : BufTy := match i % 128 with
  | 0 => ⟨S1x128, .f32⟩
  | 1 => ⟨S50000x128, .f32⟩
  | 2 => ⟨S100000x64, .f32⟩
  | 3 => ⟨S_, .i32⟩
  | 4 => ⟨S1380000, .i32⟩
  | 5 => ⟨S1380000, .i1⟩
  | 6 => ⟨S_, .i32⟩
  | 7 => ⟨S1380000, .i32⟩
  | 8 => ⟨S1380000, .i32⟩
  | 9 => ⟨S1380000, .i32⟩
  | 10 => ⟨S1380000x1, .i32⟩
  | 11 => ⟨S1, .i32⟩
  | 12 => ⟨S_, .i32⟩
  | 13 => ⟨S1380000x1, .i32⟩
  | 14 => ⟨S1380000x1, .i1⟩
  | 15 => ⟨S1x1, .i32⟩
  | 16 => ⟨S1380000x1, .i32⟩
  | 17 => ⟨S1380000x1, .i1⟩
  | 18 => ⟨S1380000x1, .i1⟩
  | 19 => ⟨S_, .i1⟩
  | 20 => ⟨S1380000, .i1⟩
  | 21 => ⟨S1380000x64, .f32⟩
  | 22 => ⟨S1380000x64, .i1⟩
  | 23 => ⟨S_, .f32⟩
  | 24 => ⟨S1380000x64, .f32⟩
  | 25 => ⟨S1380000x64, .f32⟩
  | 26 => ⟨S1380000x1, .f32⟩
  | 27 => ⟨S1380000x64, .f32⟩
  | 28 => ⟨S1380000x64, .f32⟩
  | 29 => ⟨S_, .f32⟩
  | 30 => ⟨S100000x64, .f32⟩
  | 31 => ⟨S1380000x1, .i32⟩
  | 32 => ⟨S100000x64, .f32⟩
  | 33 => ⟨S50000x128, .f32⟩
  | 34 => ⟨S_, .f32⟩
  | 35 => ⟨S64x64, .f32⟩
  | 36 => ⟨S64x128, .f32⟩
  | 37 => ⟨S64x128, .f32⟩
  | 38 => ⟨S128x128, .f32⟩
  | 39 => ⟨S128, .f32⟩
  | 40 => ⟨S1x128, .f32⟩
  | 41 => ⟨S50000x128, .f32⟩
  | 42 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_6 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_7 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_cst_8 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_9 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_call3_c : Ref sig .tc := ⟨.hbm, 131, rfl⟩
abbrev main_call3_v0 : Ref sig .tc := ⟨.hbm, 132, rfl⟩
abbrev main_call3_v1 : Ref sig .tc := ⟨.hbm, 133, rfl⟩
abbrev main_call3_c_0 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_c_1 : Ref sig .tc := ⟨.hbm, 139, rfl⟩
abbrev main_call3_c_2 : Ref sig .tc := ⟨.hbm, 140, rfl⟩
abbrev main_call3_v6 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_call3_v11 : Ref sig .tc := ⟨.hbm, 146, rfl⟩
abbrev main_call3_c_3 : Ref sig .tc := ⟨.hbm, 147, rfl⟩
abbrev main_call3_v12 : Ref sig .tc := ⟨.hbm, 148, rfl⟩
abbrev main_call3_v13 : Ref sig .tc := ⟨.hbm, 149, rfl⟩
abbrev main_call3_v14 : Ref sig .tc := ⟨.hbm, 150, rfl⟩
abbrev main_call3_cst : Ref sig .tc := ⟨.hbm, 151, rfl⟩
abbrev main_call3_v15 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_cst_10 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_cst_11 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S100000_S1380000_d0 : Shape.Concatenates [S1280000, S100000] S1380000 0
  bcast_S_S100000 : S_.BroadcastsInDim S100000 (![] : Fin 0 → Fin S100000.rank)
  bcast_S1380000_S1380000x1_0 : S1380000.BroadcastsInDim S1380000x1 (![0] : Fin 1 → Fin S1380000x1.rank)
  bcast_S_S1380000 : S_.BroadcastsInDim S1380000 (![] : Fin 0 → Fin S1380000.rank)
  bcast_S_S1380000x1 : S_.BroadcastsInDim S1380000x1 (![] : Fin 0 → Fin S1380000x1.rank)
  bcast_S1_S1x1_1 : S1.BroadcastsInDim S1x1 (![1] : Fin 1 → Fin S1x1.rank)
  bcast_S1x1_S1380000x1_0_1 : S1x1.BroadcastsInDim S1380000x1 (![0, 1] : Fin 2 → Fin S1380000x1.rank)
  reducesTo_S1380000x1_S1380000_d1 : S1380000x1.ReducesTo [1] S1380000
  h_S_ : 0 < S_.numel
  bcast_S1380000_S1380000x64_0 : S1380000.BroadcastsInDim S1380000x64 (![0] : Fin 1 → Fin S1380000x64.rank)
  bcast_S_S1380000x64 : S_.BroadcastsInDim S1380000x64 (![] : Fin 0 → Fin S1380000x64.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S1280000 : Shape := ⟨1, ![1280000]⟩
abbrev S64x64 : Shape := ⟨2, ![64, 64]⟩
abbrev S64 : Shape := ⟨1, ![64]⟩
abbrev S1x1280000 : Shape := ⟨2, ![1, 1280000]⟩
abbrev S100000 : Shape := ⟨1, ![100000]⟩
abbrev S1380000 : Shape := ⟨1, ![1380000]⟩
abbrev S_ : Shape := ⟨0, ![]⟩
abbrev S1380000x1 : Shape := ⟨2, ![1380000, 1]⟩
abbrev S1380000x64 : Shape := ⟨2, ![1380000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S1280000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1280000, .i32⟩
  | .hbm, ⟨10, _⟩ => ⟨S1280000, .i32⟩
  | .hbm, ⟨11, _⟩ => ⟨S1x1280000, .i32⟩
  | .hbm, ⟨12, _⟩ => ⟨S1280000, .i32⟩
  | .hbm, ⟨13, _⟩ => ⟨S100000, .i32⟩
  | .hbm, ⟨14, _⟩ => ⟨S1380000, .i32⟩
  | .hbm, ⟨15, _⟩ => ⟨S1380000, .i32⟩
  | .hbm, ⟨16, _⟩ => ⟨S_, .f32⟩
  | .hbm, ⟨17, _⟩ => ⟨S100000, .f32⟩
  | .hbm, ⟨18, _⟩ => ⟨S1380000, .f32⟩
  | .hbm, ⟨19, _⟩ => ⟨S_, .f32⟩
  | .hbm, ⟨20, _⟩ => ⟨S100000, .f32⟩
  | .hbm, ⟨21, _⟩ => ⟨S1380000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1380000, .i32⟩
  | .hbm, ⟨33, _⟩ => ⟨S1380000, .i1⟩
  | .hbm, ⟨34, _⟩ => ⟨S_, .i32⟩
  | .hbm, ⟨35, _⟩ => ⟨S1380000, .i32⟩
  | .hbm, ⟨36, _⟩ => ⟨S1380000, .i32⟩
  | .hbm, ⟨37, _⟩ => ⟨S1380000, .i32⟩
  | .hbm, ⟨38, _⟩ => ⟨S1380000x1, .i32⟩
  | .hbm, ⟨39, _⟩ => ⟨S1380000, .f32⟩
  | .hbm, ⟨40, _⟩ => ⟨S1380000, .f32⟩
  | .hbm, ⟨41, _⟩ => ⟨S_, .i32⟩
  | .hbm, ⟨42, _⟩ => ⟨S1380000, .i32⟩
  | .hbm, ⟨43, _⟩ => ⟨S1380000, .i1⟩
  | .hbm, ⟨44, _⟩ => ⟨S_, .i32⟩
  | .hbm, ⟨45, _⟩ => ⟨S1380000, .i32⟩
  | .hbm, ⟨46, _⟩ => ⟨S1380000, .i32⟩
  | .hbm, ⟨47, _⟩ => ⟨S1380000, .i32⟩
  | .hbm, ⟨48, _⟩ => ⟨S1380000x1, .i32⟩
  | .hbm, ⟨49, _⟩ => ⟨S1380000, .f32⟩
  | .hbm, ⟨50, _⟩ => ⟨S1380000, .f32⟩
  | .hbm, ⟨51, _⟩ => ⟨S100000x64, .f32⟩
  | .hbm, ⟨52, _⟩ => ⟨S_, .i32⟩
  | .hbm, ⟨53, _⟩ => ⟨S1380000, .i32⟩
  | .hbm, ⟨54, _⟩ => ⟨S1380000, .i1⟩
  | .hbm, ⟨55, _⟩ => ⟨S_, .i32⟩
  | .hbm, ⟨56, _⟩ => ⟨S1380000, .i32⟩
  | .hbm, ⟨57, _⟩ => ⟨S1380000, .i32⟩
  | .hbm, ⟨58, _⟩ => ⟨S1380000, .i32⟩
  | .hbm, ⟨59, _⟩ => ⟨S1380000x1, .i32⟩
  | .hbm, ⟨60, _⟩ => ⟨S1380000x64, .f32⟩
  | .hbm, ⟨61, _⟩ => ⟨S1380000x1, .f32⟩
  | .hbm, ⟨62, _⟩ => ⟨S1380000x64, .f32⟩
  | .hbm, ⟨63, _⟩ => ⟨S1380000x64, .f32⟩
  | .hbm, ⟨64, _⟩ => ⟨S_, .f32⟩
  | .hbm, ⟨65, _⟩ => ⟨S100000x64, .f32⟩
  | .hbm, ⟨66, _⟩ => ⟨S1380000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1380000, .i32⟩
  | .hbm, ⟨77, _⟩ => ⟨S1380000, .i1⟩
  | .hbm, ⟨78, _⟩ => ⟨S_, .i32⟩
  | .hbm, ⟨79, _⟩ => ⟨S1380000, .i32⟩
  | .hbm, ⟨80, _⟩ => ⟨S1380000, .i32⟩
  | .hbm, ⟨81, _⟩ => ⟨S1380000, .i32⟩
  | .hbm, ⟨82, _⟩ => ⟨S1380000x1, .i32⟩
  | .hbm, ⟨83, _⟩ => ⟨S1380000x64, .f32⟩
  | .hbm, ⟨84, _⟩ => ⟨S1380000x1, .f32⟩
  | .hbm, ⟨85, _⟩ => ⟨S1380000x64, .f32⟩
  | .hbm, ⟨86, _⟩ => ⟨S1380000x64, .f32⟩
  | .hbm, ⟨87, _⟩ => ⟨S_, .f32⟩
  | .hbm, ⟨88, _⟩ => ⟨S100000x64, .f32⟩
  | .hbm, ⟨89, _⟩ => ⟨S1380000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S1380000, .i32⟩
  | .hbm, ⟨100, _⟩ => ⟨S1380000, .i1⟩
  | .hbm, ⟨101, _⟩ => ⟨S_, .i32⟩
  | .hbm, ⟨102, _⟩ => ⟨S1380000, .i32⟩
  | .hbm, ⟨103, _⟩ => ⟨S1380000, .i32⟩
  | .hbm, ⟨104, _⟩ => ⟨S1380000, .i32⟩
  | .hbm, ⟨105, _⟩ => ⟨S1380000x1, .i32⟩
  | .hbm, ⟨106, _⟩ => ⟨S1380000x64, .f32⟩
  | .hbm, ⟨107, _⟩ => ⟨S1380000x1, .f32⟩
  | .hbm, ⟨108, _⟩ => ⟨S1380000x64, .f32⟩
  | .hbm, ⟨109, _⟩ => ⟨S1380000x64, .f32⟩
  | .hbm, ⟨110, _⟩ => ⟨S_, .f32⟩
  | .hbm, ⟨111, _⟩ => ⟨S100000x64, .f32⟩
  | .hbm, ⟨112, _⟩ => ⟨S1380000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  concatenates_S1280000_S100000_S1380000_d0 : Shape.Concatenates [S1280000, S100000] S1380000 0
  bcast_S_S100000 : S_.BroadcastsInDim S100000 (![] : Fin 0 → Fin S100000.rank)
  bcast_S1380000_S1380000x1_0 : S1380000.BroadcastsInDim S1380000x1 (![0] : Fin 1 → Fin S1380000x1.rank)
  bcast_S_S1380000 : S_.BroadcastsInDim S1380000 (![] : Fin 0 → Fin S1380000.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  dot_S100000x64_S64x64_S100000x64_1_0_0_1_n_n_wf : DotDims.WF S100000x64 S64x64 S100000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1

variable [Facts₀]

def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf

class Facts : Prop extends Facts₀ where

variable [Facts]
-- ==== Proof.KTerms.lean ====
/-
  The host side of one layer of the kernel's program, as pure functions of what it reads.

  Every layer does the same between two launches: it takes the rows of the features `h` the edges' sources name
  (`take`: a source index below zero counts from the end; an index still out of range would read a filler instead of a
  row), scales row `e` by the edge's weight `norm e`, sums the scaled rows into the rows the edges' targets name
  (`agg`), and lays the [100000, 64] sums out as [50000, 128] — two consecutive rows side by side (`agg2`).  Beside it
  the layer's [64, 64] matrix is laid out twice on the diagonal of a [128, 128] one, zero elsewhere (`wbd`), and its bias
  twice in a row of 128 (`bbd`).  Each definition is the printed operations' own composition, generic in the float
  instance.
-/
import proofs.«427748_j59313498358226_3_alg».proof.Proof.Gen.KernelIdeal.Skeleton

noncomputable section

namespace Cert.KernelIdeal.KT

open Idealize.ShloMosaic Idealize.SL.Sem Cert.KernelIdeal Cert.KernelIdeal.Gen

variable {F : FTy → Type} [FloatOps F]

/-- The sources' indices as the gather's start column: an index below zero has the number of nodes added. -/
def takeIdx (rowf : IVec S1380000 32) : IVec S1380000x1 32 :=
  broadcastInDim S1380000x1 ![0] bcast_S1380000_S1380000x1_0
    (select (cmpi .slt rowf (broadcastInDim S1380000 ![] bcast_S_S1380000 (constantI S_ 32 0#32)))
      (addi rowf (broadcastInDim S1380000 ![] bcast_S_S1380000 (constantI S_ 32 100000#32))) rowf)

/-- Per edge: is the start index inside `[0, 99999]`? -/
def takeOk (rowf : IVec S1380000 32) : IVec S1380000 1 :=
  Host.reduce IntOp.andi
    (andi (cmpi .sge (takeIdx rowf) (broadcastInDim S1380000x1 ![] bcast_S_S1380000x1 (constantI S_ 32 0#32)))
      (cmpi .sle (takeIdx rowf)
        (broadcastInDim S1380000x1 ![0, 1] bcast_S1x1_S1380000x1_0_1
          (broadcastInDim S1x1 ![1] bcast_S1_S1x1_1 (constantI S1 32 99999#32)))))
    (constantI S_ 1 1#1) reducesTo_S1380000x1_S1380000_d1 h_S_

/-- The rows of `h` the edges' sources name; where the index is out of range, the filler. -/
def take (h : FVec F S100000x64 .f32) (rowf : IVec S1380000 32) : FVec F S1380000x64 .f32 :=
  select (broadcastInDim S1380000x64 ![0] bcast_S1380000_S1380000x64_0 (takeOk rowf))
    (Host.gather gather_S100000x64_S1380000x1_S1380000x64_1_0_n_n_0_1_164 h (takeIdx rowf))
    (broadcastInDim S1380000x64 ![] bcast_S_S1380000x64 (constant S_ .f32 0x7FC00000#32))

/-- The scaled rows summed into the rows the edges' targets name. -/
def agg (h : FVec F S100000x64 .f32) (rowf colf : IVec S1380000 32) (norm : FVec F S1380000 .f32) :
    FVec F S100000x64 .f32 :=
  Host.scatterAdd scatter_S100000x64_S1380000x1_S1380000x64_1_0_0_1
    (broadcastInDim S100000x64 ![] bcast_S_S100000x64 (constant S_ .f32 0x00000000#32))
    (broadcastInDim S1380000x1 ![0] bcast_S1380000_S1380000x1_0 colf)
    (mulf (take h rowf)
      (broadcastInDim S1380000x64 ![0, 1] bcast_S1380000x1_S1380000x64_0_1
        (broadcastInDim S1380000x1 ![0] bcast_S1380000_S1380000x1_0 norm)))

/-- The sums, two consecutive rows side by side. -/
def agg2 (h : FVec F S100000x64 .f32) (rowf colf : IVec S1380000 32) (norm : FVec F S1380000 .f32) :
    FVec F S50000x128 .f32 :=
  shapeCast S50000x128 (agg h rowf colf norm) shapeCasts_S100000x64_S50000x128

/-- The layer's matrix twice on the diagonal. -/
def wbd (W : FVec F S64x64 .f32) : FVec F S128x128 .f32 :=
  concatenate S128x128 0
    [⟨S64x128, concatenate S64x128 1 [⟨S64x64, W⟩, ⟨S64x64, broadcastInDim S64x64 ![] bcast_S_S64x64 (constant S_ .f32 0x00000000#32)⟩]
        concatenates_S64x64_S64x64_S64x128_d1⟩,
     ⟨S64x128, concatenate S64x128 1 [⟨S64x64, broadcastInDim S64x64 ![] bcast_S_S64x64 (constant S_ .f32 0x00000000#32)⟩, ⟨S64x64, W⟩]
        concatenates_S64x64_S64x64_S64x128_d1⟩]
    concatenates_S64x128_S64x128_S128x128_d0

/-- The layer's bias twice in a row. -/
def bbd (b : FVec F S64 .f32) : FVec F S1x128 .f32 :=
  shapeCast S1x128 (concatenate S128 0 [⟨S64, b⟩, ⟨S64, b⟩] concatenates_S64_S64_S128_d0) shapeCasts_S128_S1x128

/-- A launch's [50000, 128] result laid back out as [100000, 64]. -/
def unpack (o : FVec F S50000x128 .f32) : FVec F S100000x64 .f32 :=
  shapeCast S100000x64 o shapeCasts_S50000x128_S100000x64

end Cert.KernelIdeal.KT

end
-- ==== Proof.Spec.lean ====
/-
  One graph-convolution layer over the reals, in the two orders the two programs compute it.

  A layer takes node features `H` (one row of `D` reals per node), a list of `M` weighted edges — edge `e` reads the
  row of node `ρ e`, carries the weight `ν e` and is summed into the node its signed target index `ci e` names, or
  nowhere if that index names no node —, a `D × D` matrix `W` and a bias `b`.
  `preK` aggregates first and multiplies by `W` afterwards:  Σ_k (Σ_{e → n} H (ρ e) k · ν e) · W k j + b j.
  `preR` multiplies first and aggregates afterwards:           Σ_{e → n} (Σ_k H (ρ e) k · W k j) · ν e + b j.
  Over the reals the two agree: the finite sums commute and the product distributes over them.
-/
import Mathlib.Data.EReal.Inv
import Mathlib.Algebra.BigOperators.Ring.Finset
import Mathlib.Tactic.Ring

noncomputable section

namespace Cert.Gcn

/-- The real coercion into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- … and with a choice between a real and zero. -/
theorem coe_ite_zero (p : Prop) [Decidable p] (a : ℝ) :
    ((if p then a else 0 : ℝ) : EReal) = if p then (a : EReal) else 0 := by
  split_ifs <;> simp

variable {M N D : ℕ}

/-- What the edges into node `n` bring, in column `k`: the weighted rows they read, summed. -/
def agg (ci : Fin M → ℤ) (ρ : Fin M → Fin N) (ν : Fin M → ℝ) (H : Fin N → Fin D → ℝ) (n : Fin N) (k : Fin D) : ℝ :=
  ∑ e : Fin M, if ci e = (n.val : ℤ) then H (ρ e) k * ν e else 0

/-- Aggregate, then multiply by `W`, then add the bias. -/
def preK (ci : Fin M → ℤ) (ρ : Fin M → Fin N) (ν : Fin M → ℝ) (H : Fin N → Fin D → ℝ) (W : Fin D → Fin D → ℝ)
    (b : Fin D → ℝ) (n : Fin N) (j : Fin D) : ℝ :=
  (∑ k : Fin D, agg ci ρ ν H n k * W k j) + b j

/-- Multiply by `W`, then aggregate, then add the bias. -/
def preR (ci : Fin M → ℤ) (ρ : Fin M → Fin N) (ν : Fin M → ℝ) (H : Fin N → Fin D → ℝ) (W : Fin D → Fin D → ℝ)
    (b : Fin D → ℝ) (n : Fin N) (j : Fin D) : ℝ :=
  (∑ e : Fin M, if ci e = (n.val : ℤ) then (∑ k : Fin D, H (ρ e) k * W k j) * ν e else 0) + b j

/-- The two orders agree over the reals. -/
theorem preK_eq_preR (ci : Fin M → ℤ) (ρ : Fin M → Fin N) (ν : Fin M → ℝ) (H : Fin N → Fin D → ℝ)
    (W : Fin D → Fin D → ℝ) (b : Fin D → ℝ) (n : Fin N) (j : Fin D) :
    preK ci ρ ν H W b n j = preR ci ρ ν H W b n j := by
  unfold preK preR agg
  congr 1
  simp only [Finset.sum_mul]
  rw [Finset.sum_comm]
  refine Finset.sum_congr rfl fun e _ => ?_
  split_ifs with h
  · refine Finset.sum_congr rfl fun k _ => by ring
  · simp

/-- The activation: the positive part, or nothing. -/
def act (relu : Bool) (x : ℝ) : ℝ := if relu then max x 0 else x

end Cert.Gcn

end
-- ==== Proof.LibScatterAdd.lean ====
/-
  The host's accumulating float scatter (`Host.scatterAdd`, at the ideal instance `Ideal.hostScatterAdd`) read at
  an index, at generic extents, for the two layouts a segment sum prints:
  `scatterAdd_rows` — an [N, D] matrix of updates scattered by rows onto a [C, D] operand, row `r` going to the row
  that entry `(r, 0)` of an [N, 1] column of 32-bit indices names (update window axis 1, inserted window axis 0,
  scatter axis 0, index vector axis 1): entry `(c, e)` of the result is the operand's plus the sum over the rows `r`
  whose index, read signed, is `c` of the update entry `(r, e)`;
  `scatterAdd_vec` — an [N] vector of updates scattered onto a [C] operand the same way.
  An index that, read signed, falls outside the operand's rows drops its update.
-/
import Idealize.ShloMosaic.PureOps.Ideal
import Idealize.ShloMosaic.Lib.ValueIdx
import Idealize.ShloMosaic.Lib.ValueIdxRank1

noncomputable section

namespace Cert.ScatterAdd

open Idealize.ShloMosaic Idealize.ShloMosaic.ValueIdx

/-! ## Rows of a matrix -/

section Rows
variable {C D N : ℕ}
  (wf : ScatterDims.WF (⟨2, ![C, D]⟩ : Shape) (⟨2, ![N, 1]⟩ : Shape) (⟨2, ![N, D]⟩ : Shape) [1] [0] [0] 1)

/-- The row scatter's dimension numbers: the updates' axis 1 is the window, the operand's axis 0 is inserted and is
    the one the index names. -/
abbrev rowsDims : ScatterDims (⟨2, ![C, D]⟩ : Shape) (⟨2, ![N, 1]⟩ : Shape) (⟨2, ![N, D]⟩ : Shape) :=
  ⟨[1], [0], [0], 1, wf⟩

/-- On the row axis the window starts at the row the index column names, read signed. -/
theorem rows_start0 (j : (⟨2, ![N, D]⟩ : Shape).Idx) (idx : IVec (⟨2, ![N, 1]⟩ : Shape) 32) :
    (rowsDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rows_start1 (j : (⟨2, ![N, D]⟩ : Shape).Idx) (idx : IVec (⟨2, ![N, 1]⟩ : Shape) 32) :
    (rowsDims wf).start j idx 1 = 0 := by
  unfold ScatterDims.start
  exact dif_neg (show (1 : Fin 2) ∉ ([0] : List (Fin 2)) by decide)

/-- The row axis is inserted: no window coordinate. -/
theorem rows_window0 (j : (⟨2, ![N, D]⟩ : Shape).Idx) : (rowsDims wf).window j 0 = 0 := by
  unfold ScatterDims.window
  exact dif_neg (show (0 : Fin 2) ∉ (List.finRange 2).filter (· ∉ ([0] : List (Fin 2))) by decide)

/-- The column axis carries the update's column. -/
theorem rows_window1 (j : (⟨2, ![N, D]⟩ : Shape).Idx) : (rowsDims wf).window j 1 = (j 1).val := by
  unfold ScatterDims.window
  exact (dif_pos (show (1 : Fin 2) ∈ (List.finRange 2).filter (· ∉ ([0] : List (Fin 2))) by decide)).trans rfl

/-- An update lands on entry `(c, e)` exactly when its row's index, read signed, is `c` and its column is `e`:
    the range conditions then hold because `c` is a row and `e` a column of the operand. -/
theorem rows_resultIdx_iff (j : (⟨2, ![N, D]⟩ : Shape).Idx) (idx : IVec (⟨2, ![N, 1]⟩ : Shape) 32)
    (c : Fin C) (e : Fin D) :
    (rowsDims wf).resultIdx? j idx = some (ix2 c e)
      ↔ (idx (ix2 (j 0) (0 : Fin 1))).toInt = (c.val : ℤ) ∧ (j 1).val = e.val := by
  have hs0 := rows_start0 wf j idx
  have hs1 := rows_start1 wf j idx
  have hw0 := rows_window0 wf j
  have hw1 := rows_window1 wf j
  have hj1 : (j 1).val < D := idx2_lt1 j
  have hc : c.val < C := c.isLt
  have he : e.val < D := e.isLt
  unfold ScatterDims.resultIdx?
  split
  · rename_i h
    rw [Option.some.injEq]
    constructor
    · intro hf
      have h0 : ((rowsDims wf).start j idx 0 + ((rowsDims wf).window j 0 : ℕ)).toNat = c.val :=
        congrArg Fin.val (congrFun hf 0)
      have h1 : ((rowsDims wf).start j idx 1 + ((rowsDims wf).window j 1 : ℕ)).toNat = e.val :=
        congrArg Fin.val (congrFun hf 1)
      have hh0 : 0 ≤ (rowsDims wf).start j idx 0 + ((rowsDims wf).window j 0 : ℕ) := (h 0).1
      rw [hs0, hw0] at h0 hh0
      rw [hs1, hw1] at h1
      omega
    · intro ⟨h0, h1⟩
      funext a
      refine Fin.ext ?_
      match a with
      | ⟨0, _⟩ =>
        show ((rowsDims wf).start j idx 0 + ((rowsDims wf).window j 0 : ℕ)).toNat = c.val
        rw [hs0, hw0]
        omega
      | ⟨1, _⟩ =>
        show ((rowsDims wf).start j idx 1 + ((rowsDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (rowsDims wf).start j idx 0 + ((rowsDims wf).window j 0 : ℕ)
          ∧ (rowsDims wf).start j idx 0 + ((rowsDims wf).window j 0 : ℕ) < (C : ℤ)
        rw [hs0, hw0]
        omega
      | ⟨1, _⟩ =>
        show 0 ≤ (rowsDims wf).start j idx 1 + ((rowsDims wf).window j 1 : ℕ)
          ∧ (rowsDims wf).start j idx 1 + ((rowsDims wf).window j 1 : ℕ) < (D : ℤ)
        rw [hs1, hw1]
        omega

end Rows

/-- Rows: update row `r` (all its columns) lands on operand row `idx r`; so entry `(c, e)` of the result is the
    operand's plus the sum of the entries `(r, e)` of the rows whose index is `c`. -/
theorem scatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Ideal.hostScatterAdd d x idx upd (ix2 c e)
      = x (ix2 c e) + ∑ r : Fin N, if (idx (ix2 r (0 : Fin 1))).toInt = (c.val : ℤ) then upd (ix2 r e) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun r _ => ?_
  refine ((Finset.sum_congr rfl fun e' _ => ?_).trans (Finset.sum_ite_eq' Finset.univ e
    (fun e' => if (idx (ix2 r (0 : Fin 1))).toInt = (c.val : ℤ) then upd (ix2 r e') else 0))).trans
    (if_pos (Finset.mem_univ e))
  have hiff : (rowsDims wf).resultIdx? (ix2 r e') idx = some (ix2 c e)
      ↔ (idx (ix2 r (0 : Fin 1))).toInt = (c.val : ℤ) ∧ e'.val = e.val :=
    rows_resultIdx_iff wf (ix2 r e') idx c e
  by_cases he : e' = e
  · subst he
    rw [if_pos rfl]
    exact if_congr (hiff.trans ⟨fun h => h.1, fun h => ⟨h, rfl⟩⟩) rfl rfl
  · rw [if_neg he]
    exact if_neg fun hh => he (Fin.ext (hiff.1 hh).2)

/-! ## Entries of a vector -/

section Vec
variable {C N : ℕ}
  (wf : ScatterDims.WF (⟨1, ![C]⟩ : Shape) (⟨2, ![N, 1]⟩ : Shape) (⟨1, ![N]⟩ : Shape) [] [0] [0] 1)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The entry scatter's dimension numbers: the updates have no window axis, the operand's one axis is inserted and
    is the one the index names. -/
abbrev vecDims : ScatterDims (⟨1, ![C]⟩ : Shape) (⟨2, ![N, 1]⟩ : Shape) (⟨1, ![N]⟩ : Shape) :=
  ⟨[], [0], [0], 1, wf⟩

/-- The window starts at the entry the index column names, read signed. -/
theorem vec_start0 (j : (⟨1, ![N]⟩ : Shape).Idx) (idx : IVec (⟨2, ![N, 1]⟩ : Shape) 32) :
    (vecDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's axis is inserted: no window coordinate. -/
theorem vec_window0 (j : (⟨1, ![N]⟩ : Shape).Idx) : (vecDims wf).window j 0 = 0 := by
  unfold ScatterDims.window
  exact dif_neg (show (0 : Fin 1) ∉ (List.finRange 1).filter (· ∉ ([0] : List (Fin 1))) by decide)

/-- An update lands on entry `c` exactly when its index, read signed, is `c`: the range condition then holds
    because `c` is an entry of the operand. -/
theorem vec_resultIdx_iff (j : (⟨1, ![N]⟩ : Shape).Idx) (idx : IVec (⟨2, ![N, 1]⟩ : Shape) 32) (c : Fin C) :
    (vecDims wf).resultIdx? j idx = some (ix1 c) ↔ (idx (ix2 (j 0) (0 : Fin 1))).toInt = (c.val : ℤ) := by
  have hs0 := vec_start0 wf j idx
  have hw0 := vec_window0 wf j
  have hc : c.val < C := c.isLt
  unfold ScatterDims.resultIdx?
  split
  · rename_i h
    rw [Option.some.injEq]
    constructor
    · intro hf
      have h0 : ((vecDims wf).start j idx 0 + ((vecDims wf).window j 0 : ℕ)).toNat = c.val :=
        congrArg Fin.val (congrFun hf 0)
      have hh0 : 0 ≤ (vecDims wf).start j idx 0 + ((vecDims wf).window j 0 : ℕ) := (h 0).1
      rw [hs0, hw0] at h0 hh0
      omega
    · intro h0
      funext a
      refine Fin.ext ?_
      match a with
      | ⟨0, _⟩ =>
        show ((vecDims wf).start j idx 0 + ((vecDims wf).window j 0 : ℕ)).toNat = c.val
        rw [hs0, hw0]
        omega
  · rename_i h
    constructor
    · intro hf
      exact absurd hf (by simp)
    · intro h0
      exfalso
      apply h
      intro a
      match a with
      | ⟨0, _⟩ =>
        show 0 ≤ (vecDims wf).start j idx 0 + ((vecDims wf).window j 0 : ℕ)
          ∧ (vecDims wf).start j idx 0 + ((vecDims wf).window j 0 : ℕ) < (C : ℤ)
        rw [hs0, hw0]
        omega

end Vec

/-- Entries of a vector: update entry `r` lands on operand entry `idx r`. -/
theorem scatterAdd_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → EReal) (idx : IVec (⟨2, ![N, 1]⟩ : Shape) 32)
    (upd : (⟨1, ![N]⟩ : Shape).Idx → EReal) (c : Fin C) :
    Ideal.hostScatterAdd d x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  unfold Ideal.hostScatterAdd
  congr 1
  rw [Finset.sum_filter, sum_idx1]
  refine Finset.sum_congr rfl fun r _ => ?_
  exact if_congr (vec_resultIdx_iff wf (ix1 r) idx c) rfl rfl

end Cert.ScatterAdd

end
-- ==== Proof.LibGatherRows.lean ====
/-
  The host's gather of whole rows read at an index, at generic extents.
  `gather_rows_apply` — a [C, D] matrix indexed by an [N, 1] column of 32-bit words (`x[idx]` along the first axis:
  the operand's axis 1 an offset axis carried whole, axis 0 collapsed and named by the start index, the index vector on
  axis 1, slices of one row): entry `(r, e)` of the result is the operand at the row the word `idx (r, 0)` names, read
  signed and clamped into `[0, C - 1]`, and column `e`.
-/
import Idealize.ShloMosaic.PureOps.ShapeOps
import Idealize.ShloMosaic.Lib.ValueIdx

noncomputable section

namespace Cert.LibGatherRows

open Idealize.ShloMosaic Idealize.ShloMosaic.ValueIdx

/-- The dimension numbers of the row layout (operand `[C, D]`, start indices `[N, 1]`, result `[N, D]`). -/
private abbrev rowDims (C D N : ℕ)
    (wf : GatherDims.WF (⟨2, ![C, D]⟩ : Shape) (⟨2, ![N, 1]⟩ : Shape) (⟨2, ![N, D]⟩ : Shape) [1] [0] [] [0] [] 1
      ![1, D]) :
    GatherDims (⟨2, ![C, D]⟩ : Shape) (⟨2, ![N, 1]⟩ : Shape) (⟨2, ![N, D]⟩ : Shape) :=
  ⟨[1], [0], [], [], [0], 1, ![1, D], wf⟩

/-- A row gather at an index: the row the start index names (signed, clamped), the same column. On the operand's
    axis 0 (collapsed, named by the start index map) the coordinate is the start index alone, the word `idx (r, 0)`
    read signed and clamped into `[0, C - 1]` (the slice has one row); on axis 1 (not in the start index map, so its
    start is 0, and not a batching axis) the coordinate is the offset alone, the result's coordinate `e` on its one
    offset axis. -/
theorem gather_rows_apply {α : Type} {C D N : ℕ} (hC : 0 < C)
    (d : GatherDims (⟨2, ![C, D]⟩ : Shape) (⟨2, ![N, 1]⟩ : Shape) (⟨2, ![N, D]⟩ : Shape))
    (hod : d.offsetDims = [1]) (hcs : d.collapsedSliceDims = [0]) (hob : d.operandBatchingDims = [])
    (hsb : d.startIndicesBatchingDims = []) (hsim : d.startIndexMap = [0]) (hiv : d.indexVectorDim = 1)
    (hss : d.sliceSizes = ![1, D])
    (x : (⟨2, ![C, D]⟩ : Shape).Idx → α) (idx : IVec (⟨2, ![N, 1]⟩ : Shape) 32) (r : Fin N) (e : Fin D) :
    Host.gather d x idx (ix2 r e)
      = x (ix2 (⟨min (idx (ix2 r (0 : Fin 1))).toInt.toNat (C - 1), by omega⟩ : Fin C) e) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (rowDims C D N wf).start (ix2 r e) idx 0 + (rowDims C D N wf).batchCoord (ix2 r e) 0
      + (rowDims C D N wf).offCoord (ix2 r e) 0 = min (idx (ix2 r (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims C D N wf).startIndexMap from List.mem_singleton.mpr rfl)]
    have hsi : ∀ c, (rowDims C D N wf).siIdx (ix2 r e) c = ix2 r (0 : Fin 1) := by
      intro c
      funext b; refine Fin.ext ?_
      match b with
      | ⟨0, _⟩ => rfl
      | ⟨1, _⟩ => exact Nat.lt_one_iff.mp c.isLt
    rw [hsi]
    rfl
  | ⟨1, _⟩ =>
    show (rowDims C D N wf).start (ix2 r e) idx 1 + (rowDims C D N wf).batchCoord (ix2 r e) 1
      + (rowDims C D N wf).offCoord (ix2 r e) 1 = e.val
    have hns : (1 : Fin 2) ∉ (rowDims C D N wf).startIndexMap :=
      fun h => Nat.one_ne_zero (congrArg Fin.val (List.mem_singleton.mp h))
    have hnc : (1 : Fin 2) ∉ (rowDims C D N wf).collapsedSliceDims :=
      fun h => Nat.one_ne_zero (congrArg Fin.val (List.mem_singleton.mp h))
    have hk : (1 : Fin 2) ∈ (rowDims C D N wf).sKept := (GatherDims.mem_sKept _ _).mpr ⟨hnc, List.not_mem_nil⟩
    rw [GatherDims.batchCoord_eq_zero _ _ _ List.not_mem_nil]
    unfold GatherDims.start
    rw [dif_neg hns]
    simp only [Nat.add_zero, Nat.zero_add]
    unfold GatherDims.offCoord
    rw [dif_pos hk]
    rfl

end Cert.LibGatherRows

end
-- ==== Proof.KAgg.lean ====
/-
  The kernel's aggregation at the exact extended reals, read at an index.

  `agg` takes the rows of the features the edges' sources name, scales row `e` by the edge's weight and sums the scaled
  rows into the rows the edges' targets name.  Where every source index names a node the take's range test passes on
  every edge, so the filler is never read and the take is the plain row gather; the scatter-add from zeros is then,
  at row `n` and column `k`, the sum over the edges whose signed target index is `n` of the source row's entry times
  the weight — over real features and real weights the real number `Cert.Gcn.agg`.
-/
import proofs.«427748_j59313498358226_3_alg».proof.Proof.KTerms
import proofs.«427748_j59313498358226_3_alg».proof.Proof.Spec
import proofs.«427748_j59313498358226_3_alg».proof.Proof.LibScatterAdd
import proofs.«427748_j59313498358226_3_alg».proof.Proof.LibGatherRows
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.KT

open Idealize.ShloMosaic Idealize.ShloMosaic.ValueIdx Idealize.SL.Sem Cert.KernelIdeal Cert.KernelIdeal.Gen

/-! ## Broadcasts and a one-entry conjunction, read at an index, at generic extents -/

section Reads
variable {α : Type} {n m : ℕ}

/-- A vector laid out as a column reads, at row `r`, the vector at `r`. -/
theorem col_read (hb : (⟨1, ![n]⟩ : Shape).BroadcastsInDim ⟨2, ![n, 1]⟩ ![0]) (v : (⟨1, ![n]⟩ : Shape).Idx → α)
    (r : Fin n) (z : Fin 1) :
    broadcastInDim ⟨2, ![n, 1]⟩ ![0] hb v (ix2 r z) = v (ix1 r) := by
  refine broadcastInDim_apply _ hb v _ _ fun a => ?_
  match a with
  | ⟨0, _⟩ =>
    show r.val = if n = 1 then 0 else r.val
    have := r.isLt
    split <;> omega

/-- A vector laid along the rows of a rectangle reads, at `(r, e)`, the vector at `r`. -/
theorem rows_read (hb : (⟨1, ![n]⟩ : Shape).BroadcastsInDim ⟨2, ![n, m]⟩ ![0]) (v : (⟨1, ![n]⟩ : Shape).Idx → α)
    (r : Fin n) (e : Fin m) :
    broadcastInDim ⟨2, ![n, m]⟩ ![0] hb v (ix2 r e) = v (ix1 r) := by
  refine broadcastInDim_apply _ hb v _ _ fun a => ?_
  match a with
  | ⟨0, _⟩ =>
    show r.val = if n = 1 then 0 else r.val
    have := r.isLt
    split <;> omega

/-- A column stretched to a rectangle reads, at `(r, e)`, the column at row `r`. -/
theorem ofCol_read (hb : (⟨2, ![n, 1]⟩ : Shape).BroadcastsInDim ⟨2, ![n, m]⟩ ![0, 1]) (v : (⟨2, ![n, 1]⟩ : Shape).Idx → α)
    (r : Fin n) (e : Fin m) :
    broadcastInDim ⟨2, ![n, m]⟩ ![0, 1] hb v (ix2 r e) = v (ix2 r (0 : Fin 1)) := by
  refine broadcastInDim_apply _ hb v _ _ fun a => ?_
  match a with
  | ⟨0, _⟩ =>
    show r.val = if n = 1 then 0 else r.val
    have := r.isLt
    split <;> omega
  | ⟨1, _⟩ => rfl

/-- A conjunction taken along an axis of one entry is that entry's conjunction with the initial bit. -/
theorem reduce_and_col (x : IVec ⟨2, ![n, 1]⟩ 1) {u : Shape} (init : u.Idx → BitVec 1)
    (h : (⟨2, ![n, 1]⟩ : Shape).ReducesTo [1] ⟨1, ![n]⟩) (hu : 0 < u.numel) (r : Fin n) :
    Host.reduce IntOp.andi x init h hu (ix1 r) = IntOp.andi (x (ix2 r (0 : Fin 1))) (init (Shape.Idx.first hu)) := by
  rw [Host.reduce_eq_fold]
  have hset : (Finset.univ.filter fun i : (⟨2, ![n, 1]⟩ : Shape).Idx => h.drop i = ix1 r) = {ix2 r (0 : Fin 1)} := by
    ext i
    simp only [Finset.mem_filter, Finset.mem_univ, true_and, Finset.mem_singleton]
    have hv : (h.drop i 0 : ℕ) = i 0 := Shape.ReducesTo.drop_apply_val h i 0
    constructor
    · intro e
      rw [e] at hv
      rw [eq_ix2 i]
      have h0 : i 0 = r := Fin.ext hv.symm
      have h1 : i 1 = (0 : Fin 1) := Fin.ext (by have := idx2_lt1 i; show (i 1).val = 0; omega)
      rw [h0, h1]
      rfl
    · intro e
      funext b
      obtain rfl : b = 0 := Subsingleton.elim _ _
      refine Fin.ext ?_
      rw [hv, e]
      rfl
  rw [hset, Finset.fold_singleton]

end Reads

/-! ## The take, per edge -/

/-- The start index of edge `r` is its source index when that is not negative. -/
theorem takeIdx_apply (rowf : IVec S1380000 32) (r : Fin 1380000) (z : Fin 1) (h0 : 0 ≤ (rowf (ix1 r)).toInt) :
    takeIdx rowf (ix2 r z) = rowf (ix1 r) := by
  unfold takeIdx
  rw [col_read, select_apply]
  have hlt : cmpi .slt rowf (broadcastInDim S1380000 ![] bcast_S_S1380000 (constantI S_ 32 0#32)) (ix1 r) = 0#1 := by
    show BitVec.ofBool ((rowf (ix1 r)).slt 0#32) = 0#1
    have hz : (0#32 : BitVec 32).toInt = 0 := by decide
    rw [BitVec.slt, hz, decide_eq_false (by omega)]
    rfl
  rw [hlt, select_zero]

/-- The range test passes on an edge whose source index names a node. -/
theorem takeOk_apply (rowf : IVec S1380000 32) (r : Fin 1380000) (h0 : 0 ≤ (rowf (ix1 r)).toInt)
    (h1 : (rowf (ix1 r)).toInt < 100000) : takeOk rowf (ix1 r) = 1#1 := by
  unfold takeOk
  rw [reduce_and_col]
  show IntOp.andi (IntOp.andi (IntOp.cmpi .sge (takeIdx rowf (ix2 r (0 : Fin 1))) 0#32)
      (IntOp.cmpi .sle (takeIdx rowf (ix2 r (0 : Fin 1))) 99999#32)) 1#1 = 1#1
  rw [takeIdx_apply rowf r 0 h0]
  have hz : (0#32 : BitVec 32).toInt = 0 := by decide
  have hm : (99999#32 : BitVec 32).toInt = 99999 := by decide
  have hge : IntOp.cmpi .sge (rowf (ix1 r)) 0#32 = 1#1 := by
    show BitVec.ofBool ((0#32 : BitVec 32).sle (rowf (ix1 r))) = 1#1
    rw [BitVec.sle, hz, decide_eq_true (by omega)]
    rfl
  have hle : IntOp.cmpi .sle (rowf (ix1 r)) 99999#32 = 1#1 := by
    show BitVec.ofBool ((rowf (ix1 r)).sle 99999#32) = 1#1
    rw [BitVec.sle, hm, decide_eq_true (by omega)]
    rfl
  rw [hge, hle]
  rfl

/-- The take reads, on an edge whose source index names node `p`, row `p` of the features. -/
theorem take_apply (h : FVec Ideal S100000x64 .f32) (rowf : IVec S1380000 32) (r : Fin 1380000) (e : Fin 64)
    (p : Fin 100000) (hp : (rowf (ix1 r)).toInt = (p.val : ℤ)) :
    take h rowf (ix2 r e) = h (ix2 p e) := by
  have hp' := p.isLt
  have h0 : 0 ≤ (rowf (ix1 r)).toInt := by omega
  have h1 : (rowf (ix1 r)).toInt < 100000 := by omega
  unfold take
  rw [select_apply, rows_read, takeOk_apply rowf r h0 h1, select_one,
    Cert.LibGatherRows.gather_rows_apply (by norm_num) _ rfl rfl rfl rfl rfl rfl rfl]
  refine congrArg (fun q : Fin 100000 => h (ix2 q e)) (Fin.ext ?_)
  show min (takeIdx rowf (ix2 r (0 : Fin 1))).toInt.toNat (100000 - 1) = p.val
  rw [takeIdx_apply rowf r 0 h0]
  omega

/-! ## The scatter-add from zeros -/

/-- The row scatter-add read at `(n, j)`: the operand's entry plus the update entries `(r, j)` of the rows whose
    signed index is `n`. -/
theorem scatter_at (x : FVec Ideal S100000x64 .f32) (idx : IVec S1380000x1 32) (upd : FVec Ideal S1380000x64 .f32)
    (n : Fin 100000) (j : Fin 64) :
    Host.scatterAdd scatter_S100000x64_S1380000x1_S1380000x64_1_0_0_1 x idx upd (ix2 n j)
      = x (ix2 n j) + ∑ r : Fin 1380000, if (idx (ix2 r (0 : Fin 1))).toInt = (n.val : ℤ) then upd (ix2 r j) else 0 :=
  Cert.ScatterAdd.scatterAdd_rows _ rfl rfl rfl rfl x idx upd n j

/-- The operand the sums start from is zero everywhere. -/
theorem zeros_at (j : S100000x64.Idx) :
    broadcastInDim S100000x64 ![] bcast_S_S100000x64 (constant (F := Ideal) S_ .f32 0x00000000#32) j = 0 :=
  Ideal.ofBits_zero_f32

/-- What edge `r` adds to column `k` of its target row: the source row's entry times the edge's weight. -/
theorem scaled_at (h : FVec Ideal S100000x64 .f32) (rowf : IVec S1380000 32) (norm : FVec Ideal S1380000 .f32)
    (r : Fin 1380000) (k : Fin 64) (p : Fin 100000) (hp : (rowf (ix1 r)).toInt = (p.val : ℤ)) :
    mulf (take h rowf)
        (broadcastInDim S1380000x64 ![0, 1] bcast_S1380000x1_S1380000x64_0_1
          (broadcastInDim S1380000x1 ![0] bcast_S1380000_S1380000x1_0 norm)) (ix2 r k)
      = h (ix2 p k) * norm (ix1 r) := by
  rw [mulf_apply, take_apply h rowf r k p hp, ofCol_read, col_read]

/-- Entry (n, k) of the aggregation over real data whose source indices name nodes. -/
theorem agg_apply (h : FVec Ideal S100000x64 .f32) (rowf colf : IVec S1380000 32) (norm : FVec Ideal S1380000 .f32)
    (H : Fin 100000 → Fin 64 → ℝ) (hH : ∀ n k, h (ix2 n k) = (H n k : EReal))
    (ν : Fin 1380000 → ℝ) (hν : ∀ e, norm (ix1 e) = (ν e : EReal))
    (ρ : Fin 1380000 → Fin 100000) (hρ : ∀ e, (rowf (ix1 e)).toInt = ((ρ e).val : ℤ))
    (n : Fin 100000) (k : Fin 64) :
    agg h rowf colf norm (ix2 n k)
      = ((Cert.Gcn.agg (fun e => (colf (ix1 e)).toInt) ρ ν H n k : ℝ) : EReal) := by
  unfold agg
  rw [scatter_at, zeros_at, zero_add]
  unfold Cert.Gcn.agg
  rw [Cert.Gcn.coe_sum]
  refine Finset.sum_congr rfl fun r _ => ?_
  rw [col_read, scaled_at h rowf norm r k (ρ r) (hρ r), hH, hν, Cert.Gcn.coe_ite_zero, EReal.coe_mul]

end Cert.KernelIdeal.KT

end
-- ==== Proof.KLayer.lean ====
/-
  One layer of the kernel's program at the exact extended reals, as one function and read at an index.

  `lin` is what a launch leaves in its [50000, 128] result: row by row, the row times the [128, 128] matrix plus the
  bias row, and its positive part where the layer has an activation.  `layer` is the whole layer: the host side's
  aggregated and re-laid features (`agg2`), the matrix laid twice on the diagonal (`wbd`), the bias laid twice (`bbd`),
  through the launch, laid back out as [100000, 64].
  `layer_apply`: where the features, the edge weights, the matrix and the bias are real numbers and every source index
  names a node, entry (n, j) of the layer is the real number `Cert.Gcn.preK` computes — aggregate, then multiply —
  through the activation.  Two consecutive rows lie side by side in a row of 128 and the matrix acts on each half by
  itself: the zero blocks contribute nothing, so the sum over 128 is the sum over the node's own 64.
-/
import proofs.«427748_j59313498358226_3_alg».proof.Proof.KTerms
import proofs.«427748_j59313498358226_3_alg».proof.Proof.KAgg
import proofs.«427748_j59313498358226_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.KT

open Idealize.ShloMosaic Idealize.ShloMosaic.ValueIdx Idealize.SL.Sem Cert.KernelIdeal Cert.KernelIdeal.Gen

/-- What a launch leaves in its result: each row times the matrix, plus the bias row; its positive part if `relu`. -/
def lin (relu : Bool) (a : FVec Ideal S50000x128 .f32) (w : FVec Ideal S128x128 .f32) (b : FVec Ideal S1x128 .f32) :
    FVec Ideal S50000x128 .f32 := fun i =>
  if relu then max ((∑ k : Fin 128, a (ix2 (i 0) k) * w (ix2 k (i 1))) + b (ix2 (0 : Fin 1) (i 1))) 0
  else (∑ k : Fin 128, a (ix2 (i 0) k) * w (ix2 k (i 1))) + b (ix2 (0 : Fin 1) (i 1))

/-- One whole layer of the kernel's program. -/
def layer (relu : Bool) (h : FVec Ideal S100000x64 .f32) (rowf colf : IVec S1380000 32) (norm : FVec Ideal S1380000 .f32)
    (W : FVec Ideal S64x64 .f32) (b : FVec Ideal S64 .f32) : FVec Ideal S100000x64 .f32 :=
  unpack (lin relu (agg2 h rowf colf norm) (wbd W) (bbd b))

/-- The result laid back out, at an even row: row `2p` is the left half of packed row `p`. -/
theorem unpack_even (o : FVec Ideal S50000x128 .f32) (p : Fin 50000) (j : Fin 64) :
    unpack o (ix2 (⟨2 * p.val, by omega⟩ : Fin 100000) j) = o (ix2 p (⟨j.val, by omega⟩ : Fin 128)) := by
  unfold unpack
  refine shapeCast_apply _ _ _ _ ?_
  rw [Shape.rowMajor_val_two, Shape.rowMajor_val_two]
  show p.val * 128 + j.val = (2 * p.val) * 64 + j.val
  omega

/-- The result laid back out, at an odd row: row `2p + 1` is the right half of packed row `p`. -/
theorem unpack_odd (o : FVec Ideal S50000x128 .f32) (p : Fin 50000) (j : Fin 64) :
    unpack o (ix2 (⟨2 * p.val + 1, by omega⟩ : Fin 100000) j) = o (ix2 p (⟨64 + j.val, by omega⟩ : Fin 128)) := by
  unfold unpack
  refine shapeCast_apply _ _ _ _ ?_
  rw [Shape.rowMajor_val_two, Shape.rowMajor_val_two]
  show p.val * 128 + (64 + j.val) = (2 * p.val + 1) * 64 + j.val
  omega

/-- Two rows side by side, left half: packed row `p` at a column below 64 is row `2p`. -/
theorem pack_left (x : FVec Ideal S100000x64 .f32) (p : Fin 50000) (k : Fin 64) :
    shapeCast S50000x128 x shapeCasts_S100000x64_S50000x128 (ix2 p (⟨k.val, by omega⟩ : Fin 128))
      = x (ix2 (⟨2 * p.val, by omega⟩ : Fin 100000) k) := by
  refine shapeCast_apply _ _ _ _ ?_
  rw [Shape.rowMajor_val_two, Shape.rowMajor_val_two]
  show (2 * p.val) * 64 + k.val = p.val * 128 + k.val
  omega

/-- Two rows side by side, right half: packed row `p` at column `64 + k` is row `2p + 1`. -/
theorem pack_right (x : FVec Ideal S100000x64 .f32) (p : Fin 50000) (k : Fin 64) :
    shapeCast S50000x128 x shapeCasts_S100000x64_S50000x128 (ix2 p (⟨64 + k.val, by omega⟩ : Fin 128))
      = x (ix2 (⟨2 * p.val + 1, by omega⟩ : Fin 100000) k) := by
  refine shapeCast_apply _ _ _ _ ?_
  rw [Shape.rowMajor_val_two, Shape.rowMajor_val_two]
  show (2 * p.val + 1) * 64 + k.val = p.val * 128 + (64 + k.val)
  omega

/-- A block of zeros reads zero everywhere. -/
theorem zeros_apply (i : S64x64.Idx) :
    broadcastInDim (α := Ideal .f32) S64x64 ![] bcast_S_S64x64 (constant (F := Ideal) S_ .f32 0x00000000#32) i = 0 := by
  rw [StableHlo.Predicate.bcast_scalar bcast_S_S64x64 h_S_, constant_apply, Ideal.ofBits_zero_f32]

/-- The matrix twice on the diagonal, upper left block: the matrix. -/
theorem wbd_tl (W : FVec Ideal S64x64 .f32) (k c : Fin 64) :
    wbd W (ix2 (⟨k.val, by omega⟩ : Fin 128) (⟨c.val, by omega⟩ : Fin 128)) = W (ix2 k c) := by
  unfold wbd
  refine (concatenate_pair_apply_left _ _ _ concatenates_S64x128_S64x128_S128x128_d0 _ rfl
    (ix2 k (⟨c.val, by omega⟩ : Fin 128)) (fun b => match b with | ⟨0, _⟩ => rfl | ⟨1, _⟩ => rfl)).trans ?_
  exact concatenate_pair_apply_left _ _ _ concatenates_S64x64_S64x64_S64x128_d1 _ rfl (ix2 k c)
    (fun b => match b with | ⟨0, _⟩ => rfl | ⟨1, _⟩ => rfl)

/-- Upper right block: zero. -/
theorem wbd_tr (W : FVec Ideal S64x64 .f32) (k c : Fin 64) :
    wbd W (ix2 (⟨k.val, by omega⟩ : Fin 128) (⟨64 + c.val, by omega⟩ : Fin 128)) = 0 := by
  unfold wbd
  refine (concatenate_pair_apply_left _ _ _ concatenates_S64x128_S64x128_S128x128_d0 _ rfl
    (ix2 k (⟨64 + c.val, by omega⟩ : Fin 128)) (fun b => match b with | ⟨0, _⟩ => rfl | ⟨1, _⟩ => rfl)).trans ?_
  refine (concatenate_pair_apply_right _ _ _ concatenates_S64x64_S64x64_S64x128_d1 _ rfl rfl (ix2 k c)
    (fun b hb => match b, hb with | ⟨0, _⟩, _ => rfl | ⟨1, _⟩, hb => absurd rfl hb) ?_).trans (zeros_apply _)
  show c.val + 64 = 64 + c.val
  omega

/-- Lower left block: zero. -/
theorem wbd_bl (W : FVec Ideal S64x64 .f32) (k c : Fin 64) :
    wbd W (ix2 (⟨64 + k.val, by omega⟩ : Fin 128) (⟨c.val, by omega⟩ : Fin 128)) = 0 := by
  unfold wbd
  refine (concatenate_pair_apply_right _ _ _ concatenates_S64x128_S64x128_S128x128_d0 _ rfl rfl
    (ix2 k (⟨c.val, by omega⟩ : Fin 128))
    (fun b hb => match b, hb with | ⟨0, _⟩, hb => absurd rfl hb | ⟨1, _⟩, _ => rfl) ?_).trans ?_
  · show k.val + 64 = 64 + k.val
    omega
  exact (concatenate_pair_apply_left _ _ _ concatenates_S64x64_S64x64_S64x128_d1 _ rfl (ix2 k c)
    (fun b => match b with | ⟨0, _⟩ => rfl | ⟨1, _⟩ => rfl)).trans (zeros_apply _)

/-- Lower right block: the matrix. -/
theorem wbd_br (W : FVec Ideal S64x64 .f32) (k c : Fin 64) :
    wbd W (ix2 (⟨64 + k.val, by omega⟩ : Fin 128) (⟨64 + c.val, by omega⟩ : Fin 128)) = W (ix2 k c) := by
  unfold wbd
  refine (concatenate_pair_apply_right _ _ _ concatenates_S64x128_S64x128_S128x128_d0 _ rfl rfl
    (ix2 k (⟨64 + c.val, by omega⟩ : Fin 128))
    (fun b hb => match b, hb with | ⟨0, _⟩, hb => absurd rfl hb | ⟨1, _⟩, _ => rfl) ?_).trans ?_
  · show k.val + 64 = 64 + k.val
    omega
  refine concatenate_pair_apply_right _ _ _ concatenates_S64x64_S64x64_S64x128_d1 _ rfl rfl (ix2 k c)
    (fun b hb => match b, hb with | ⟨0, _⟩, _ => rfl | ⟨1, _⟩, hb => absurd rfl hb) ?_
  show c.val + 64 = 64 + c.val
  omega

/-- The bias twice in a row, left half. -/
theorem bbd_left (b : FVec Ideal S64 .f32) (c : Fin 64) :
    bbd b (ix2 (0 : Fin 1) (⟨c.val, by omega⟩ : Fin 128)) = b (ix1 c) := by
  unfold bbd
  rw [shapeCast_a_1a_apply]
  exact concatenate_pair_apply_left _ _ _ concatenates_S64_S64_S128_d0 _ rfl (ix1 c)
    (fun a => match a with | ⟨0, _⟩ => rfl)

/-- The bias twice in a row, right half. -/
theorem bbd_right (b : FVec Ideal S64 .f32) (c : Fin 64) :
    bbd b (ix2 (0 : Fin 1) (⟨64 + c.val, by omega⟩ : Fin 128)) = b (ix1 c) := by
  unfold bbd
  rw [shapeCast_a_1a_apply]
  refine concatenate_pair_apply_right _ _ _ concatenates_S64_S64_S128_d0 _ rfl rfl (ix1 c)
    (fun a ha => match a, ha with | ⟨0, _⟩, ha => absurd rfl ha) ?_
  show c.val + 64 = 64 + c.val
  omega

/-- A sum over 128 positions is the sum over the first 64 plus the sum over the last 64. -/
theorem sum_halves {M : Type*} [AddCommMonoid M] (f : Fin 128 → M) :
    ∑ k' : Fin 128, f k'
      = (∑ k : Fin 64, f (⟨k.val, by omega⟩ : Fin 128)) + ∑ k : Fin 64, f (⟨64 + k.val, by omega⟩ : Fin 128) :=
  Fin.sum_univ_add (a := 64) (b := 64) f

/-- The packed row times the doubled matrix, at a left column: only the node's own 64 columns contribute. -/
theorem sum_left (x : FVec Ideal S100000x64 .f32) (W : FVec Ideal S64x64 .f32) (p : Fin 50000) (j : Fin 64) :
    (∑ k' : Fin 128, shapeCast S50000x128 x shapeCasts_S100000x64_S50000x128 (ix2 p k')
        * wbd W (ix2 k' (⟨j.val, by omega⟩ : Fin 128)))
      = ∑ k : Fin 64, x (ix2 (⟨2 * p.val, by omega⟩ : Fin 100000) k) * W (ix2 k j) := by
  rw [sum_halves]
  have h2 : (∑ k : Fin 64, shapeCast S50000x128 x shapeCasts_S100000x64_S50000x128 (ix2 p (⟨64 + k.val, by omega⟩ : Fin 128))
      * wbd W (ix2 (⟨64 + k.val, by omega⟩ : Fin 128) (⟨j.val, by omega⟩ : Fin 128))) = 0 :=
    Finset.sum_eq_zero fun k _ => by rw [wbd_bl, mul_zero]
  rw [h2, add_zero]
  refine Finset.sum_congr rfl fun k _ => ?_
  rw [pack_left, wbd_tl]

/-- The packed row times the doubled matrix, at a right column. -/
theorem sum_right (x : FVec Ideal S100000x64 .f32) (W : FVec Ideal S64x64 .f32) (p : Fin 50000) (j : Fin 64) :
    (∑ k' : Fin 128, shapeCast S50000x128 x shapeCasts_S100000x64_S50000x128 (ix2 p k')
        * wbd W (ix2 k' (⟨64 + j.val, by omega⟩ : Fin 128)))
      = ∑ k : Fin 64, x (ix2 (⟨2 * p.val + 1, by omega⟩ : Fin 100000) k) * W (ix2 k j) := by
  rw [sum_halves]
  have h1 : (∑ k : Fin 64, shapeCast S50000x128 x shapeCasts_S100000x64_S50000x128 (ix2 p (⟨k.val, by omega⟩ : Fin 128))
      * wbd W (ix2 (⟨k.val, by omega⟩ : Fin 128) (⟨64 + j.val, by omega⟩ : Fin 128))) = 0 :=
    Finset.sum_eq_zero fun k _ => by rw [wbd_tr, mul_zero]
  rw [h1, zero_add]
  refine Finset.sum_congr rfl fun k _ => ?_
  rw [pack_right, wbd_br]

/-- Over real rows, matrix and bias, the product plus the bias through the activation is the coercion of the real one. -/
theorem act_coe (relu : Bool) (A Wc : Fin 64 → ℝ) (β : ℝ) :
    (if relu then max ((∑ k : Fin 64, (A k : EReal) * (Wc k : EReal)) + (β : EReal)) 0
      else (∑ k : Fin 64, (A k : EReal) * (Wc k : EReal)) + (β : EReal))
      = ((Cert.Gcn.act relu ((∑ k : Fin 64, A k * Wc k) + β) : ℝ) : EReal) := by
  have hs : (∑ k : Fin 64, (A k : EReal) * (Wc k : EReal)) + (β : EReal)
      = (((∑ k : Fin 64, A k * Wc k) + β : ℝ) : EReal) := by
    rw [EReal.coe_add, Cert.Gcn.coe_sum]
    simp only [EReal.coe_mul]
  rw [hs]
  unfold Cert.Gcn.act
  cases relu
  · simp
  · simp only [if_true]
    rw [← EReal.coe_zero]
    exact (EReal.coe_strictMono.monotone.map_max).symm

/-- A launch's result at an index, spelled out. -/
theorem lin_apply (relu : Bool) (a : FVec Ideal S50000x128 .f32) (w : FVec Ideal S128x128 .f32) (b : FVec Ideal S1x128 .f32)
    (p : Fin 50000) (c : Fin 128) :
    lin relu a w b (ix2 p c)
      = if relu then max ((∑ k : Fin 128, a (ix2 p k) * w (ix2 k c)) + b (ix2 (0 : Fin 1) c)) 0
        else (∑ k : Fin 128, a (ix2 p k) * w (ix2 k c)) + b (ix2 (0 : Fin 1) c) := rfl

/-- Entry (n, j) of a layer over real data whose source indices name nodes. -/
theorem layer_apply (relu : Bool) (h : FVec Ideal S100000x64 .f32) (rowf colf : IVec S1380000 32)
    (norm : FVec Ideal S1380000 .f32) (W : FVec Ideal S64x64 .f32) (b : FVec Ideal S64 .f32)
    (H : Fin 100000 → Fin 64 → ℝ) (hH : ∀ n k, h (ix2 n k) = (H n k : EReal))
    (ν : Fin 1380000 → ℝ) (hν : ∀ e, norm (ix1 e) = (ν e : EReal))
    (Wr : Fin 64 → Fin 64 → ℝ) (hW : ∀ k j, W (ix2 k j) = (Wr k j : EReal))
    (br : Fin 64 → ℝ) (hb : ∀ j, b (ix1 j) = (br j : EReal))
    (ρ : Fin 1380000 → Fin 100000) (hρ : ∀ e, (rowf (ix1 e)).toInt = ((ρ e).val : ℤ))
    (n : Fin 100000) (j : Fin 64) :
    layer relu h rowf colf norm W b (ix2 n j)
      = ((Cert.Gcn.act relu (Cert.Gcn.preK (fun e => (colf (ix1 e)).toInt) ρ ν H Wr br n j) : ℝ) : EReal) := by
  have hA : ∀ m k, agg h rowf colf norm (ix2 m k)
      = ((Cert.Gcn.agg (fun e => (colf (ix1 e)).toInt) ρ ν H m k : ℝ) : EReal) :=
    fun m k => agg_apply h rowf colf norm H hH ν hν ρ hρ m k
  -- the node is the left or the right half of a packed row
  obtain ⟨p, hp⟩ : ∃ p : Fin 50000, n = (⟨2 * p.val, by omega⟩ : Fin 100000) ∨ n = (⟨2 * p.val + 1, by omega⟩ : Fin 100000) := by
    refine ⟨⟨n.val / 2, by omega⟩, ?_⟩
    rcases Nat.mod_two_eq_zero_or_one n.val with h0 | h1
    · left; apply Fin.ext; show n.val = 2 * (n.val / 2); omega
    · right; apply Fin.ext; show n.val = 2 * (n.val / 2) + 1; omega
  unfold Cert.Gcn.preK
  rcases hp with rfl | rfl
  · unfold layer agg2
    rw [unpack_even, lin_apply, sum_left, bbd_left]
    simp only [hA, hW, hb]
    exact act_coe relu (fun k => Cert.Gcn.agg (fun e => (colf (ix1 e)).toInt) ρ ν H _ k) (fun k => Wr k j) (br j)
  · unfold layer agg2
    rw [unpack_odd, lin_apply, sum_right, bbd_right]
    simp only [hA, hW, hb]
    exact act_coe relu (fun k => Cert.Gcn.agg (fun e => (colf (ix1 e)).toInt) ρ ν H _ k) (fun k => Wr k j) (br j)

end Cert.KernelIdeal.KT

end
-- ==== Proof.KRegion0.lean ====
/-
  What launch 0 leaves in its result array, as one function of the three arrays it reads.

  The launch walks ten blocks of 5000 rows; at each it multiplies the block's rows by the whole [128, 128] matrix, adds
  the bias row and takes the positive part, and writes the block back.  Row `r` of the result depends on row `r` of the first
  array alone, so the ten blocks written back are the ten row ranges of ONE function of the whole arrays (`KT.lin`), and
  the blocks cover every row.
-/
import proofs.«427748_j59313498358226_3_alg».proof.Proof.Gen.KernelIdeal.Frame
import proofs.«427748_j59313498358226_3_alg».proof.Proof.KLayer
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

/-! ## One block's computation, entry by entry -/

/-- In the block's product the left factor is read on the result's own row … -/
theorem lhs_blk0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … in the column the sum runs over, -/
theorem lhs_blk0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and the right factor on the row the sum runs over … -/
theorem rhs_blk0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the result's own column. -/
theorem rhs_blk0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block of rows times the matrix, started from zero: the sum over `k` of entry (p, k) of the rows
    times entry (k, q) of the matrix.  Narrowing the two factors changes nothing at the exact extended reals. -/
theorem blk0_prod (x0 : Vec Ideal S5000x128 .f32) (x1 : Vec Ideal S128x128 .f32) (p : Fin 5000) (q : Fin 128) :
    matmul (F := Ideal) dot_S5000x128_S128x128_S5000x128_1_0_0_1_n_n none (truncf .bf16 x0 bitsLt_bf16_f32) (truncf .bf16 x1 bitsLt_bf16_f32)
        (constant S5000x128 .f32 0x00000000#32) (ix2 p q)
      = ∑ k : Fin 128, x0 (ix2 p k) * x1 (ix2 k q) := by
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk0_0 _ _
    | ⟨1, _⟩ => exact (lhs_blk0_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk0_0 _ _).trans hk
    | ⟨1, _⟩ => exact rhs_blk0_1 _ _)
  rw [el, er]
  rfl

/-- Entry (p, q) of what one block computes: row `p` of the block times column `q` of the matrix, plus entry `q` of the
    bias row, and the positive part of that.  A cast to the same shape is the identity, the bias row is repeated down
    the rows, and the zero the maximum is taken against is the real number zero. -/
theorem k0_pay1_apply (x0 : Vec Ideal S5000x128 .f32) (x1 : Vec Ideal S128x128 .f32) (x2 : Vec Ideal S1x128 .f32)
    (p : Fin 5000) (q : Fin 128) :
    k0_pay1 x0 x1 x2 (ix2 p q) = max ((∑ k : Fin 128, x0 (ix2 p k) * x1 (ix2 k q)) + x2 (ix2 (0 : Fin 1) q)) 0 := by
  unfold k0_pay1
  rw [shapeCast_self, shapeCast_self, shapeCast_self, maximumf_apply, addf_apply, broadcast_apply, blk0_prod,
    broadcastTo_apply x2 broadcasts_S1x128_S5000x128 (ix2 p q) (ix2 (0 : Fin 1) q)
      (fun a => by match a with | ⟨0, _⟩ => rfl | ⟨1, _⟩ => rfl)]
  show max (_ + _) (Ideal.ofBits .f32 0x00000000#32) = _
  rw [Ideal.ofBits_zero_f32]

/-- `KT.lin` with the activation, at entry (r, q). -/
theorem lin_relu_apply (a : FVec Ideal S50000x128 .f32) (w : FVec Ideal S128x128 .f32) (b : FVec Ideal S1x128 .f32)
    (r : Fin 50000) (q : Fin 128) :
    KT.lin true a w b (ix2 r q) = max ((∑ k : Fin 128, a (ix2 r k) * w (ix2 k q)) + b (ix2 (0 : Fin 1) q)) 0 := rfl

/-! ## Where each block lies in its array -/

/-- The all-zero offset, as the constant function. -/
theorem hz0 : (![0, 0] : Fin 2 → Nat) = fun _ => 0 := funext fun a => by fin_cases a <;> rfl

/-- The four index maps at each of the ten points: the rows read and the rows written are block `t` of their arrays, in
    column block 0; the matrix and the bias row are always their one block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- Row `p` of the block of rows read at point `t` is row `5000 t + p` of the first array. -/
theorem rows0_apply (c : Dev nD) (t : Fin cfg0.N) (p : Fin 5000) (k : Fin 128) (r : Fin 50000)
    (hr : r.val = t.val * 5000 + p.val) :
    iblk0 (F := Ideal) V c 0 t (ix2 p k) = (V c main_v39 : FVec Ideal S50000x128 .f32) (ix2 r k) := by
  obtain ⟨e0, e1, -⟩ := idx_facts0 t
  unfold iblk0
  rw [View.read_apply]
  show V c main_v39 _ = V c main_v39 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The matrix's block at every point is the whole matrix. -/
theorem mat0_apply (c : Dev nD) (t : Fin cfg0.N) (k q : Fin 128) :
    iblk0 (F := Ideal) V c 1 t (ix2 k q) = (V c main_v43 : FVec Ideal S128x128 .f32) (ix2 k q) := by
  obtain ⟨-, -, e2, e3, -⟩ := idx_facts0 t
  unfold iblk0
  rw [View.read_apply]
  show V c main_v43 _ = V c main_v43 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias row's block at every point is the whole bias row. -/
theorem bias0_apply (c : Dev nD) (t : Fin cfg0.N) (q : Fin 128) :
    iblk0 (F := Ideal) V c 2 t (ix2 (0 : Fin 1) q) = (V c main_v45 : FVec Ideal S1x128 .f32) (ix2 (0 : Fin 1) q) := by
  obtain ⟨-, -, -, -, e4, e5, -⟩ := idx_facts0 t
  unfold iblk0
  rw [View.read_apply]
  show V c main_v45 _ = V c main_v45 _
  congr 1
  funext a
  apply Fin.ext
  match a with
  | ⟨0, _⟩ => show win0_2.index t (0 : Fin 2) * 1 + 1 * (0 : Fin 1).val = (0 : Fin 1).val; rw [e4]; rfl
  | ⟨1, _⟩ => show win0_2.index t (1 : Fin 2) * 128 + 1 * q.val = q.val; rw [e5]; omega

/-! ## From the ten blocks to the array -/

/-- What point `t` writes back is rows `5000 t … 5000 t + 4999` of `KT.lin` of the whole arrays: entry (p, q) of the
    block computed is entry (5000 t + p, q) of `KT.lin`, because row `p` of the block read is row `5000 t + p` of the first
    array and the matrix and the bias row are read whole. -/
theorem flushed0_eq (c : Dev nD) (t : Fin cfg0.N) :
    (dat0 (F := Ideal) V c).flushed 3 t
      = ((cfg0.win 3).blk t).view.read (Elt Ideal) (KT.lin true (V c main_v39) (V c main_v43) (V c main_v45)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  obtain ⟨-, -, -, -, -, -, e6, e7⟩ := idx_facts0 t
  have ht : t.val < 10 := t.isLt
  funext j
  obtain ⟨p, q, rfl⟩ : ∃ (p : Fin 5000) (q : Fin 128), j = ix2 p q := ⟨j 0, j 1, eq_ix2 j⟩
  have hemb : ((cfg0.win 3).blk t).view.emb (ix2 p q) = ix2 (⟨t.val * 5000 + p.val, by omega⟩ : Fin 50000) q := by
    funext a
    apply Fin.ext
    match a with
    | ⟨0, _⟩ => show win0_3.index t (0 : Fin 2) * 5000 + 1 * p.val = t.val * 5000 + p.val; rw [e6]; omega
    | ⟨1, _⟩ => show win0_3.index t (1 : Fin 2) * 128 + 1 * q.val = q.val; rw [e7]; omega
  rw [View.read_apply, hemb, lin_relu_apply]
  show k0_pay1 (iblk0 V c 0 t) (iblk0 V c 1 t) (iblk0 V c 2 t) (ix2 p q) = _
  rw [k0_pay1_apply, bias0_apply]
  refine congrArg (fun s => max (s + (V c main_v45 : FVec Ideal S1x128 .f32) (ix2 (0 : Fin 1) q)) 0) ?_
  refine Finset.sum_congr rfl fun k _ => ?_
  rw [rows0_apply V c t p k ⟨t.val * 5000 + p.val, by omega⟩ rfl, mat0_apply]

end Blocks

/-- An entry of the result array is in point `t`'s block iff each of its coordinates is in the block's range on that axis. -/
theorem mem_blk0 (t : Fin cfg0.N) (i : S50000x128.Idx) :
    i ∈ ((cfg0.win 3).blk t).view.set
      ↔ ∀ a : Fin 2, win0_3.index t a * S5000x128.size a ≤ (i a).val ∧ (i a).val < win0_3.index t a * S5000x128.size a + S5000x128.size a := by
  show i ∈ ((View.whole main_v46).slice (win0_3.rect t)).set ↔ _
  rw [View.set_slice_whole, Rect.mem_set_unit]
  exact Iff.rfl

/-- The ten blocks cover the result array: row `r` lies in the block of point `r / 5000`, and every point writes back. -/
theorem cover0 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have ht : (i 0).val / 5000 < 10 := by omega
  obtain ⟨-, -, -, -, -, -, e6, e7⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- Launch 0's result array after the launch is `KT.lin` of the arrays it read, as the launch found them. -/
theorem region0_val (V : (c : Dev nD) → (b : Ref sig .tc) → Buf (Elt Ideal) ((c : Thread nD τ).loc b)) (c : Dev nD) :
    (dat0 (F := Ideal) V c).arrAt 3 cfg0.N = KT.lin true (V c main_v39) (V c main_v43) (V c main_v45) :=
  (dat0 (F := Ideal) V c).arrAt_eq_of_cover 3 (KT.lin true (V c main_v39) (V c main_v43) (V c main_v45))
    (fun t _ => flushed0_eq V c t) cover0

end Cert.KernelIdeal.Gen

end
-- ==== Proof.KRegion1.lean ====
/-
  What launch 1 leaves in its result array, as one function of the three arrays it reads.

  The launch walks ten blocks of 5000 rows; at each it multiplies the block's rows by the whole [128, 128] matrix, adds
  the bias row and takes the positive part, and writes the block back.  Row `r` of the result depends on row `r` of the first
  array alone, so the ten blocks written back are the ten row ranges of ONE function of the whole arrays (`KT.lin`), and
  the blocks cover every row.
-/
import proofs.«427748_j59313498358226_3_alg».proof.Proof.Gen.KernelIdeal.Frame
import proofs.«427748_j59313498358226_3_alg».proof.Proof.KLayer
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

/-! ## One block's computation, entry by entry -/

/-- In the block's product the left factor is read on the result's own row … -/
theorem lhs_blk1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … in the column the sum runs over, -/
theorem lhs_blk1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and the right factor on the row the sum runs over … -/
theorem rhs_blk1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the result's own column. -/
theorem rhs_blk1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block of rows times the matrix, started from zero: the sum over `k` of entry (p, k) of the rows
    times entry (k, q) of the matrix.  Narrowing the two factors changes nothing at the exact extended reals. -/
theorem blk1_prod (x0 : Vec Ideal S5000x128 .f32) (x1 : Vec Ideal S128x128 .f32) (p : Fin 5000) (q : Fin 128) :
    matmul (F := Ideal) dot_S5000x128_S128x128_S5000x128_1_0_0_1_n_n none (truncf .bf16 x0 bitsLt_bf16_f32) (truncf .bf16 x1 bitsLt_bf16_f32)
        (constant S5000x128 .f32 0x00000000#32) (ix2 p q)
      = ∑ k : Fin 128, x0 (ix2 p k) * x1 (ix2 k q) := by
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk1_0 _ _
    | ⟨1, _⟩ => exact (lhs_blk1_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk1_0 _ _).trans hk
    | ⟨1, _⟩ => exact rhs_blk1_1 _ _)
  rw [el, er]
  rfl

/-- Entry (p, q) of what one block computes: row `p` of the block times column `q` of the matrix, plus entry `q` of the
    bias row, and the positive part of that.  A cast to the same shape is the identity, the bias row is repeated down
    the rows, and the zero the maximum is taken against is the real number zero. -/
theorem k1_pay1_apply (x0 : Vec Ideal S5000x128 .f32) (x1 : Vec Ideal S128x128 .f32) (x2 : Vec Ideal S1x128 .f32)
    (p : Fin 5000) (q : Fin 128) :
    k1_pay1 x0 x1 x2 (ix2 p q) = max ((∑ k : Fin 128, x0 (ix2 p k) * x1 (ix2 k q)) + x2 (ix2 (0 : Fin 1) q)) 0 := by
  unfold k1_pay1
  rw [shapeCast_self, shapeCast_self, shapeCast_self, maximumf_apply, addf_apply, broadcast_apply, blk1_prod,
    broadcastTo_apply x2 broadcasts_S1x128_S5000x128 (ix2 p q) (ix2 (0 : Fin 1) q)
      (fun a => by match a with | ⟨0, _⟩ => rfl | ⟨1, _⟩ => rfl)]
  show max (_ + _) (Ideal.ofBits .f32 0x00000000#32) = _
  rw [Ideal.ofBits_zero_f32]

/-- `KT.lin` with the activation, at entry (r, q). -/
theorem lin_relu_apply1 (a : FVec Ideal S50000x128 .f32) (w : FVec Ideal S128x128 .f32) (b : FVec Ideal S1x128 .f32)
    (r : Fin 50000) (q : Fin 128) :
    KT.lin true a w b (ix2 r q) = max ((∑ k : Fin 128, a (ix2 r k) * w (ix2 k q)) + b (ix2 (0 : Fin 1) q)) 0 := rfl

/-! ## Where each block lies in its array -/

/-- The all-zero offset, as the constant function. -/
theorem hz1 : (![0, 0] : Fin 2 → Nat) = fun _ => 0 := funext fun a => by fin_cases a <;> rfl

/-- The four index maps at each of the ten points: the rows read and the rows written are block `t` of their arrays, in
    column block 0; the matrix and the bias row are always their one block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b))

/-- Row `p` of the block of rows read at point `t` is row `5000 t + p` of the first array. -/
theorem rows1_apply (c : Dev nD) (t : Fin cfg1.N) (p : Fin 5000) (k : Fin 128) (r : Fin 50000)
    (hr : r.val = t.val * 5000 + p.val) :
    iblk1 (F := Ideal) V c 0 t (ix2 p k) = (V c main_v55 : FVec Ideal S50000x128 .f32) (ix2 r k) := by
  obtain ⟨e0, e1, -⟩ := idx_facts1 t
  unfold iblk1
  rw [View.read_apply]
  show V c main_v55 _ = V c main_v55 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The matrix's block at every point is the whole matrix. -/
theorem mat1_apply (c : Dev nD) (t : Fin cfg1.N) (k q : Fin 128) :
    iblk1 (F := Ideal) V c 1 t (ix2 k q) = (V c main_v59 : FVec Ideal S128x128 .f32) (ix2 k q) := by
  obtain ⟨-, -, e2, e3, -⟩ := idx_facts1 t
  unfold iblk1
  rw [View.read_apply]
  show V c main_v59 _ = V c main_v59 _
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- The bias row's block at every point is the whole bias row. -/
theorem bias1_apply (c : Dev nD) (t : Fin cfg1.N) (q : Fin 128) :
    iblk1 (F := Ideal) V c 2 t (ix2 (0 : Fin 1) q) = (V c main_v61 : FVec Ideal S1x128 .f32) (ix2 (0 : Fin 1) q) := by
  obtain ⟨-, -, -, -, e4, e5, -⟩ := idx_facts1 t
  unfold iblk1
  rw [View.read_apply]
  show V c main_v61 _ = V c main_v61 _
  congr 1
  funext a
  apply Fin.ext
  match a with
  | ⟨0, _⟩ => show win1_2.index t (0 : Fin 2) * 1 + 1 * (0 : Fin 1).val = (0 : Fin 1).val; rw [e4]; rfl
  | ⟨1, _⟩ => show win1_2.index t (1 : Fin 2) * 128 + 1 * q.val = q.val; rw [e5]; omega

/-! ## From the ten blocks to the array -/

/-- What point `t` writes back is rows `5000 t … 5000 t + 4999` of `KT.lin` of the whole arrays: entry (p, q) of the
    block computed is entry (5000 t + p, q) of `KT.lin`, because row `p` of the block read is row `5000 t + p` of the first
    array and the matrix and the bias row are read whole. -/
theorem flushed1_eq (c : Dev nD) (t : Fin cfg1.N) :
    (dat1 (F := Ideal) V c).flushed 3 t
      = ((cfg1.win 3).blk t).view.read (Elt Ideal) (KT.lin true (V c main_v55) (V c main_v59) (V c main_v61)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  obtain ⟨-, -, -, -, -, -, e6, e7⟩ := idx_facts1 t
  have ht : t.val < 10 := t.isLt
  funext j
  obtain ⟨p, q, rfl⟩ : ∃ (p : Fin 5000) (q : Fin 128), j = ix2 p q := ⟨j 0, j 1, eq_ix2 j⟩
  have hemb : ((cfg1.win 3).blk t).view.emb (ix2 p q) = ix2 (⟨t.val * 5000 + p.val, by omega⟩ : Fin 50000) q := by
    funext a
    apply Fin.ext
    match a with
    | ⟨0, _⟩ => show win1_3.index t (0 : Fin 2) * 5000 + 1 * p.val = t.val * 5000 + p.val; rw [e6]; omega
    | ⟨1, _⟩ => show win1_3.index t (1 : Fin 2) * 128 + 1 * q.val = q.val; rw [e7]; omega
  rw [View.read_apply, hemb, lin_relu_apply1]
  show k1_pay1 (iblk1 V c 0 t) (iblk1 V c 1 t) (iblk1 V c 2 t) (ix2 p q) = _
  rw [k1_pay1_apply, bias1_apply]
  refine congrArg (fun s => max (s + (V c main_v61 : FVec Ideal S1x128 .f32) (ix2 (0 : Fin 1) q)) 0) ?_
  refine Finset.sum_congr rfl fun k _ => ?_
  rw [rows1_apply V c t p k ⟨t.val * 5000 + p.val, by omega⟩ rfl, mat1_apply]

end Blocks

/-- An entry of the result array is in point `t`'s block iff each of its coordinates is in the block's range on that axis. -/
theorem mem_blk1 (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v62).slice (win1_3.rect t)).set ↔ _
  rw [View.set_slice_whole, Rect.mem_set_unit]
  exact Iff.rfl

/-- The ten blocks cover the result array: row `r` lies in the block of point `r / 5000`, and every point writes back. -/
theorem cover1 (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have ht : (i 0).val / 5000 < 10 := by omega
  obtain ⟨-, -, -, -, -, -, e6, e7⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e7]; omega

/-- Launch 1's result array after the launch is `KT.lin` of the arrays it read, as the launch found them. -/
theorem region1_val (V : (c : Dev nD) → (b : Ref sig .tc) → Buf (Elt Ideal) ((c : Thread nD τ).loc b)) (c : Dev nD) :
    (dat1 (F := Ideal) V c).arrAt 3 cfg1.N = KT.lin true (V c main_v55) (V c main_v59) (V c main_v61) :=
  (dat1 (F := Ideal) V c).arrAt_eq_of_cover 3 (KT.lin true (V c main_v55) (V c main_v59) (V c main_v61))
    (fun t _ => flushed1_eq V c t) cover1

end Cert.KernelIdeal.Gen

end
-- ==== Proof.KRegion2.lean ====
/-
  What launch 2 leaves in its result array, as one function of the three arrays it reads.

  The launch walks ten blocks of 5000 rows; at each it multiplies the block's rows by the whole [128, 128] matrix, adds
  the bias row (this last layer has no activation), and writes the block back.  Row `r` of the result depends on row `r` of the first
  array alone, so the ten blocks written back are the ten row ranges of ONE function of the whole arrays (`KT.lin`), and
  the blocks cover every row.
-/
import proofs.«427748_j59313498358226_3_alg».proof.Proof.Gen.KernelIdeal.Frame
import proofs.«427748_j59313498358226_3_alg».proof.Proof.KLayer
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

/-! ## One block's computation, entry by entry -/

/-- In the block's product the left factor is read on the result's own row … -/
theorem lhs_blk2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … in the column the sum runs over, -/
theorem lhs_blk2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- and the right factor on the row the sum runs over … -/
theorem rhs_blk2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the result's own column. -/
theorem rhs_blk2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block of rows times the matrix, started from zero: the sum over `k` of entry (p, k) of the rows
    times entry (k, q) of the matrix.  Narrowing the two factors changes nothing at the exact extended reals. -/
theorem blk2_prod (x0 : Vec Ideal S5000x128 .f32) (x1 : Vec Ideal S128x128 .f32) (p : Fin 5000) (q : Fin 128) :
    matmul (F := Ideal) dot_S5000x128_S128x128_S5000x128_1_0_0_1_n_n none (truncf .bf16 x0 bitsLt_bf16_f32) (truncf .bf16 x1 bitsLt_bf16_f32)
        (constant S5000x128 .f32 0x00000000#32) (ix2 p q)
      = ∑ k : Fin 128, x0 (ix2 p k) * x1 (ix2 k q) := by
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk2_0 _ _
    | ⟨1, _⟩ => exact (lhs_blk2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk2_0 _ _).trans hk
    | ⟨1, _⟩ => exact rhs_blk2_1 _ _)
  rw [el, er]
  rfl

/-- Entry (p, q) of what one block computes: row `p` of the block times column `q` of the matrix, plus entry `q` of the
    bias row; this launch takes no positive part.  A cast to the same shape is the identity and the bias row is repeated
    down the rows. -/
theorem k2_pay1_apply (x0 : Vec Ideal S5000x128 .f32) (x1 : Vec Ideal S128x128 .f32) (x2 : Vec Ideal S1x128 .f32)
    (p : Fin 5000) (q : Fin 128) :
    k2_pay1 x0 x1 x2 (ix2 p q) = (∑ k : Fin 128, x0 (ix2 p k) * x1 (ix2 k q)) + x2 (ix2 (0 : Fin 1) q) := by
  unfold k2_pay1
  rw [shapeCast_self, shapeCast_self, shapeCast_self, addf_apply, blk2_prod,
    broadcastTo_apply x2 broadcasts_S1x128_S5000x128 (ix2 p q) (ix2 (0 : Fin 1) q)
      (fun a => by match a with | ⟨0, _⟩ => rfl | ⟨1, _⟩ => rfl)]

/-- `KT.lin` without the activation, at entry (r, q). -/
theorem lin_plain_apply2 (a : FVec Ideal S50000x128 .f32) (w : FVec Ideal S128x128 .f32) (b : FVec Ideal S1x128 .f32)
    (r : Fin 50000) (q : Fin 128) :
    KT.lin false a w b (ix2 r q) = (∑ k : Fin 128, a (ix2 r k) * w (ix2 k q)) + b (ix2 (0 : Fin 1) q) := rfl

/-! ## Where each block lies in its array -/

/-- The all-zero offset, as the constant function. -/
theorem hz2 : (![0, 0] : Fin 2 → Nat) = fun _ => 0 := funext fun a => by fin_cases a <;> rfl

/-- The four index maps at each of the ten points: the rows read and the rows written are block `t` of their arrays, in
    column block 0; the matrix and the bias row are always their one block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks

variable (V : (c : Dev nD) → (b : Ref sig .tc) → Buf (Elt Ideal) ((c : Thread nD τ).loc b))

/-- Row `p` of the block of rows read at point `t` is row `5000 t + p` of the first array. -/
theorem rows2_apply (c : Dev nD) (t : Fin cfg2.N) (p : Fin 5000) (k : Fin 128) (r : Fin 50000)
    (hr : r.val = t.val * 5000 + p.val) :
    iblk2 (F := Ideal) V c 0 t (ix2 p k) = (V c main_v71 : FVec Ideal S50000x128 .f32) (ix2 r k) := by
  obtain ⟨e0, e1, -⟩ := idx_facts2 t
  unfold iblk2
  rw [View.read_apply]
  show V c main_v71 _ = V c main_v71 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The matrix's block at every point is the whole matrix. -/
theorem mat2_apply (c : Dev nD) (t : Fin cfg2.N) (k q : Fin 128) :
    iblk2 (F := Ideal) V c 1 t (ix2 k q) = (V c main_v75 : FVec Ideal S128x128 .f32) (ix2 k q) := by
  obtain ⟨-, -, e2, e3, -⟩ := idx_facts2 t
  unfold iblk2
  rw [View.read_apply]
  show V c main_v75 _ = V c main_v75 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- The bias row's block at every point is the whole bias row. -/
theorem bias2_apply (c : Dev nD) (t : Fin cfg2.N) (q : Fin 128) :
    iblk2 (F := Ideal) V c 2 t (ix2 (0 : Fin 1) q) = (V c main_v77 : FVec Ideal S1x128 .f32) (ix2 (0 : Fin 1) q) := by
  obtain ⟨-, -, -, -, e4, e5, -⟩ := idx_facts2 t
  unfold iblk2
  rw [View.read_apply]
  show V c main_v77 _ = V c main_v77 _
  congr 1
  funext a
  apply Fin.ext
  match a with
  | ⟨0, _⟩ => show win2_2.index t (0 : Fin 2) * 1 + 1 * (0 : Fin 1).val = (0 : Fin 1).val; rw [e4]; rfl
  | ⟨1, _⟩ => show win2_2.index t (1 : Fin 2) * 128 + 1 * q.val = q.val; rw [e5]; omega

/-! ## From the ten blocks to the array -/

/-- What point `t` writes back is rows `5000 t … 5000 t + 4999` of `KT.lin` of the whole arrays: entry (p, q) of the
    block computed is entry (5000 t + p, q) of `KT.lin`, because row `p` of the block read is row `5000 t + p` of the first
    array and the matrix and the bias row are read whole. -/
theorem flushed2_eq (c : Dev nD) (t : Fin cfg2.N) :
    (dat2 (F := Ideal) V c).flushed 3 t
      = ((cfg2.win 3).blk t).view.read (Elt Ideal) (KT.lin false (V c main_v71) (V c main_v75) (V c main_v77)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S1x128) hz2]
  obtain ⟨-, -, -, -, -, -, e6, e7⟩ := idx_facts2 t
  have ht : t.val < 10 := t.isLt
  funext j
  obtain ⟨p, q, rfl⟩ : ∃ (p : Fin 5000) (q : Fin 128), j = ix2 p q := ⟨j 0, j 1, eq_ix2 j⟩
  have hemb : ((cfg2.win 3).blk t).view.emb (ix2 p q) = ix2 (⟨t.val * 5000 + p.val, by omega⟩ : Fin 50000) q := by
    funext a
    apply Fin.ext
    match a with
    | ⟨0, _⟩ => show win2_3.index t (0 : Fin 2) * 5000 + 1 * p.val = t.val * 5000 + p.val; rw [e6]; omega
    | ⟨1, _⟩ => show win2_3.index t (1 : Fin 2) * 128 + 1 * q.val = q.val; rw [e7]; omega
  rw [View.read_apply, hemb, lin_plain_apply2]
  show k2_pay1 (iblk2 V c 0 t) (iblk2 V c 1 t) (iblk2 V c 2 t) (ix2 p q) = _
  rw [k2_pay1_apply, bias2_apply]
  refine congrArg (fun s => s + (V c main_v77 : FVec Ideal S1x128 .f32) (ix2 (0 : Fin 1) q)) ?_
  refine Finset.sum_congr rfl fun k _ => ?_
  rw [rows2_apply V c t p k ⟨t.val * 5000 + p.val, by omega⟩ rfl, mat2_apply]

end Blocks

/-- An entry of the result array is in point `t`'s block iff each of its coordinates is in the block's range on that axis. -/
theorem mem_blk2 (t : Fin cfg2.N) (i : S50000x128.Idx) :
    i ∈ ((cfg2.win 3).blk t).view.set
      ↔ ∀ a : Fin 2, win2_3.index t a * S5000x128.size a ≤ (i a).val ∧ (i a).val < win2_3.index t a * S5000x128.size a + S5000x128.size a := by
  show i ∈ ((View.whole main_v78).slice (win2_3.rect t)).set ↔ _
  rw [View.set_slice_whole, Rect.mem_set_unit]
  exact Iff.rfl

/-- The ten blocks cover the result array: row `r` lies in the block of point `r / 5000`, and every point writes back. -/
theorem cover2 (i : S50000x128.Idx) :
    ∃ t : Fin cfg2.N, (cfg2.win 3).flush t = true ∧ i ∈ ((cfg2.win 3).blk t).view.set := by
  have hi0 : (i 0).val < 50000 := idx2_lt0 i
  have hi1 : (i 1).val < 128 := idx2_lt1 i
  have ht : (i 0).val / 5000 < 10 := by omega
  obtain ⟨-, -, -, -, -, -, e6, e7⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e7]; omega

/-- Launch 2's result array after the launch is `KT.lin` of the arrays it read, as the launch found them. -/
theorem region2_val (V : (c : Dev nD) → (b : Ref sig .tc) → Buf (Elt Ideal) ((c : Thread nD τ).loc b)) (c : Dev nD) :
    (dat2 (F := Ideal) V c).arrAt 3 cfg2.N = KT.lin false (V c main_v71) (V c main_v75) (V c main_v77) :=
  (dat2 (F := Ideal) V c).arrAt_eq_of_cover 3 (KT.lin false (V c main_v71) (V c main_v75) (V c main_v77))
    (fun t _ => flushed2_eq V c t) cover2

end Cert.KernelIdeal.Gen

end
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
/-
  Reading a short stretch of host operations.

  `StableHlo.nary xs y f` writes `f` of the family of its operands' contents into `y`; for a LITERAL family of two
  references the result is stated here with each operand's contents at its own reference (the library has this form at
  four references, and at three, five and nine in a sibling file), so that a rewriting pass goes on into the operands.
  `read_stretch` is one rewriting pass over a goal about `StableHlo.after` of a literal stretch: it unfolds the fold and
  rewrites each operation's result at its own buffer to its function's value and at any other buffer to what was there
  (two references told apart by deciding), with the literal-family forms of `nary` only — never the general form, which
  leaves the operands under a binder.
-/
import Idealize.ShloMosaic.Lib.StableHlo.Run
import proofs.«427748_j59313498358226_3_alg».proof.Proof.LibNaryResult

noncomputable section

namespace Idealize.ShloMosaic.StableHlo

variable {nD : Nat} {τ : Topo} {sig : RefSig} {Val : EltTy → Type}
variable {x a y : Ref sig .tc}

/-- `nary` over a LITERAL family of 2 references: the result with each operand's contents at its own reference. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl
/-- The same with the result reference un-indexed, for `simp`. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in
/-- One rewriting pass over a literal stretch's fold (see the header). -/
macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.LibReadStretchRw.lean ====
/-
  Reading a short stretch of host operations, second pass.  Where an operation's function places its operands inside a
  list of shaped pieces (a concatenate printed as a binary or ternary operation), a simplifier pass stops at the list;
  `read_stretch_rw` goes on inside it by plain rewriting: each operation's result at its own buffer is its function's
  value, and at any other buffer what was there (two references told apart by deciding).
-/
import proofs.«427748_j59313498358226_3_alg».proof.Proof.LibReadStretch

open Idealize.ShloMosaic.StableHlo in
/-- The rewriting pass (see the header): repeats until no operation's result is left to read. -/
macro "read_stretch_rw" : tactic =>
  `(tactic| repeat (first
      | rw [nullary_result] | rw [unary_result] | rw [binary_result] | rw [ternary_result] | rw [quaternary_result]
      | rw [reshape_result] | rw [nary4_result] | rw [nary3_result] | rw [nary2_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))
-- ==== Proof.KHost.lean ====
/-
  The kernel's program read from its launch memory to its last boundary: each of the three results is one layer
  (`KT.layer`) of the one before it, over the index and weight vectors the first stretches of host operations compute
  once and every layer reads again.

  `rowK`, `colK`, `normK` are those shared vectors where they are first complete (after the third stretch); no later
  operation and no launch writes their buffers.  Each layer is then: the host operations between two launches compute
  `KT.agg2`, `KT.wbd`, `KT.bbd` of what they read; the launch leaves `KT.lin` of those in its result array; the first
  operation after the launch lays it back out (`KT.unpack`).
-/
import proofs.«427748_j59313498358226_3_alg».proof.Proof.Gen.KernelIdeal.Frame
import proofs.«427748_j59313498358226_3_alg».proof.Proof.KLayer
import proofs.«427748_j59313498358226_3_alg».proof.Proof.KRegion0
import proofs.«427748_j59313498358226_3_alg».proof.Proof.KRegion1
import proofs.«427748_j59313498358226_3_alg».proof.Proof.KRegion2
import proofs.«427748_j59313498358226_3_alg».proof.Proof.LibCarry
import proofs.«427748_j59313498358226_3_alg».proof.Proof.LibReadStretchRw

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

namespace KHost

/-! ## Contents at a value's type and at its buffer's type

The operations of an outlined function carry each operand from its buffer's type to the value's type and each result
back; both types are the same, so the two transports are the identity. -/

/-- Contents carried to a buffer's own type and back are the contents. -/
theorem ofBuf_toBuf {T : BufTy} (x : StableHlo.TRef sig T) (v : T.Contents (Elt Ideal)) :
    x.ofBuf (x.toBuf v) = v := by
  obtain ⟨r, h, h1, h2⟩ := x
  subst h
  rfl

/-- Contents carried to a buffer's own type are, up to that type, the contents. -/
theorem toBuf_heq {T : BufTy} (x : StableHlo.TRef sig T) (v : T.Contents (Elt Ideal)) : HEq (x.toBuf v) v :=
  cast_heq _ v

/-- A buffer's contents read at the value's type are, up to that type, the contents. -/
theorem ofBuf_heq {T : BufTy} (x : StableHlo.TRef sig T) (w : x.ref.ty.Contents (Elt Ideal)) : HEq (x.ofBuf w) w :=
  cast_heq _ w

/-- The launch's value is a function of its three arrays: equal arrays, equal values. -/
theorem lin_congr {r : Bool} {a a' : FVec Ideal S50000x128 .f32} {w w' : FVec Ideal S128x128 .f32}
    {b b' : FVec Ideal S1x128 .f32} (ha : a = a') (hw : w = w') (hb : b = b') :
    KT.lin r a w b = KT.lin r a' w' b' := by
  rw [ha, hw, hb]

/-! ## Each stretch of host operations, from any contents

What a stretch leaves in the buffers the next launch (or the next stretch) reads, as the pure function of what it
found in the buffers it reads.  The three layers' stretches are the same operations over their own buffers. -/

section Stretches

variable (V : Valuation τ sig (Elt Ideal))

/-! ### The first layer -/

/-- The rows of the features the sources name. -/
theorem take_stretch0 :
    (StableHlo.after hostOps0_3 V (Proc.devRef .tc main_v32) : FVec Ideal S1380000x64 .f32)
      = KT.take (F := Ideal) (V (Proc.devRef .tc main_arg0)) (V (Proc.devRef .tc main_v5)) := by
  have e0 : (StableHlo.TRef.of main_arg0 : StableHlo.TRef sig ⟨S100000x64, .f32⟩).ofBuf (V (Proc.devRef .tc main_arg0))
      = V (Proc.devRef .tc main_arg0) := eq_of_heq (ofBuf_heq _ _)
  have e5 : (StableHlo.TRef.of main_v5 : StableHlo.TRef sig ⟨S1380000, .i32⟩).ofBuf (V (Proc.devRef .tc main_v5))
      = V (Proc.devRef .tc main_v5) := eq_of_heq (ofBuf_heq _ _)
  dsimp only [hostOps0_3]; after_results_simp
  simp only [ofBuf_toBuf, e0, e5]
  unfold KT.take KT.takeOk KT.takeIdx
  exact eq_of_heq (toBuf_heq _ _)

/-- The scaled rows summed into the targets' rows and laid two by two, once the taken rows are in their buffer. -/
theorem agg_stretch0 (h : FVec Ideal S100000x64 .f32) (rowf : IVec S1380000 32)
    (ht : (V (Proc.devRef .tc main_v32) : FVec Ideal S1380000x64 .f32) = KT.take h rowf) :
    (StableHlo.after hostOps0_4 V (Proc.devRef .tc main_v39) : FVec Ideal S50000x128 .f32)
      = KT.agg2 (F := Ideal) h rowf (V (Proc.devRef .tc main_v6)) (V (Proc.devRef .tc main_v31)) := by
  dsimp only [hostOps0_4]; after_results_simp; rw [ht]; rfl

/-- The matrix laid twice on the diagonal. -/
theorem wbd_stretch0 :
    (StableHlo.after hostOps0_4 V (Proc.devRef .tc main_v43) : FVec Ideal S128x128 .f32)
      = KT.wbd (F := Ideal) (V (Proc.devRef .tc main_arg3)) := by
  dsimp only [hostOps0_4]; after_results_simp; rfl

/-- The bias laid twice in a row. -/
theorem bbd_stretch0 :
    (StableHlo.after hostOps0_4 V (Proc.devRef .tc main_v45) : FVec Ideal S1x128 .f32)
      = KT.bbd (F := Ideal) (V (Proc.devRef .tc main_arg4)) := by
  dsimp only [hostOps0_4]; after_results_simp; rfl

/-- The launch's result laid back out. -/
theorem unpack_stretch0 :
    (StableHlo.after hostOps1 V (Proc.devRef .tc main_v47) : FVec Ideal S100000x64 .f32)
      = KT.unpack (F := Ideal) (V (Proc.devRef .tc main_v46)) := by
  dsimp only [hostOps1]; after_results_simp; rfl

/-! ### The second layer -/

/-- The rows of the first result the sources name. -/
theorem take_stretch1 :
    (StableHlo.after hostOps1_1 V (Proc.devRef .tc main_v48) : FVec Ideal S1380000x64 .f32)
      = KT.take (F := Ideal) (V (Proc.devRef .tc main_v47)) (V (Proc.devRef .tc main_v5)) := by
  have e0 : (StableHlo.TRef.of main_v47 : StableHlo.TRef sig ⟨S100000x64, .f32⟩).ofBuf (V (Proc.devRef .tc main_v47))
      = V (Proc.devRef .tc main_v47) := eq_of_heq (ofBuf_heq _ _)
  have e5 : (StableHlo.TRef.of main_v5 : StableHlo.TRef sig ⟨S1380000, .i32⟩).ofBuf (V (Proc.devRef .tc main_v5))
      = V (Proc.devRef .tc main_v5) := eq_of_heq (ofBuf_heq _ _)
  dsimp only [hostOps1_1]; after_results_simp
  simp only [ofBuf_toBuf, e0, e5]
  unfold KT.take KT.takeOk KT.takeIdx
  exact eq_of_heq (toBuf_heq _ _)

/-- The scaled rows summed into the targets' rows and laid two by two, once the taken rows are in their buffer. -/
theorem agg_stretch1 (h : FVec Ideal S100000x64 .f32) (rowf : IVec S1380000 32)
    (ht : (V (Proc.devRef .tc main_v48) : FVec Ideal S1380000x64 .f32) = KT.take h rowf) :
    (StableHlo.after hostOps1_2 V (Proc.devRef .tc main_v55) : FVec Ideal S50000x128 .f32)
      = KT.agg2 (F := Ideal) h rowf (V (Proc.devRef .tc main_v6)) (V (Proc.devRef .tc main_v31)) := by
  dsimp only [hostOps1_2]; after_results_simp; rw [ht]; rfl

/-- The matrix laid twice on the diagonal. -/
theorem wbd_stretch1 :
    (StableHlo.after hostOps1_2 V (Proc.devRef .tc main_v59) : FVec Ideal S128x128 .f32)
      = KT.wbd (F := Ideal) (V (Proc.devRef .tc main_arg5)) := by
  dsimp only [hostOps1_2]; after_results_simp; rfl

/-- The bias laid twice in a row. -/
theorem bbd_stretch1 :
    (StableHlo.after hostOps1_2 V (Proc.devRef .tc main_v61) : FVec Ideal S1x128 .f32)
      = KT.bbd (F := Ideal) (V (Proc.devRef .tc main_arg6)) := by
  dsimp only [hostOps1_2]; after_results_simp; rfl

/-- The launch's result laid back out. -/
theorem unpack_stretch1 :
    (StableHlo.after hostOps2 V (Proc.devRef .tc main_v63) : FVec Ideal S100000x64 .f32)
      = KT.unpack (F := Ideal) (V (Proc.devRef .tc main_v62)) := by
  dsimp only [hostOps2]; after_results_simp; rfl

/-! ### The third layer -/

/-- The rows of the second result the sources name. -/
theorem take_stretch2 :
    (StableHlo.after hostOps2_1 V (Proc.devRef .tc main_v64) : FVec Ideal S1380000x64 .f32)
      = KT.take (F := Ideal) (V (Proc.devRef .tc main_v63)) (V (Proc.devRef .tc main_v5)) := by
  have e0 : (StableHlo.TRef.of main_v63 : StableHlo.TRef sig ⟨S100000x64, .f32⟩).ofBuf (V (Proc.devRef .tc main_v63))
      = V (Proc.devRef .tc main_v63) := eq_of_heq (ofBuf_heq _ _)
  have e5 : (StableHlo.TRef.of main_v5 : StableHlo.TRef sig ⟨S1380000, .i32⟩).ofBuf (V (Proc.devRef .tc main_v5))
      = V (Proc.devRef .tc main_v5) := eq_of_heq (ofBuf_heq _ _)
  dsimp only [hostOps2_1]; after_results_simp
  simp only [ofBuf_toBuf, e0, e5]
  unfold KT.take KT.takeOk KT.takeIdx
  exact eq_of_heq (toBuf_heq _ _)

/-- The scaled rows summed into the targets' rows and laid two by two, once the taken rows are in their buffer. -/
theorem agg_stretch2 (h : FVec Ideal S100000x64 .f32) (rowf : IVec S1380000 32)
    (ht : (V (Proc.devRef .tc main_v64) : FVec Ideal S1380000x64 .f32) = KT.take h rowf) :
    (StableHlo.after hostOps2_2 V (Proc.devRef .tc main_v71) : FVec Ideal S50000x128 .f32)
      = KT.agg2 (F := Ideal) h rowf (V (Proc.devRef .tc main_v6)) (V (Proc.devRef .tc main_v31)) := by
  dsimp only [hostOps2_2]; after_results_simp; rw [ht]; rfl

/-- The matrix laid twice on the diagonal. -/
theorem wbd_stretch2 :
    (StableHlo.after hostOps2_2 V (Proc.devRef .tc main_v75) : FVec Ideal S128x128 .f32)
      = KT.wbd (F := Ideal) (V (Proc.devRef .tc main_arg7)) := by
  dsimp only [hostOps2_2]; after_results_simp; rfl

/-- The bias laid twice in a row. -/
theorem bbd_stretch2 :
    (StableHlo.after hostOps2_2 V (Proc.devRef .tc main_v77) : FVec Ideal S1x128 .f32)
      = KT.bbd (F := Ideal) (V (Proc.devRef .tc main_arg8)) := by
  dsimp only [hostOps2_2]; after_results_simp; rfl

/-- The launch's result laid back out. -/
theorem unpack_stretch2 :
    (StableHlo.after hostOps3 V (Proc.devRef .tc main_v79) : FVec Ideal S100000x64 .f32)
      = KT.unpack (F := Ideal) (V (Proc.devRef .tc main_v78)) := by
  dsimp only [hostOps3]; after_results_simp; rfl

end Stretches

end KHost

variable (m : (ℓ : Loc nD τ sig) → Buf (Elt Ideal) ℓ) (ρ : Dev nD → PrngReg)

/-- The edges' sources followed by the self-loops, as the kernel's program computes them. -/
abbrev rowK (c : Dev nD) : IVec S1380000 32 := W3 m ρ c (Proc.devRef .tc main_v5)
/-- The edges' targets followed by the self-loops. -/
abbrev colK (c : Dev nD) : IVec S1380000 32 := W3 m ρ c (Proc.devRef .tc main_v6)
/-- The edges' normalised weights. -/
abbrev normK (c : Dev nD) : FVec Ideal S1380000 .f32 := W3 m ρ c (Proc.devRef .tc main_v31)

/-- The first result: one layer of the features. -/
abbrev out1 (c : Dev nD) : FVec Ideal S100000x64 .f32 :=
  KT.layer true (m ((c.tc : Thread nD τ).loc main_arg0)) (rowK m ρ c) (colK m ρ c) (normK m ρ c) (m ((c.tc : Thread nD τ).loc main_arg3)) (m ((c.tc : Thread nD τ).loc main_arg4))
/-- The second: one layer of the first. -/
abbrev out2 (c : Dev nD) : FVec Ideal S100000x64 .f32 :=
  KT.layer true (out1 m ρ c) (rowK m ρ c) (colK m ρ c) (normK m ρ c) (m ((c.tc : Thread nD τ).loc main_arg5)) (m ((c.tc : Thread nD τ).loc main_arg6))
/-- The third: one layer, without activation, of the second. -/
abbrev out3 (c : Dev nD) : FVec Ideal S100000x64 .f32 :=
  KT.layer false (out2 m ρ c) (rowK m ρ c) (colK m ρ c) (normK m ρ c) (m ((c.tc : Thread nD τ).loc main_arg7)) (m ((c.tc : Thread nD τ).loc main_arg8))

namespace KHost

/-! ## The boundaries of the first layer -/

/-- The features are as launched where the first take reads them. -/
theorem W3_arg0 (c : Dev nD) :
    W3 m ρ c (Proc.devRef .tc main_arg0) = m ((c.tc : Thread nD τ).loc main_arg0) :=
  calc W3 m ρ c (Proc.devRef .tc main_arg0)
    _ = W2 m ρ c (Proc.devRef .tc main_arg0) := by keep_host hostOps0_2
    _ = W1 m ρ c (Proc.devRef .tc main_arg0) := by keep_host hostOps0_1
    _ = W0 m ρ c (Proc.devRef .tc main_arg0) := by keep_host hostOps0
    _ = m ((c.tc : Thread nD τ).loc main_arg0) := rfl

/-- The first layer's matrix is as launched where it is laid out. -/
theorem W4_arg3 (c : Dev nD) :
    W4 m ρ c (Proc.devRef .tc main_arg3) = m ((c.tc : Thread nD τ).loc main_arg3) :=
  calc W4 m ρ c (Proc.devRef .tc main_arg3)
    _ = W3 m ρ c (Proc.devRef .tc main_arg3) := by keep_host hostOps0_3
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = m ((c.tc : Thread nD τ).loc main_arg3) := rfl

/-- The first layer's bias is as launched where it is laid out. -/
theorem W4_arg4 (c : Dev nD) :
    W4 m ρ c (Proc.devRef .tc main_arg4) = m ((c.tc : Thread nD τ).loc main_arg4) :=
  calc W4 m ρ c (Proc.devRef .tc main_arg4)
    _ = W3 m ρ c (Proc.devRef .tc main_arg4) := by keep_host hostOps0_3
    _ = W2 m ρ c (Proc.devRef .tc main_arg4) := by keep_host hostOps0_2
    _ = W1 m ρ c (Proc.devRef .tc main_arg4) := by keep_host hostOps0_1
    _ = W0 m ρ c (Proc.devRef .tc main_arg4) := by keep_host hostOps0
    _ = m ((c.tc : Thread nD τ).loc main_arg4) := rfl

/-- The take does not write the targets. -/
theorem W4_v6 (c : Dev nD) : W4 m ρ c (Proc.devRef .tc main_v6) = colK m ρ c := by
  keep_host hostOps0_3

/-- The take does not write the weights. -/
theorem W4_v31 (c : Dev nD) : W4 m ρ c (Proc.devRef .tc main_v31) = normK m ρ c := by
  keep_host hostOps0_3

/-- After the first take: the features' rows the sources name. -/
theorem W4_take (c : Dev nD) :
    (W4 m ρ c (Proc.devRef .tc main_v32) : FVec Ideal S1380000x64 .f32)
      = KT.take (F := Ideal) (m ((c.tc : Thread nD τ).loc main_arg0)) (rowK m ρ c) :=
  (take_stretch0 (W3 m ρ c)).trans
    (congrArg (fun h : FVec Ideal S100000x64 .f32 => KT.take (F := Ideal) h (rowK m ρ c)) (W3_arg0 m ρ c))

/-- At the first launch's entry its first array holds the aggregated features. -/
theorem W5_agg (c : Dev nD) :
    (W5 m ρ c (Proc.devRef .tc main_v39) : FVec Ideal S50000x128 .f32)
      = KT.agg2 (F := Ideal) (m ((c.tc : Thread nD τ).loc main_arg0)) (rowK m ρ c) (colK m ρ c) (normK m ρ c) :=
  (agg_stretch0 (W4 m ρ c) _ _ (W4_take m ρ c)).trans
    (congrArg₂ (fun (cf : IVec S1380000 32) (nm : FVec Ideal S1380000 .f32) =>
        KT.agg2 (F := Ideal) (m ((c.tc : Thread nD τ).loc main_arg0)) (rowK m ρ c) cf nm) (W4_v6 m ρ c) (W4_v31 m ρ c))

/-- Its second array holds the matrix laid twice. -/
theorem W5_wbd (c : Dev nD) :
    (W5 m ρ c (Proc.devRef .tc main_v43) : FVec Ideal S128x128 .f32)
      = KT.wbd (F := Ideal) (m ((c.tc : Thread nD τ).loc main_arg3)) :=
  (wbd_stretch0 (W4 m ρ c)).trans (congrArg (fun W : FVec Ideal S64x64 .f32 => KT.wbd (F := Ideal) W) (W4_arg3 m ρ c))

/-- Its third array holds the bias laid twice. -/
theorem W5_bbd (c : Dev nD) :
    (W5 m ρ c (Proc.devRef .tc main_v45) : FVec Ideal S1x128 .f32)
      = KT.bbd (F := Ideal) (m ((c.tc : Thread nD τ).loc main_arg4)) :=
  (bbd_stretch0 (W4 m ρ c)).trans (congrArg (fun b : FVec Ideal S64 .f32 => KT.bbd (F := Ideal) b) (W4_arg4 m ρ c))

/-- At the first launch's exit its result array holds the layer before it is laid back out. -/
theorem W6_lin (c : Dev nD) :
    (W6 m ρ c (Proc.devRef .tc main_v46) : FVec Ideal S50000x128 .f32)
      = KT.lin true (KT.agg2 (F := Ideal) (m ((c.tc : Thread nD τ).loc main_arg0)) (rowK m ρ c) (colK m ρ c) (normK m ρ c))
          (KT.wbd (F := Ideal) (m ((c.tc : Thread nD τ).loc main_arg3))) (KT.bbd (F := Ideal) (m ((c.tc : Thread nD τ).loc main_arg4))) :=
  ((W6_arr m ρ c 3).trans (region0_val (V5 m ρ) c)).trans
    (lin_congr (W5_agg m ρ c) (W5_wbd m ρ c) (W5_bbd m ρ c))

/-- After the first launch's result is laid back out: the first layer. -/
theorem W7_out1 (c : Dev nD) : W7 m ρ c (Proc.devRef .tc main_v47) = out1 m ρ c :=
  (unpack_stretch0 (W6 m ρ c)).trans
    (congrArg (fun o : FVec Ideal S50000x128 .f32 => KT.unpack (F := Ideal) o) (W6_lin m ρ c))

/-! ## The boundaries of the second layer -/

/-- The sources are untouched up to the second take. -/
theorem W7_v5 (c : Dev nD) : W7 m ρ c (Proc.devRef .tc main_v5) = rowK m ρ c :=
  calc W7 m ρ c (Proc.devRef .tc main_v5)
    _ = W6 m ρ c (Proc.devRef .tc main_v5) := by keep_host hostOps1
    _ = W5 m ρ c (Proc.devRef .tc main_v5) := W6_of_ne m ρ c main_v5 (by decide)
    _ = W4 m ρ c (Proc.devRef .tc main_v5) := by keep_host hostOps0_4
    _ = W3 m ρ c (Proc.devRef .tc main_v5) := by keep_host hostOps0_3

/-- The targets are untouched up to the second aggregation. -/
theorem W8_v6 (c : Dev nD) : W8 m ρ c (Proc.devRef .tc main_v6) = colK m ρ c :=
  calc W8 m ρ c (Proc.devRef .tc main_v6)
    _ = W7 m ρ c (Proc.devRef .tc main_v6) := by keep_host hostOps1_1
    _ = W6 m ρ c (Proc.devRef .tc main_v6) := by keep_host hostOps1
    _ = W5 m ρ c (Proc.devRef .tc main_v6) := W6_of_ne m ρ c main_v6 (by decide)
    _ = W4 m ρ c (Proc.devRef .tc main_v6) := by keep_host hostOps0_4
    _ = colK m ρ c := W4_v6 m ρ c

/-- The weights are untouched up to the second aggregation. -/
theorem W8_v31 (c : Dev nD) : W8 m ρ c (Proc.devRef .tc main_v31) = normK m ρ c :=
  calc W8 m ρ c (Proc.devRef .tc main_v31)
    _ = W7 m ρ c (Proc.devRef .tc main_v31) := by keep_host hostOps1_1
    _ = W6 m ρ c (Proc.devRef .tc main_v31) := by keep_host hostOps1
    _ = W5 m ρ c (Proc.devRef .tc main_v31) := W6_of_ne m ρ c main_v31 (by decide)
    _ = W4 m ρ c (Proc.devRef .tc main_v31) := by keep_host hostOps0_4
    _ = normK m ρ c := W4_v31 m ρ c

/-- The second layer's matrix is as launched where it is laid out: nothing from there to the end writes it, and at the
    end it is as launched. -/
theorem W8_arg5 (c : Dev nD) :
    W8 m ρ c (Proc.devRef .tc main_arg5) = m ((c.tc : Thread nD τ).loc main_arg5) :=
  (calc W15 m ρ c (Proc.devRef .tc main_arg5)
    _ = W14 m ρ c (Proc.devRef .tc main_arg5) := by keep_host hostOps3
    _ = W13 m ρ c (Proc.devRef .tc main_arg5) := W14_of_ne m ρ c main_arg5 (by decide)
    _ = W12 m ρ c (Proc.devRef .tc main_arg5) := by keep_host hostOps2_2
    _ = W11 m ρ c (Proc.devRef .tc main_arg5) := by keep_host hostOps2_1
    _ = W10 m ρ c (Proc.devRef .tc main_arg5) := by keep_host hostOps2
    _ = W9 m ρ c (Proc.devRef .tc main_arg5) := W10_of_ne m ρ c main_arg5 (by decide)
    _ = W8 m ρ c (Proc.devRef .tc main_arg5) := by keep_host hostOps1_2).symm.trans (W15_main_arg5 m ρ c)

/-- The second layer's bias is as launched where it is laid out. -/
theorem W8_arg6 (c : Dev nD) :
    W8 m ρ c (Proc.devRef .tc main_arg6) = m ((c.tc : Thread nD τ).loc main_arg6) :=
  (calc W15 m ρ c (Proc.devRef .tc main_arg6)
    _ = W14 m ρ c (Proc.devRef .tc main_arg6) := by keep_host hostOps3
    _ = W13 m ρ c (Proc.devRef .tc main_arg6) := W14_of_ne m ρ c main_arg6 (by decide)
    _ = W12 m ρ c (Proc.devRef .tc main_arg6) := by keep_host hostOps2_2
    _ = W11 m ρ c (Proc.devRef .tc main_arg6) := by keep_host hostOps2_1
    _ = W10 m ρ c (Proc.devRef .tc main_arg6) := by keep_host hostOps2
    _ = W9 m ρ c (Proc.devRef .tc main_arg6) := W10_of_ne m ρ c main_arg6 (by decide)
    _ = W8 m ρ c (Proc.devRef .tc main_arg6) := by keep_host hostOps1_2).symm.trans (W15_main_arg6 m ρ c)

/-- After the second take: the first result's rows the sources name. -/
theorem W8_take (c : Dev nD) :
    (W8 m ρ c (Proc.devRef .tc main_v48) : FVec Ideal S1380000x64 .f32) = KT.take (F := Ideal) (out1 m ρ c) (rowK m ρ c) :=
  (take_stretch1 (W7 m ρ c)).trans
    (congrArg₂ (fun (h : FVec Ideal S100000x64 .f32) (r : IVec S1380000 32) => KT.take (F := Ideal) h r)
      (W7_out1 m ρ c) (W7_v5 m ρ c))

/-- At the second launch's entry its first array holds the aggregated first result. -/
theorem W9_agg (c : Dev nD) :
    (W9 m ρ c (Proc.devRef .tc main_v55) : FVec Ideal S50000x128 .f32)
      = KT.agg2 (F := Ideal) (out1 m ρ c) (rowK m ρ c) (colK m ρ c) (normK m ρ c) :=
  (agg_stretch1 (W8 m ρ c) _ _ (W8_take m ρ c)).trans
    (congrArg₂ (fun (cf : IVec S1380000 32) (nm : FVec Ideal S1380000 .f32) =>
        KT.agg2 (F := Ideal) (out1 m ρ c) (rowK m ρ c) cf nm) (W8_v6 m ρ c) (W8_v31 m ρ c))

/-- Its second array holds the matrix laid twice. -/
theorem W9_wbd (c : Dev nD) :
    (W9 m ρ c (Proc.devRef .tc main_v59) : FVec Ideal S128x128 .f32)
      = KT.wbd (F := Ideal) (m ((c.tc : Thread nD τ).loc main_arg5)) :=
  (wbd_stretch1 (W8 m ρ c)).trans (congrArg (fun W : FVec Ideal S64x64 .f32 => KT.wbd (F := Ideal) W) (W8_arg5 m ρ c))

/-- Its third array holds the bias laid twice. -/
theorem W9_bbd (c : Dev nD) :
    (W9 m ρ c (Proc.devRef .tc main_v61) : FVec Ideal S1x128 .f32)
      = KT.bbd (F := Ideal) (m ((c.tc : Thread nD τ).loc main_arg6)) :=
  (bbd_stretch1 (W8 m ρ c)).trans (congrArg (fun b : FVec Ideal S64 .f32 => KT.bbd (F := Ideal) b) (W8_arg6 m ρ c))

/-- At the second launch's exit its result array holds the layer before it is laid back out. -/
theorem W10_lin (c : Dev nD) :
    (W10 m ρ c (Proc.devRef .tc main_v62) : FVec Ideal S50000x128 .f32)
      = KT.lin true (KT.agg2 (F := Ideal) (out1 m ρ c) (rowK m ρ c) (colK m ρ c) (normK m ρ c))
          (KT.wbd (F := Ideal) (m ((c.tc : Thread nD τ).loc main_arg5))) (KT.bbd (F := Ideal) (m ((c.tc : Thread nD τ).loc main_arg6))) :=
  ((W10_arr m ρ c 3).trans (region1_val (V9 m ρ) c)).trans
    (lin_congr (W9_agg m ρ c) (W9_wbd m ρ c) (W9_bbd m ρ c))

/-- After the second launch's result is laid back out: the second layer. -/
theorem W11_out2 (c : Dev nD) : W11 m ρ c (Proc.devRef .tc main_v63) = out2 m ρ c :=
  (unpack_stretch1 (W10 m ρ c)).trans
    (congrArg (fun o : FVec Ideal S50000x128 .f32 => KT.unpack (F := Ideal) o) (W10_lin m ρ c))

/-! ## The boundaries of the third layer -/

/-- The sources are untouched up to the third take. -/
theorem W11_v5 (c : Dev nD) : W11 m ρ c (Proc.devRef .tc main_v5) = rowK m ρ c :=
  calc W11 m ρ c (Proc.devRef .tc main_v5)
    _ = W10 m ρ c (Proc.devRef .tc main_v5) := by keep_host hostOps2
    _ = W9 m ρ c (Proc.devRef .tc main_v5) := W10_of_ne m ρ c main_v5 (by decide)
    _ = W8 m ρ c (Proc.devRef .tc main_v5) := by keep_host hostOps1_2
    _ = W7 m ρ c (Proc.devRef .tc main_v5) := by keep_host hostOps1_1
    _ = rowK m ρ c := W7_v5 m ρ c

/-- The targets are untouched up to the third aggregation. -/
theorem W12_v6 (c : Dev nD) : W12 m ρ c (Proc.devRef .tc main_v6) = colK m ρ c :=
  calc W12 m ρ c (Proc.devRef .tc main_v6)
    _ = W11 m ρ c (Proc.devRef .tc main_v6) := by keep_host hostOps2_1
    _ = W10 m ρ c (Proc.devRef .tc main_v6) := by keep_host hostOps2
    _ = W9 m ρ c (Proc.devRef .tc main_v6) := W10_of_ne m ρ c main_v6 (by decide)
    _ = W8 m ρ c (Proc.devRef .tc main_v6) := by keep_host hostOps1_2
    _ = colK m ρ c := W8_v6 m ρ c

/-- The weights are untouched up to the third aggregation. -/
theorem W12_v31 (c : Dev nD) : W12 m ρ c (Proc.devRef .tc main_v31) = normK m ρ c :=
  calc W12 m ρ c (Proc.devRef .tc main_v31)
    _ = W11 m ρ c (Proc.devRef .tc main_v31) := by keep_host hostOps2_1
    _ = W10 m ρ c (Proc.devRef .tc main_v31) := by keep_host hostOps2
    _ = W9 m ρ c (Proc.devRef .tc main_v31) := W10_of_ne m ρ c main_v31 (by decide)
    _ = W8 m ρ c (Proc.devRef .tc main_v31) := by keep_host hostOps1_2
    _ = normK m ρ c := W8_v31 m ρ c

/-- The third layer's matrix is as launched where it is laid out. -/
theorem W12_arg7 (c : Dev nD) :
    W12 m ρ c (Proc.devRef .tc main_arg7) = m ((c.tc : Thread nD τ).loc main_arg7) :=
  (calc W15 m ρ c (Proc.devRef .tc main_arg7)
    _ = W14 m ρ c (Proc.devRef .tc main_arg7) := by keep_host hostOps3
    _ = W13 m ρ c (Proc.devRef .tc main_arg7) := W14_of_ne m ρ c main_arg7 (by decide)
    _ = W12 m ρ c (Proc.devRef .tc main_arg7) := by keep_host hostOps2_2).symm.trans (W15_main_arg7 m ρ c)

/-- The third layer's bias is as launched where it is laid out. -/
theorem W12_arg8 (c : Dev nD) :
    W12 m ρ c (Proc.devRef .tc main_arg8) = m ((c.tc : Thread nD τ).loc main_arg8) :=
  (calc W15 m ρ c (Proc.devRef .tc main_arg8)
    _ = W14 m ρ c (Proc.devRef .tc main_arg8) := by keep_host hostOps3
    _ = W13 m ρ c (Proc.devRef .tc main_arg8) := W14_of_ne m ρ c main_arg8 (by decide)
    _ = W12 m ρ c (Proc.devRef .tc main_arg8) := by keep_host hostOps2_2).symm.trans (W15_main_arg8 m ρ c)

/-- After the third take: the second result's rows the sources name. -/
theorem W12_take (c : Dev nD) :
    (W12 m ρ c (Proc.devRef .tc main_v64) : FVec Ideal S1380000x64 .f32) = KT.take (F := Ideal) (out2 m ρ c) (rowK m ρ c) :=
  (take_stretch2 (W11 m ρ c)).trans
    (congrArg₂ (fun (h : FVec Ideal S100000x64 .f32) (r : IVec S1380000 32) => KT.take (F := Ideal) h r)
      (W11_out2 m ρ c) (W11_v5 m ρ c))

/-- At the third launch's entry its first array holds the aggregated second result. -/
theorem W13_agg (c : Dev nD) :
    (W13 m ρ c (Proc.devRef .tc main_v71) : FVec Ideal S50000x128 .f32)
      = KT.agg2 (F := Ideal) (out2 m ρ c) (rowK m ρ c) (colK m ρ c) (normK m ρ c) :=
  (agg_stretch2 (W12 m ρ c) _ _ (W12_take m ρ c)).trans
    (congrArg₂ (fun (cf : IVec S1380000 32) (nm : FVec Ideal S1380000 .f32) =>
        KT.agg2 (F := Ideal) (out2 m ρ c) (rowK m ρ c) cf nm) (W12_v6 m ρ c) (W12_v31 m ρ c))

/-- Its second array holds the matrix laid twice. -/
theorem W13_wbd (c : Dev nD) :
    (W13 m ρ c (Proc.devRef .tc main_v75) : FVec Ideal S128x128 .f32)
      = KT.wbd (F := Ideal) (m ((c.tc : Thread nD τ).loc main_arg7)) :=
  (wbd_stretch2 (W12 m ρ c)).trans (congrArg (fun W : FVec Ideal S64x64 .f32 => KT.wbd (F := Ideal) W) (W12_arg7 m ρ c))

/-- Its third array holds the bias laid twice. -/
theorem W13_bbd (c : Dev nD) :
    (W13 m ρ c (Proc.devRef .tc main_v77) : FVec Ideal S1x128 .f32)
      = KT.bbd (F := Ideal) (m ((c.tc : Thread nD τ).loc main_arg8)) :=
  (bbd_stretch2 (W12 m ρ c)).trans (congrArg (fun b : FVec Ideal S64 .f32 => KT.bbd (F := Ideal) b) (W12_arg8 m ρ c))

/-- At the third launch's exit its result array holds the layer, without activation, before it is laid back out. -/
theorem W14_lin (c : Dev nD) :
    (W14 m ρ c (Proc.devRef .tc main_v78) : FVec Ideal S50000x128 .f32)
      = KT.lin false (KT.agg2 (F := Ideal) (out2 m ρ c) (rowK m ρ c) (colK m ρ c) (normK m ρ c))
          (KT.wbd (F := Ideal) (m ((c.tc : Thread nD τ).loc main_arg7))) (KT.bbd (F := Ideal) (m ((c.tc : Thread nD τ).loc main_arg8))) :=
  ((W14_arr m ρ c 3).trans (region2_val (V13 m ρ) c)).trans
    (lin_congr (W13_agg m ρ c) (W13_wbd m ρ c) (W13_bbd m ρ c))

/-- After the third launch's result is laid back out: the third layer. -/
theorem W15_out3 (c : Dev nD) : W15 m ρ c (Proc.devRef .tc main_v79) = out3 m ρ c :=
  (unpack_stretch2 (W14 m ρ c)).trans
    (congrArg (fun o : FVec Ideal S50000x128 .f32 => KT.unpack (F := Ideal) o) (W14_lin m ρ c))

/-! ## The results at the last boundary -/

/-- Nothing after its own layer writes the first result's buffer. -/
theorem W15_v47 (c : Dev nD) : W15 m ρ c (Proc.devRef .tc main_v47) = W7 m ρ c (Proc.devRef .tc main_v47) :=
  calc W15 m ρ c (Proc.devRef .tc main_v47)
    _ = W14 m ρ c (Proc.devRef .tc main_v47) := by keep_host hostOps3
    _ = W13 m ρ c (Proc.devRef .tc main_v47) := W14_of_ne m ρ c main_v47 (by decide)
    _ = W12 m ρ c (Proc.devRef .tc main_v47) := by keep_host hostOps2_2
    _ = W11 m ρ c (Proc.devRef .tc main_v47) := by keep_host hostOps2_1
    _ = W10 m ρ c (Proc.devRef .tc main_v47) := by keep_host hostOps2
    _ = W9 m ρ c (Proc.devRef .tc main_v47) := W10_of_ne m ρ c main_v47 (by decide)
    _ = W8 m ρ c (Proc.devRef .tc main_v47) := by keep_host hostOps1_2
    _ = W7 m ρ c (Proc.devRef .tc main_v47) := by keep_host hostOps1_1

/-- Nothing after its own layer writes the second result's buffer. -/
theorem W15_v63 (c : Dev nD) : W15 m ρ c (Proc.devRef .tc main_v63) = W11 m ρ c (Proc.devRef .tc main_v63) :=
  calc W15 m ρ c (Proc.devRef .tc main_v63)
    _ = W14 m ρ c (Proc.devRef .tc main_v63) := by keep_host hostOps3
    _ = W13 m ρ c (Proc.devRef .tc main_v63) := W14_of_ne m ρ c main_v63 (by decide)
    _ = W12 m ρ c (Proc.devRef .tc main_v63) := by keep_host hostOps2_2
    _ = W11 m ρ c (Proc.devRef .tc main_v63) := by keep_host hostOps2_1

end KHost

/-- At the last boundary the three result buffers hold the three layers. -/
theorem results (c : Dev nD) :
    W15 m ρ c (Proc.devRef .tc main_v47) = out1 m ρ c
    ∧ W15 m ρ c (Proc.devRef .tc main_v63) = out2 m ρ c
    ∧ W15 m ρ c (Proc.devRef .tc main_v79) = out3 m ρ c :=
  ⟨(KHost.W15_v47 m ρ c).trans (KHost.W7_out1 m ρ c), (KHost.W15_v63 m ρ c).trans (KHost.W11_out2 m ρ c),
    KHost.W15_out3 m ρ c⟩

end Cert.KernelIdeal.Gen

end
-- ==== Proof.KShared.lean ====
/-
  The index and weight vectors every layer shares are the same in the two programs: the kernel's program computes the
  edges' sources, targets and normalised weights by the very operations the reference does, so what its buffers hold
  after its third stretch of host operations are the reference's own stages of the same arguments.  The comparison goes
  stretch by stretch over whatever the buffers held before the stretch — sources, targets, weights with the self-loops'
  ones, degrees, the positivity test and the inverse square root in the first; the choice between that root and zero in
  the second; the product of two gathered roots and a weight in the third —, each stretch reading the earlier ones'
  results under the reference's names for them.
-/
import proofs.«427748_j59313498358226_3_alg».proof.Proof.Gen.KernelIdeal.Frame
import proofs.«427748_j59313498358226_3_alg».proof.Proof.Gen.ReferenceIdeal.Read
import proofs.«427748_j59313498358226_3_alg».proof.Proof.LibCarry

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)
open Idealize.ShloMosaic.StableHlo

/-! ## The first stretch, from any contents -/

theorem s1_v5 (V : Valuation τ sig (Elt Ideal)) : StableHlo.after hostOps0 V (Proc.devRef .tc main_v5) = Cert.ReferenceIdeal.Read.val_main_v5 (F := Ideal) (V (Proc.devRef .tc main_arg1)) := by
  dsimp only [hostOps0]
  after_results_simp
  rfl

theorem s1_v6 (V : Valuation τ sig (Elt Ideal)) : StableHlo.after hostOps0 V (Proc.devRef .tc main_v6) = Cert.ReferenceIdeal.Read.val_main_v6 (F := Ideal) (V (Proc.devRef .tc main_arg1)) := by
  dsimp only [hostOps0]
  after_results_simp
  rfl

theorem s1_v8 (V : Valuation τ sig (Elt Ideal)) : StableHlo.after hostOps0 V (Proc.devRef .tc main_v8) = Cert.ReferenceIdeal.Read.val_main_v8 (F := Ideal) (V (Proc.devRef .tc main_arg2)) := by
  dsimp only [hostOps0]
  after_results_simp
  rfl

theorem s1_v11 (V : Valuation τ sig (Elt Ideal)) : StableHlo.after hostOps0 V (Proc.devRef .tc main_v11) = Cert.ReferenceIdeal.Read.val_main_v11 (F := Ideal) (V (Proc.devRef .tc main_arg1)) (V (Proc.devRef .tc main_arg2)) := by
  dsimp only [hostOps0]
  after_results_simp
  rfl

theorem s1_v13 (V : Valuation τ sig (Elt Ideal)) : StableHlo.after hostOps0 V (Proc.devRef .tc main_v13) = Cert.ReferenceIdeal.Read.val_main_v13 (F := Ideal) (V (Proc.devRef .tc main_arg1)) (V (Proc.devRef .tc main_arg2)) := by
  dsimp only [hostOps0]
  after_results_simp
  rfl

theorem s1_v14 (V : Valuation τ sig (Elt Ideal)) : StableHlo.after hostOps0 V (Proc.devRef .tc main_v14) = Cert.ReferenceIdeal.Read.val_main_v14 (F := Ideal) (V (Proc.devRef .tc main_arg1)) (V (Proc.devRef .tc main_arg2)) := by
  dsimp only [hostOps0]
  after_results_simp
  rfl

theorem s1_cst_2 (V : Valuation τ sig (Elt Ideal)) : StableHlo.after hostOps0 V (Proc.devRef .tc main_cst_2) = Cert.ReferenceIdeal.Read.val_main_cst_2 (F := Ideal) := by
  dsimp only [hostOps0]
  after_results_simp
  rfl

/-! ## The second: the inverse square root of a positive degree, zero elsewhere -/

theorem s2_v15 (V : Valuation τ sig (Elt Ideal)) (x1 : IVec Cert.ReferenceIdeal.S2x1280000 32) (x2 : FVec Ideal Cert.ReferenceIdeal.S1280000 .f32)
    (h13 : V (Proc.devRef .tc main_v13) = Cert.ReferenceIdeal.Read.val_main_v13 (F := Ideal) x1 x2)
    (h14 : V (Proc.devRef .tc main_v14) = Cert.ReferenceIdeal.Read.val_main_v14 (F := Ideal) x1 x2)
    (hc : V (Proc.devRef .tc main_cst_2) = Cert.ReferenceIdeal.Read.val_main_cst_2 (F := Ideal)) :
    StableHlo.after hostOps0_1 V (Proc.devRef .tc main_v15) = Cert.ReferenceIdeal.Read.val_main_v15 (F := Ideal) x1 x2 := by
  dsimp only [hostOps0_1]
  after_results_simp
  show (select (V (Proc.devRef .tc main_v13)) (V (Proc.devRef .tc main_v14))
      (broadcastInDim S100000 ![] bcast_S_S100000 (id (V (Proc.devRef .tc main_cst_2)))) : FVec Ideal S100000 .f32) = _
  rw [h13, h14, hc]
  rfl

/-! ## The third: two gathered roots times the weight -/

theorem s3_v31 (V : Valuation τ sig (Elt Ideal)) (x1 : IVec Cert.ReferenceIdeal.S2x1280000 32) (x2 : FVec Ideal Cert.ReferenceIdeal.S1280000 .f32)
    (h5 : V (Proc.devRef .tc main_v5) = Cert.ReferenceIdeal.Read.val_main_v5 (F := Ideal) x1)
    (h6 : V (Proc.devRef .tc main_v6) = Cert.ReferenceIdeal.Read.val_main_v6 (F := Ideal) x1)
    (h8 : V (Proc.devRef .tc main_v8) = Cert.ReferenceIdeal.Read.val_main_v8 (F := Ideal) x2)
    (h15 : V (Proc.devRef .tc main_v15) = Cert.ReferenceIdeal.Read.val_main_v15 (F := Ideal) x1 x2) :
    StableHlo.after hostOps0_2 V (Proc.devRef .tc main_v31) = Cert.ReferenceIdeal.Read.val_main_v31 (F := Ideal) x1 x2 := by
  dsimp only [hostOps0_2]
  after_results_simp
  rw [h5, h6, h8, h15]
  rfl

/-! ## The three stretches from the launch memory -/

variable (m : (ℓ : Loc nD τ sig) → Buf (Elt Ideal) ℓ) (ρ : Dev nD → PrngReg)

theorem W2_v5 (c : Dev nD) : W2 m ρ c (Proc.devRef .tc main_v5) = Cert.ReferenceIdeal.Read.val_main_v5 (F := Ideal) (m ((c.tc : Thread nD τ).loc main_arg1)) :=
  (show W2 m ρ c (Proc.devRef .tc main_v5) = W1 m ρ c (Proc.devRef .tc main_v5) by keep_host hostOps0_1).trans (s1_v5 (W0 m ρ c))
theorem W2_v6 (c : Dev nD) : W2 m ρ c (Proc.devRef .tc main_v6) = Cert.ReferenceIdeal.Read.val_main_v6 (F := Ideal) (m ((c.tc : Thread nD τ).loc main_arg1)) :=
  (show W2 m ρ c (Proc.devRef .tc main_v6) = W1 m ρ c (Proc.devRef .tc main_v6) by keep_host hostOps0_1).trans (s1_v6 (W0 m ρ c))
theorem W2_v8 (c : Dev nD) : W2 m ρ c (Proc.devRef .tc main_v8) = Cert.ReferenceIdeal.Read.val_main_v8 (F := Ideal) (m ((c.tc : Thread nD τ).loc main_arg2)) :=
  (show W2 m ρ c (Proc.devRef .tc main_v8) = W1 m ρ c (Proc.devRef .tc main_v8) by keep_host hostOps0_1).trans (s1_v8 (W0 m ρ c))
theorem W2_v15 (c : Dev nD) : W2 m ρ c (Proc.devRef .tc main_v15) = Cert.ReferenceIdeal.Read.val_main_v15 (F := Ideal) (m ((c.tc : Thread nD τ).loc main_arg1)) (m ((c.tc : Thread nD τ).loc main_arg2)) :=
  s2_v15 (W1 m ρ c) _ _ (s1_v13 (W0 m ρ c)) (s1_v14 (W0 m ρ c)) (s1_cst_2 (W0 m ρ c))

/-- The sources. -/
theorem W3_rowf (c : Dev nD) : W3 m ρ c (Proc.devRef .tc main_v5)
    = Cert.ReferenceIdeal.Read.val_main_v5 (F := Ideal) (m ((c.tc : Thread nD τ).loc main_arg1)) :=
  (show W3 m ρ c (Proc.devRef .tc main_v5) = W2 m ρ c (Proc.devRef .tc main_v5) by keep_host hostOps0_2).trans (W2_v5 m ρ c)

/-- The targets. -/
theorem W3_colf (c : Dev nD) : W3 m ρ c (Proc.devRef .tc main_v6)
    = Cert.ReferenceIdeal.Read.val_main_v6 (F := Ideal) (m ((c.tc : Thread nD τ).loc main_arg1)) :=
  (show W3 m ρ c (Proc.devRef .tc main_v6) = W2 m ρ c (Proc.devRef .tc main_v6) by keep_host hostOps0_2).trans (W2_v6 m ρ c)

/-- The normalised weights. -/
theorem W3_norm (c : Dev nD) : W3 m ρ c (Proc.devRef .tc main_v31)
    = Cert.ReferenceIdeal.Read.val_main_v31 (F := Ideal) (m ((c.tc : Thread nD τ).loc main_arg1)) (m ((c.tc : Thread nD τ).loc main_arg2)) :=
  s3_v31 (W2 m ρ c) _ _ (W2_v5 m ρ c) (W2_v6 m ρ c) (W2_v8 m ρ c) (W2_v15 m ρ c)

end Cert.KernelIdeal.Gen

end
-- ==== Proof.RLayer.lean ====
/-
  One layer of the reference at the exact extended reals, as one function and read at an index.

  The reference multiplies the features by the layer's matrix first, gathers the products' rows the edges' sources name
  (an index below zero counts from the end), scales row `e` by the edge's weight, sums the scaled rows into the rows
  the edges' targets name and adds the bias; a layer with an activation takes the positive part.  `layer` is that
  composition over the reference's own stages of the shared index and weight vectors, and the three results of the
  reference's run are `layer` applied three times.
  `layer_apply`: over real data whose source indices name nodes, entry (n, j) is the real number `Cert.Gcn.preR`
  computes — multiply, then aggregate — through the activation.
-/
import proofs.«427748_j59313498358226_3_alg».proof.Proof.Gen.ReferenceIdeal.Read
import proofs.«427748_j59313498358226_3_alg».proof.Proof.Spec
import proofs.«427748_j59313498358226_3_alg».proof.Proof.LibScatterAdd
import proofs.«427748_j59313498358226_3_alg».proof.Proof.LibGatherRows
import Idealize.ShloMosaic.PureOps.Ideal
import Idealize.ShloMosaic.Lib.ValueIdx

noncomputable section

namespace Cert.ReferenceIdeal.RT

open Idealize.ShloMosaic Idealize.ShloMosaic.ValueIdx Idealize.SL.Sem Cert.ReferenceIdeal Cert.ReferenceIdeal.Gen
open Cert.ReferenceIdeal.Read

/-- A layer before its activation: multiply, gather, scale, sum by target, add the bias. -/
def pre (h : FVec Ideal S100000x64 .f32) (a1 : IVec S2x1280000 32) (a2 : FVec Ideal S1280000 .f32)
    (W : FVec Ideal S64x64 .f32) (b : FVec Ideal S64 .f32) : FVec Ideal S100000x64 .f32 :=
  addf
    (Host.scatterAdd scatter_S100000x64_S1380000x1_S1380000x64_1_0_0_1 (val_main_v43 (F := Ideal)) (val_main_v44 (F := Ideal) a1)
      (mulf (Host.gather gather_S100000x64_S1380000x1_S1380000x64_1_0_n_n_0_1_164
          (Host.dotGeneral dot_S100000x64_S64x64_S100000x64_1_0_0_1_n_n none h W) (val_main_v38 (F := Ideal) a1))
        (val_main_v41 (F := Ideal) a1 a2)))
    (val_main_v47 (F := Ideal) b)

/-- One whole layer of the reference. -/
def layer (relu : Bool) (h : FVec Ideal S100000x64 .f32) (a1 : IVec S2x1280000 32) (a2 : FVec Ideal S1280000 .f32)
    (W : FVec Ideal S64x64 .f32) (b : FVec Ideal S64 .f32) : FVec Ideal S100000x64 .f32 :=
  if relu then maximumf (pre h a1 a2 W b) (val_main_call1_v0 (F := Ideal)) else pre h a1 a2 W b

/-- The reference's first result is one layer of the features. -/
theorem val49_eq (x0 : FVec Ideal S100000x64 .f32) (x1 : IVec S2x1280000 32) (x2 : FVec Ideal S1280000 .f32)
    (x3 : FVec Ideal S64x64 .f32) (x4 : FVec Ideal S64 .f32) :
    val_main_v49 (F := Ideal) x0 x1 x2 x3 x4 = layer true x0 x1 x2 x3 x4 := by
  unfold layer pre
  rw [if_pos rfl]
  unfold val_main_v49 val_main_v48 val_main_v45 val_main_v42 val_main_v39 val_main_v32
  rfl

/-- Its second result is one layer of the first. -/
theorem val67_eq (x0 : FVec Ideal S100000x64 .f32) (x1 : IVec S2x1280000 32) (x2 : FVec Ideal S1280000 .f32)
    (x3 : FVec Ideal S64x64 .f32) (x4 : FVec Ideal S64 .f32) (x5 : FVec Ideal S64x64 .f32) (x6 : FVec Ideal S64 .f32) :
    val_main_v67 (F := Ideal) x0 x1 x2 x3 x4 x5 x6 = layer true (layer true x0 x1 x2 x3 x4) x1 x2 x5 x6 := by
  rw [← val49_eq x0 x1 x2 x3 x4]
  unfold layer pre
  rw [if_pos rfl]
  unfold val_main_v67 val_main_v66 val_main_v63 val_main_v60 val_main_v57 val_main_v50
  unfold val_main_v65 val_main_v64 val_main_v62 val_main_v61 val_main_cst_11 val_main_v59 val_main_v58
  unfold val_main_v56 val_main_v55 val_main_v54 val_main_v53 val_main_c_10 val_main_v52 val_main_v51 val_main_c_9
  unfold val_main_call2_v0 val_main_call2_cst
  unfold val_main_v47 val_main_v46 val_main_v44 val_main_v43 val_main_cst_8 val_main_v41 val_main_v40
  unfold val_main_v38 val_main_v37 val_main_v36 val_main_v35 val_main_c_7 val_main_v34 val_main_v33 val_main_c_6
  unfold val_main_call1_v0 val_main_call1_cst
  rfl

/-- Its third result is one layer, without activation, of the second. -/
theorem val84_eq (x0 : FVec Ideal S100000x64 .f32) (x1 : IVec S2x1280000 32) (x2 : FVec Ideal S1280000 .f32)
    (x3 : FVec Ideal S64x64 .f32) (x4 : FVec Ideal S64 .f32) (x5 : FVec Ideal S64x64 .f32) (x6 : FVec Ideal S64 .f32)
    (x7 : FVec Ideal S64x64 .f32) (x8 : FVec Ideal S64 .f32) :
    val_main_v84 (F := Ideal) x0 x1 x2 x3 x4 x5 x6 x7 x8
      = layer false (layer true (layer true x0 x1 x2 x3 x4) x1 x2 x5 x6) x1 x2 x7 x8 := by
  rw [← val67_eq x0 x1 x2 x3 x4 x5 x6]
  unfold layer pre
  rw [if_neg (by decide)]
  unfold val_main_v84 val_main_v81 val_main_v78 val_main_v75 val_main_v68
  unfold val_main_v83 val_main_v82 val_main_v80 val_main_v79 val_main_cst_14 val_main_v77 val_main_v76
  unfold val_main_v74 val_main_v73 val_main_v72 val_main_v71 val_main_c_13 val_main_v70 val_main_v69 val_main_c_12
  unfold val_main_v47 val_main_v46 val_main_v44 val_main_v43 val_main_cst_8 val_main_v41 val_main_v40
  unfold val_main_v38 val_main_v37 val_main_v36 val_main_v35 val_main_c_7 val_main_v34 val_main_v33 val_main_c_6
  rfl

/-- A signed word that is not negative is kept by "add the extent if below zero". -/
theorem wrap_nonneg (w : BitVec 32) (hw : 0 ≤ w.toInt) :
    Scalar.select (IntOp.cmpi .slt w 0#32) (IntOp.addi w 100000#32) w = w := by
  have h0 : IntOp.cmpi .slt w 0#32 = 0#1 := by
    refine eq_zero_of_ne_one fun hc => ?_
    have hlt := IntOp.cmpi_slt.1 hc
    rw [show (0#32 : BitVec 32).toInt = 0 from by decide] at hlt
    omega
  rw [h0, select_zero]

/-- The gather's start column at edge `e` is the edge's source word when that word is not negative. -/
theorem src_at (a1 : IVec S2x1280000 32) (e : Fin 1380000)
    (hw : 0 ≤ (val_main_v5 (F := Ideal) a1 (ix1 e)).toInt) :
    val_main_v38 (F := Ideal) a1 (ix2 e (0 : Fin 1)) = val_main_v5 (F := Ideal) a1 (ix1 e) := by
  have hi : idx_main_v38 (ix2 e (0 : Fin 1)) = ix1 e := by
    funext a; match a with | ⟨0, _⟩ => rfl
  rw [val_main_v38_apply, hi, val_main_v37_apply, val_main_v34_apply, val_main_v36_apply, val_main_v33_apply,
    val_main_v35_apply, val_main_c_6_apply, val_main_c_7_apply]
  exact wrap_nonneg _ hw

/-- The row gathered for edge `e` is the row of the edge's source node. -/
theorem gather_at (x : FVec Ideal S100000x64 .f32) (a1 : IVec S2x1280000 32) (ρ : Fin 1380000 → Fin 100000)
    (hρ : ∀ e, (val_main_v5 (F := Ideal) a1 (ix1 e)).toInt = ((ρ e).val : ℤ)) (e : Fin 1380000) (j : Fin 64) :
    Host.gather gather_S100000x64_S1380000x1_S1380000x64_1_0_n_n_0_1_164 x (val_main_v38 (F := Ideal) a1) (ix2 e j)
      = x (ix2 (ρ e) j) := by
  refine (Cert.LibGatherRows.gather_rows_apply (by decide) _ rfl rfl rfl rfl rfl rfl rfl x _ e j).trans ?_
  refine congrArg (fun r => x (ix2 r j)) (Fin.ext ?_)
  show min (val_main_v38 (F := Ideal) a1 (ix2 e (0 : Fin 1))).toInt.toNat (100000 - 1) = (ρ e).val
  rw [src_at a1 e (by rw [hρ]; exact Int.natCast_nonneg _), hρ]
  have hlt := (ρ e).isLt
  omega

/-- Entry (n, j) of the product of the features and the matrix: row n against column j. -/
theorem dot_at (h : FVec Ideal S100000x64 .f32) (W : FVec Ideal S64x64 .f32) (n : Fin 100000) (j : Fin 64) :
    Host.dotGeneral dot_S100000x64_S64x64_S100000x64_1_0_0_1_n_n none h W (ix2 n j)
      = ∑ k : Fin 64, h (ix2 n k) * W (ix2 k j) := by
  refine (val_main_v32_apply h W (ix2 n j)).trans ?_
  refine Finset.sum_congr rfl fun k _ => ?_
  have hl : lidx_main_v32 (ix2 n j) k = ix2 n k := by
    funext a; match a with | ⟨0, _⟩ => rfl | ⟨1, _⟩ => rfl
  have hr : ridx_main_v32 (ix2 n j) k = ix2 k j := by
    funext a; match a with | ⟨0, _⟩ => rfl | ⟨1, _⟩ => rfl
  rw [hl, hr]

/-- The weights' matrix repeats edge `e`'s weight along row `e`. -/
theorem weight_at (a1 : IVec S2x1280000 32) (a2 : FVec Ideal S1280000 .f32) (e : Fin 1380000) (j : Fin 64) :
    val_main_v41 (F := Ideal) a1 a2 (ix2 e j) = val_main_v31 (F := Ideal) a1 a2 (ix1 e) := by
  have hi : idx_main_v40 (idx_main_v41 (ix2 e j)) = ix1 e := by
    funext a; match a with | ⟨0, _⟩ => rfl
  rw [val_main_v41_apply, val_main_v40_apply, hi]

/-- The scatter's index column at edge `e` is the edge's target word. -/
theorem target_at (a1 : IVec S2x1280000 32) (e : Fin 1380000) :
    val_main_v44 (F := Ideal) a1 (ix2 e (0 : Fin 1)) = val_main_v6 (F := Ideal) a1 (ix1 e) := by
  have hi : idx_main_v44 (ix2 e (0 : Fin 1)) = ix1 e := by
    funext a; match a with | ⟨0, _⟩ => rfl
  rw [val_main_v44_apply, hi]

/-- The bias matrix repeats the bias vector along every row. -/
theorem bias_at (b : FVec Ideal S64 .f32) (n : Fin 100000) (j : Fin 64) :
    val_main_v47 (F := Ideal) b (ix2 n j) = b (ix1 j) := by
  have hi : idx_main_v46 (idx_main_v47 (ix2 n j)) = ix1 j := by
    funext a; match a with | ⟨0, _⟩ => rfl
  rw [val_main_v47_apply, val_main_v46_apply, hi]

/-- The scatter's operand is zero everywhere. -/
theorem zero_operand_at (i : S100000x64.Idx) : val_main_v43 (F := Ideal) i = (0 : EReal) := by
  rw [val_main_v43_apply, val_main_cst_8_apply]
  exact Ideal.ofBits_zero_f32

/-- The activation's floor is zero everywhere. -/
theorem zero_floor_at (i : S100000x64.Idx) : val_main_call1_v0 (F := Ideal) i = (0 : EReal) := by
  rw [val_main_call1_v0_apply, val_main_call1_cst_apply]
  exact Ideal.ofBits_zero_f32

/-- The row scatter at entry (n, j): the operand's entry plus the updates' column j over the rows whose index is n. -/
theorem scatter_at (x : FVec Ideal S100000x64 .f32) (idx : IVec S1380000x1 32) (upd : FVec Ideal S1380000x64 .f32)
    (n : Fin 100000) (j : Fin 64) :
    Host.scatterAdd scatter_S100000x64_S1380000x1_S1380000x64_1_0_0_1 x idx upd (ix2 n j)
      = x (ix2 n j) + ∑ r : Fin 1380000, if (idx (ix2 r (0 : Fin 1))).toInt = (n.val : ℤ) then upd (ix2 r j) else 0 :=
  Cert.ScatterAdd.scatterAdd_rows _ rfl rfl rfl rfl x idx upd n j

/-- Entry (n, j) of a layer before its activation, over real data whose source indices name nodes: the real number
    "multiply, then aggregate, then add the bias" computes. -/
theorem pre_apply (h : FVec Ideal S100000x64 .f32) (a1 : IVec S2x1280000 32) (a2 : FVec Ideal S1280000 .f32)
    (W : FVec Ideal S64x64 .f32) (b : FVec Ideal S64 .f32)
    (H : Fin 100000 → Fin 64 → ℝ) (hH : ∀ n k, h (ix2 n k) = (H n k : EReal))
    (ν : Fin 1380000 → ℝ) (hν : ∀ e, val_main_v31 (F := Ideal) a1 a2 (ix1 e) = (ν e : EReal))
    (Wr : Fin 64 → Fin 64 → ℝ) (hW : ∀ k j, W (ix2 k j) = (Wr k j : EReal))
    (br : Fin 64 → ℝ) (hb : ∀ j, b (ix1 j) = (br j : EReal))
    (ρ : Fin 1380000 → Fin 100000) (hρ : ∀ e, (val_main_v5 (F := Ideal) a1 (ix1 e)).toInt = ((ρ e).val : ℤ))
    (n : Fin 100000) (j : Fin 64) :
    pre h a1 a2 W b (ix2 n j)
      = ((Cert.Gcn.preR (fun e => (val_main_v6 (F := Ideal) a1 (ix1 e)).toInt) ρ ν H Wr br n j : ℝ) : EReal) := by
  unfold pre Cert.Gcn.preR
  rw [addf_apply, bias_at, hb, scatter_at, zero_operand_at, zero_add, EReal.coe_add, Cert.Gcn.coe_sum]
  refine congrArg (fun t => t + ((br j : ℝ) : EReal)) ?_
  refine Finset.sum_congr rfl fun e _ => ?_
  rw [target_at, Cert.Gcn.coe_ite_zero]
  refine if_congr Iff.rfl ?_ rfl
  rw [mulf_apply, gather_at _ a1 ρ hρ, dot_at, weight_at, hν, EReal.coe_mul, Cert.Gcn.coe_sum]
  refine congrArg (fun t => t * ((ν e : ℝ) : EReal)) ?_
  refine Finset.sum_congr rfl fun k _ => ?_
  rw [hH, hW, EReal.coe_mul]

/-- Entry (n, j) of a layer over real data whose source indices name nodes. -/
theorem layer_apply (relu : Bool) (h : FVec Ideal S100000x64 .f32) (a1 : IVec S2x1280000 32) (a2 : FVec Ideal S1280000 .f32)
    (W : FVec Ideal S64x64 .f32) (b : FVec Ideal S64 .f32)
    (H : Fin 100000 → Fin 64 → ℝ) (hH : ∀ n k, h (ix2 n k) = (H n k : EReal))
    (ν : Fin 1380000 → ℝ) (hν : ∀ e, val_main_v31 (F := Ideal) a1 a2 (ix1 e) = (ν e : EReal))
    (Wr : Fin 64 → Fin 64 → ℝ) (hW : ∀ k j, W (ix2 k j) = (Wr k j : EReal))
    (br : Fin 64 → ℝ) (hb : ∀ j, b (ix1 j) = (br j : EReal))
    (ρ : Fin 1380000 → Fin 100000) (hρ : ∀ e, (val_main_v5 (F := Ideal) a1 (ix1 e)).toInt = ((ρ e).val : ℤ))
    (n : Fin 100000) (j : Fin 64) :
    layer relu h a1 a2 W b (ix2 n j)
      = ((Cert.Gcn.act relu (Cert.Gcn.preR (fun e => (val_main_v6 (F := Ideal) a1 (ix1 e)).toInt) ρ ν H Wr br n j) : ℝ) : EReal) := by
  cases relu
  · have hl : layer false h a1 a2 W b = pre h a1 a2 W b := if_neg Bool.false_ne_true
    have ha : ∀ x : ℝ, Cert.Gcn.act false x = x := fun x => if_neg Bool.false_ne_true
    rw [hl, ha]
    exact pre_apply h a1 a2 W b H hH ν hν Wr hW br hb ρ hρ n j
  · have hl : layer true h a1 a2 W b = maximumf (pre h a1 a2 W b) (val_main_call1_v0 (F := Ideal)) := if_pos rfl
    have ha : ∀ x : ℝ, Cert.Gcn.act true x = max x 0 := fun x => if_pos rfl
    rw [hl, ha, maximumf_apply, zero_floor_at, pre_apply h a1 a2 W b H hH ν hν Wr hW br hb ρ hρ n j, EReal.coe_strictMono.monotone.map_max,
      EReal.coe_zero]

end Cert.ReferenceIdeal.RT

end
-- ==== Proof.LibGather.lean ====
/-
  Two layouts of the host's gather read at an index, at generic extents.
  `gather_vec_apply` — a [C] vector indexed by an [N, 1] column of 32-bit words (`x[idx]`: no offset axis, the
  operand's one axis collapsed and named by the start index, the index vector on axis 1): entry `r` of the result
  is the operand at the word `idx (r, 0)`, read signed and clamped into `[0, C - 1]`.
  `gather_along_apply` — an [N, C] matrix indexed along its last axis, row by row, by an [N, 1, 1] array of words
  (`take_along_axis (x, idx[:, None], axis = -1)`: axis 0 a batching axis of operand and indices, axis 1 collapsed
  and named by the start index, the index vector on axis 2): entry `(r, 0)` of the result is the operand at row
  `r` and the column `idx (r, 0, 0)`, read signed and clamped into `[0, C - 1]`.
-/
import Idealize.ShloMosaic.PureOps.ShapeOps
import Idealize.ShloMosaic.Lib.ValueIdx

noncomputable section

namespace Cert.LibGather

open Idealize.ShloMosaic Idealize.ShloMosaic.ValueIdx

/-- The dimension numbers of the vector layout (operand `[C]`, start indices `[N, 1]`, result `[N]`). -/
private abbrev vecDims (C N : ℕ)
    (wf : GatherDims.WF (⟨1, ![C]⟩ : Shape) (⟨2, ![N, 1]⟩ : Shape) (⟨1, ![N]⟩ : Shape) [] [0] [] [0] [] 1 ![1]) :
    GatherDims (⟨1, ![C]⟩ : Shape) (⟨2, ![N, 1]⟩ : Shape) (⟨1, ![N]⟩ : Shape) :=
  ⟨[], [0], [], [], [0], 1, ![1], wf⟩

/-- The dimension numbers of the row-by-row layout (operand `[N, C]`, start indices `[N, 1, 1]`, result
    `[N, 1]`). -/
private abbrev alongDims (C N : ℕ)
    (wf : GatherDims.WF (⟨2, ![N, C]⟩ : Shape) (⟨3, ![N, 1, 1]⟩ : Shape) (⟨2, ![N, 1]⟩ : Shape) [] [1] [0] [1] [0] 2
      ![1, 1]) :
    GatherDims (⟨2, ![N, C]⟩ : Shape) (⟨3, ![N, 1, 1]⟩ : Shape) (⟨2, ![N, 1]⟩ : Shape) :=
  ⟨[], [1], [0], [0], [1], 2, ![1, 1], wf⟩

/-- A vector indexed by a column of words. With no offset axis, the operand's one axis collapsed and named by the
    start index map, and the index vector on axis 1 of the `[N, 1]` start indices, entry `r` of the gather is the
    operand at the word `idx (r, 0)`, read as a signed integer and clamped into `[0, C - 1]` (the slice size is 1,
    so the clamp's upper end is `C - 1`). -/
theorem gather_vec_apply {α : Type} {C N : ℕ} (hC : 0 < C)
    (d : GatherDims (⟨1, ![C]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsim : d.startIndexMap = [0]) (hiv : d.indexVectorDim = 1)
    (hss : d.sliceSizes = ![1])
    (x : (⟨1, ![C]⟩ : Shape).Idx → α) (idx : IVec (⟨2, ![N, 1]⟩ : Shape) 32) (r : Fin N) :
    Host.gather d x idx (ix1 r)
      = x (ix1 ⟨min (idx (ix2 r (0 : Fin 1))).toInt.toNat (C - 1), by omega⟩) := by
  obtain ⟨od, cs, ob, sb, sim, iv, ss, wf⟩ := d
  dsimp only at hod hcs hob hsb hsim hiv hss
  subst hod hcs hob hsb hsim hiv hss
  unfold Host.gather
  congr 1
  funext a
  obtain rfl : a = 0 := Subsingleton.elim _ _
  refine Fin.ext ?_
  show (vecDims C N wf).start (ix1 r) idx 0 + (vecDims C N wf).batchCoord (ix1 r) 0
    + (vecDims C N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims C N wf).startIndexMap from List.mem_singleton.mpr rfl)]
  have hsi : ∀ c, (vecDims C N wf).siIdx (ix1 r) c = ix2 r (0 : Fin 1) := by
    intro c
    funext b; refine Fin.ext ?_
    match b with
    | ⟨0, _⟩ => rfl
    | ⟨1, _⟩ => exact Nat.lt_one_iff.mp c.isLt
  rw [hsi]
  rfl

/-- A matrix indexed along its last axis row by row. Axis 0 is a batching axis of operand and start indices (its
    start is 0 and its coordinate is the result's row `r`), axis 1 is collapsed and named by the start index map, and
    the index vector is on axis 2 of the `[N, 1, 1]` start indices: entry `(r, 0)` of the gather is the operand at
    row `r` and the column `idx (r, 0, 0)`, read as a signed integer and clamped into `[0, C - 1]`. -/
theorem gather_along_apply {α : Type} {C N : ℕ} (hC : 0 < C)
    (d : GatherDims (⟨2, ![N, C]⟩ : Shape) (⟨3, ![N, 1, 1]⟩ : Shape) (⟨2, ![N, 1]⟩ : Shape))
    (hod : d.offsetDims = []) (hcs : d.collapsedSliceDims = [1]) (hob : d.operandBatchingDims = [0])
    (hsb : d.startIndicesBatchingDims = [0]) (hsim : d.startIndexMap = [1]) (hiv : d.indexVectorDim = 2)
    (hss : d.sliceSizes = ![1, 1])
    (x : (⟨2, ![N, C]⟩ : Shape).Idx → α) (idx : IVec (⟨3, ![N, 1, 1]⟩ : Shape) 32) (r : Fin N) :
    Host.gather d x idx (ix2 r (0 : Fin 1))
      = x (ix2 r ⟨min (idx (ix3 r (0 : Fin 1) (0 : Fin 1))).toInt.toNat (C - 1), by omega⟩) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (alongDims C N wf).start (ix2 r (0 : Fin 1)) idx 0 + (alongDims C N wf).batchCoord (ix2 r (0 : Fin 1)) 0
      + (alongDims C N wf).offCoord (ix2 r (0 : Fin 1)) 0 = r.val
    have hb : (0 : Fin 2) ∈ (alongDims C N wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show (alongDims C N wf).start (ix2 r (0 : Fin 1)) idx 1 + (alongDims C N wf).batchCoord (ix2 r (0 : Fin 1)) 1
      + (alongDims C N wf).offCoord (ix2 r (0 : Fin 1)) 1 = min (idx (ix3 r (0 : Fin 1) (0 : Fin 1))).toInt.toNat (C - 1)
    have hnb : (1 : Fin 2) ∉ (alongDims C N wf).operandBatchingDims :=
      fun h => Nat.one_ne_zero (congrArg Fin.val (List.mem_singleton.mp h))
    have hc : (1 : Fin 2) ∈ (alongDims C N wf).collapsedSliceDims := List.mem_singleton.mpr rfl
    have hm : (1 : Fin 2) ∈ (alongDims C N wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : ∀ c, (alongDims C N wf).siIdx (ix2 r (0 : Fin 1)) c = ix3 r (0 : Fin 1) (0 : Fin 1) := by
      intro c
      funext b; refine Fin.ext ?_
      match b with
      | ⟨0, _⟩ => rfl
      | ⟨1, _⟩ => rfl
      | ⟨2, _⟩ => exact Nat.lt_one_iff.mp c.isLt
    rw [hsi]
    rfl

end Cert.LibGather

end
-- ==== Proof.SharedFacts.lean ====
/-
  Two facts about the vectors the layers share, over the reference's own stages.

  `norm_real`: where every edge weight is a real number, so is every normalised weight.  A node's degree is a finite
  sum of edge weights and ones, so real; its inverse square root is taken only where the degree is positive, where it is
  a positive real, and is replaced by zero elsewhere; a normalised weight is a product of two of those and an edge
  weight or a one.
  `row_node`: where every edge's source index is in `[0, 100000)`, every entry of the sources' vector — the edges' sources
  followed by the nodes' own numbers — names a node.
-/
import proofs.«427748_j59313498358226_3_alg».proof.Proof.Gen.ReferenceIdeal.Read
import proofs.«427748_j59313498358226_3_alg».proof.Proof.LibScatterAdd
import proofs.«427748_j59313498358226_3_alg».proof.Proof.LibGather
import proofs.«427748_j59313498358226_3_alg».proof.Proof.Spec
import Idealize.ShloMosaic.PureOps.Ideal
import Idealize.ShloMosaic.Lib.ValueIdx
import Idealize.ShloMosaic.Lib.Pipeline.Value
import Idealize.ShloMosaic.Lib.StableHlo.Predicate

noncomputable section

namespace Cert.ReferenceIdeal.RT

open Idealize.ShloMosaic Idealize.ShloMosaic.ValueIdx Idealize.SL.Sem Cert.ReferenceIdeal Cert.ReferenceIdeal.Gen
open Cert.ReferenceIdeal.Read

/-- The single-precision pattern of one denotes a real number (the number one: significand `2^23` scaled by `2^-23`). -/
theorem one_real : ∃ r : ℝ, Ideal.ofBits .f32 0x3F800000#32 = (r : EReal) := by
  refine ⟨1, ?_⟩
  simp [Ideal.ofBits, Ideal.ieee]
  norm_cast
  norm_num

/-- Every entry of the edge weights followed by the ones is a real: an entry below the edge count is an edge weight,
    an entry from there on is the constant one. -/
theorem v8_real (a2 : FVec Ideal S1280000 .f32) (ha2 : ∀ i, ∃ r : ℝ, a2 i = (r : EReal)) (e : Fin 1380000) :
    ∃ r : ℝ, val_main_v8 (F := Ideal) a2 (ix1 e) = (r : EReal) := by
  unfold val_main_v8
  by_cases h : e.val < 1280000
  · rw [concatenate_pair_apply_left 0 a2 (val_main_v7 (F := Ideal)) concatenates_S1280000_S100000_S1380000_d0 (ix1 e) rfl
      (ix1 ⟨e.val, h⟩) (fun b => match b with | ⟨0, _⟩ => rfl)]
    exact ha2 _
  · rw [concatenate_pair_apply_right 0 a2 (val_main_v7 (F := Ideal)) concatenates_S1280000_S100000_S1380000_d0 (ix1 e) rfl rfl
      (ix1 ⟨e.val - 1280000, by have := e.isLt; omega⟩) (fun b hb => absurd (Subsingleton.elim _ _) hb)
      (by show (e.val - 1280000) + 1280000 = e.val; omega)]
    rw [val_main_v7_apply, val_main_cst_apply]
    exact one_real

/-- The degree scatter read at a node: the operand's entry plus the sum, over the entries whose signed target is the
    node, of the updates. -/
theorem scatter_vec_at (x : FVec Ideal S100000 .f32) (idx : IVec S1380000x1 32) (upd : FVec Ideal S1380000 .f32)
    (c : Fin 100000) :
    Host.scatterAdd scatter_S100000_S1380000x1_S1380000_n_0_0_1 x idx upd (ix1 c)
      = x (ix1 c) + ∑ r : Fin 1380000, if (idx (ix2 r (0 : Fin 1))).toInt = (c.val : ℤ) then upd (ix1 r) else 0 :=
  Cert.ScatterAdd.scatterAdd_vec _ rfl rfl rfl rfl x idx upd c

/-- A finite sum of terms, each a real or dropped for zero, is a real. -/
theorem sum_ite_real {N : ℕ} (p : Fin N → Prop) [DecidablePred p] (f : Fin N → EReal)
    (hf : ∀ r, ∃ x : ℝ, f r = (x : EReal)) :
    ∃ x : ℝ, (∑ r : Fin N, if p r then f r else 0) = (x : EReal) := by
  choose w hw using hf
  refine ⟨∑ r : Fin N, if p r then w r else 0, ?_⟩
  rw [Cert.Gcn.coe_sum]
  refine Finset.sum_congr rfl fun r _ => ?_
  rw [Cert.Gcn.coe_ite_zero, hw r]

/-- Every degree is a real: zero plus the finite sum, over the entries whose target is the node, of reals. -/
theorem v11_real (a1 : IVec S2x1280000 32) (a2 : FVec Ideal S1280000 .f32) (ha2 : ∀ i, ∃ r : ℝ, a2 i = (r : EReal))
    (c : Fin 100000) : ∃ r : ℝ, val_main_v11 (F := Ideal) a1 a2 (ix1 c) = (r : EReal) := by
  unfold val_main_v11
  rewrite [scatter_vec_at, val_main_v9_apply, val_main_cst_0_apply, Ideal.ofBits_def, Ideal.ofBits_zero_f32, zero_add]
  exact sum_ite_real _ _ (fun r => v8_real a2 ha2 r)

/-- Every entry of the inverse-square-root vector is a real: where the degree is positive its inverse square root,
    elsewhere zero. -/
theorem v15_real (a1 : IVec S2x1280000 32) (a2 : FVec Ideal S1280000 .f32) (ha2 : ∀ i, ∃ r : ℝ, a2 i = (r : EReal))
    (c : Fin 100000) : ∃ r : ℝ, val_main_v15 (F := Ideal) a1 a2 (ix1 c) = (r : EReal) := by
  obtain ⟨d, hd⟩ := v11_real a1 a2 ha2 c
  rewrite [val_main_v15_apply, val_main_v13_apply, val_main_v14_apply, hd, val_main_v12_apply, val_main_cst_1_apply,
    val_main_call0_v1_apply, val_main_call0_v0_apply, val_main_cst_2_apply, Ideal.ofBits_def, Ideal.ofBits_zero_f32,
    Ideal.hostUnary_rsqrt_def, Ideal.rsqrt_coe]
  by_cases hpos : 0 < d
  · refine ⟨(Real.sqrt d)⁻¹, ?_⟩
    simp [Scalar.select, Ideal.cmpf_def, Ideal.cmp, hpos, not_lt.mpr hpos.le, hpos.ne']
  · refine ⟨0, ?_⟩
    simp [Scalar.select, Ideal.cmpf_def, Ideal.cmp, hpos]

/-- The gather of a node vector by an index column, read at an entry, is some entry of the node vector. -/
theorem gather_vec_at (x : FVec Ideal S100000 .f32) (idx : IVec S1380000x1 32) (e : Fin 1380000) :
    ∃ k : Fin 100000, Host.gather gather_S100000_S1380000x1_S1380000_n_0_n_n_0_1_1 x idx (ix1 e) = x (ix1 k) :=
  ⟨_, Cert.LibGather.gather_vec_apply (by omega) _ rfl rfl rfl rfl rfl rfl rfl x idx e⟩

/-- Every entry of the first gathered factor is a real. -/
theorem v22_real (a1 : IVec S2x1280000 32) (a2 : FVec Ideal S1280000 .f32) (ha2 : ∀ i, ∃ r : ℝ, a2 i = (r : EReal))
    (e : Fin 1380000) : ∃ r : ℝ, val_main_v22 (F := Ideal) a1 a2 (ix1 e) = (r : EReal) := by
  unfold val_main_v22
  obtain ⟨k, hk⟩ := gather_vec_at (val_main_v15 (F := Ideal) a1 a2) (val_main_v21 (F := Ideal) a1) e
  rewrite [hk]
  exact v15_real a1 a2 ha2 k

/-- Every entry of the second gathered factor is a real. -/
theorem v30_real (a1 : IVec S2x1280000 32) (a2 : FVec Ideal S1280000 .f32) (ha2 : ∀ i, ∃ r : ℝ, a2 i = (r : EReal))
    (e : Fin 1380000) : ∃ r : ℝ, val_main_v30 (F := Ideal) a1 a2 (ix1 e) = (r : EReal) := by
  unfold val_main_v30
  obtain ⟨k, hk⟩ := gather_vec_at (val_main_v15 (F := Ideal) a1 a2) (val_main_v29 (F := Ideal) a1) e
  rewrite [hk]
  exact v15_real a1 a2 ha2 k

/-- Every normalised weight is a real: a product of three reals. -/
theorem v31_real (a1 : IVec S2x1280000 32) (a2 : FVec Ideal S1280000 .f32) (ha2 : ∀ i, ∃ r : ℝ, a2 i = (r : EReal))
    (e : Fin 1380000) : ∃ r : ℝ, val_main_v31 (F := Ideal) a1 a2 (ix1 e) = (r : EReal) := by
  obtain ⟨x, hx⟩ := v22_real a1 a2 ha2 e
  obtain ⟨y, hy⟩ := v8_real a2 ha2 e
  obtain ⟨z, hz⟩ := v30_real a1 a2 ha2 e
  refine ⟨x * y * z, ?_⟩
  rewrite [val_main_v31_apply, val_main_v23_apply, hx, hy, hz, Ideal.mulf_def, Ideal.mulf_def, EReal.coe_mul, EReal.coe_mul]
  rfl

/-- Real edge weights give real normalised weights. -/
theorem norm_real (a1 : IVec S2x1280000 32) (a2 : FVec Ideal S1280000 .f32) (ha2 : ∀ i, ∃ r : ℝ, a2 i = (r : EReal)) :
    ∃ ν : Fin 1380000 → ℝ, ∀ e, val_main_v31 (F := Ideal) a1 a2 (ix1 e) = (ν e : EReal) := by
  choose ν hν using v31_real a1 a2 ha2
  exact ⟨ν, hν⟩

/-- Source indices in range make every entry of the sources' vector a node. -/
theorem row_node (a1 : IVec S2x1280000 32)
    (hrow : ∀ e : Fin 1280000, 0 ≤ (a1 (ix2 (0 : Fin 2) e)).toInt ∧ (a1 (ix2 (0 : Fin 2) e)).toInt < 100000) :
    ∃ ρ : Fin 1380000 → Fin 100000, ∀ e, (val_main_v5 (F := Ideal) a1 (ix1 e)).toInt = ((ρ e).val : ℤ) := by
  have key : ∀ e : Fin 1380000, ∃ k : Fin 100000, (val_main_v5 (F := Ideal) a1 (ix1 e)).toInt = (k.val : ℤ) := by
    intro e
    unfold val_main_v5
    by_cases h : e.val < 1280000
    · rewrite [concatenate_pair_apply_left 0 (val_main_v1 (F := Ideal) a1) (val_main_v4 (F := Ideal))
        concatenates_S1280000_S100000_S1380000_d0 (ix1 e) rfl (ix1 ⟨e.val, h⟩) (fun b => match b with | ⟨0, _⟩ => rfl),
        val_main_v1_apply, val_main_v0_apply]
      have hidx : idx_main_v0 (idx_main_v1 (ix1 (⟨e.val, h⟩ : Fin 1280000))) = ix2 (0 : Fin 2) (⟨e.val, h⟩ : Fin 1280000) := by
        funext a
        match a with
        | ⟨0, _⟩ => rfl
        | ⟨1, _⟩ => exact Fin.ext (Nat.mod_eq_of_lt h)
      rewrite [hidx]
      obtain ⟨h0, h1⟩ := hrow ⟨e.val, h⟩
      exact ⟨⟨(a1 (ix2 (0 : Fin 2) (⟨e.val, h⟩ : Fin 1280000))).toInt.toNat, by omega⟩, by
        show _ = (((a1 (ix2 (0 : Fin 2) (⟨e.val, h⟩ : Fin 1280000))).toInt.toNat : ℕ) : ℤ); omega⟩
    · have he : e.val - 1280000 < 100000 := by have := e.isLt; omega
      rewrite [concatenate_pair_apply_right 0 (val_main_v1 (F := Ideal) a1) (val_main_v4 (F := Ideal))
        concatenates_S1280000_S100000_S1380000_d0 (ix1 e) rfl rfl (ix1 ⟨e.val - 1280000, he⟩)
        (fun b hb => absurd (Subsingleton.elim _ _) hb) (by show (e.val - 1280000) + 1280000 = e.val; omega),
        val_main_v4_apply]
      exact ⟨⟨e.val - 1280000, he⟩, Idealize.ShloMosaic.StableHlo.Predicate.toInt_ofNat_small _ (by
        show e.val - 1280000 < 2 ^ 31; omega)⟩
  choose ρ hρ using key
  exact ⟨ρ, hρ⟩

end Cert.ReferenceIdeal.RT

end
-- ==== Proof.PreFacts.lean ====
/-
  What the precondition says, entry by entry.

  The precondition is a conjunction of ten tests, each an "all entries" reduction: of each of the eight float arguments,
  that every entry's absolute value is below +∞ — so the entry is a real number, not an infinity —, and of the first row
  of the edge index array (the edges' sources), that every entry is at least 0 and below 100000.
-/
import proofs.«427748_j59313498358226_3_alg».proof.Pre_finite_inputs
import proofs.«427748_j59313498358226_3_alg».proof.Proof.Gen.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Pre_finite_inputs

open Idealize.ShloMosaic Idealize.ShloMosaic.ValueIdx

/-- The scalar shape has exactly one index. -/
instance subsingleton_scalar_idx : Subsingleton S_.Idx := ⟨fun a b => funext fun d => d.elim0⟩

/-- An extended real whose absolute value `max x (-x)` tests strictly below the pattern of +∞ is a real number:
    of the two infinities, each has absolute value +∞, which is not below itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- "Every entry of `|a|` is below +∞", printed as an all-axes reduction by `and` of the comparison mask, says that
    every entry of `a` is a real number. -/
theorem real_of_all {s : Shape} {axes : List (Fin s.rank)} (a : FVec Ideal s .f32) (hb : S_.BroadcastsInDim s ![])
    (hr : s.ReducesTo axes S_) (h0 : 0 < S_.numel)
    (h : Host.reduce IntOp.andi (cmpf .olt (Host.absf a) (broadcastInDim s ![] hb (constant S_ .f32 0x7F800000#32)))
      (constantI S_ 1 1#1) hr h0 ix0 = 1#1) (i : s.Idx) : ∃ r : ℝ, a i = (r : EReal) := by
  have hi := Host.reduce_andi_all _ _ hr h0 ix0 h i
  exact real_of_abs_lt_inf (a i) hi

/-- The first row of the `[2, 1280000]` word array — the slice at offset `(0, 0)` of extent `[1, 1280000]`, flattened
    to `[1280000]` — read at `e` is the array at `(0, e)`: the flattening keeps the row-major position `0 * 1280000 + e`,
    and the slice adds the zero offsets. -/
theorem row0_apply (a1 : IVec S2x1280000 32) (hs : S2x1280000.Slices ![0, 0] S1x1280000)
    (hc : S1x1280000.ShapeCasts S1280000) (e : Fin 1280000) :
    shapeCast S1280000 (extractStridedSlice S1x1280000 ![0, 0] a1 hs) hc (ix1 e) = a1 (ix2 (0 : Fin 2) e) := by
  refine (shapeCast_apply _ hc (ix1 e) (ix2 (0 : Fin 1) e) ?_).trans ?_
  · rw [Shape.rowMajor_val_two, Shape.rowMajor_val_one]
    show 0 * 1280000 + e.val = e.val
    omega
  · exact extractStridedSlice_apply ![0, 0] a1 hs (ix2 (0 : Fin 1) e) (ix2 (0 : Fin 2) e) (fun a => match a with
      | ⟨0, _⟩ => by show 0 = 0 + 0; rfl
      | ⟨1, _⟩ => by show e.val = 0 + e.val; omega)

/-- "Every source index is at least 0", printed as the all-axes reduction by `and` of the signed comparison of the
    flattened first row with the broadcast word 0, says `0 ≤` each source index read as a signed integer. -/
theorem nonneg_of_all (a1 : IVec S2x1280000 32) (hs : S2x1280000.Slices ![0, 0] S1x1280000)
    (hc : S1x1280000.ShapeCasts S1280000) (hb : S_.BroadcastsInDim S1280000 ![]) (hr : S1280000.ReducesTo [0] S_)
    (h0 : 0 < S_.numel)
    (h : Host.reduce IntOp.andi (cmpi .sge (shapeCast S1280000 (extractStridedSlice S1x1280000 ![0, 0] a1 hs) hc)
      (broadcastInDim S1280000 ![] hb (constantI S_ 32 0#32))) (constantI S_ 1 1#1) hr h0 ix0 = 1#1)
    (e : Fin 1280000) : 0 ≤ (a1 (ix2 (0 : Fin 2) e)).toInt := by
  have hi : IntOp.cmpi .sge (shapeCast S1280000 (extractStridedSlice S1x1280000 ![0, 0] a1 hs) hc (ix1 e)) 0#32 = 1#1 :=
    Host.reduce_andi_all _ _ hr h0 ix0 h (ix1 e)
  rw [row0_apply] at hi
  have := IntOp.cmpi_sge.1 hi
  rwa [show (0#32 : BitVec 32).toInt = 0 from by decide] at this

/-- "Every source index is below 100000", printed the same way with the signed `<` against the broadcast word 100000,
    says each source index read as a signed integer is `< 100000`. -/
theorem lt_of_all (a1 : IVec S2x1280000 32) (hs : S2x1280000.Slices ![0, 0] S1x1280000)
    (hc : S1x1280000.ShapeCasts S1280000) (hb : S_.BroadcastsInDim S1280000 ![]) (hr : S1280000.ReducesTo [0] S_)
    (h0 : 0 < S_.numel)
    (h : Host.reduce IntOp.andi (cmpi .slt (shapeCast S1280000 (extractStridedSlice S1x1280000 ![0, 0] a1 hs) hc)
      (broadcastInDim S1280000 ![] hb (constantI S_ 32 100000#32))) (constantI S_ 1 1#1) hr h0 ix0 = 1#1)
    (e : Fin 1280000) : (a1 (ix2 (0 : Fin 2) e)).toInt < 100000 := by
  have hi : IntOp.cmpi .slt (shapeCast S1280000 (extractStridedSlice S1x1280000 ![0, 0] a1 hs) hc (ix1 e)) 100000#32 = 1#1 :=
    Host.reduce_andi_all _ _ hr h0 ix0 h (ix1 e)
  rw [row0_apply] at hi
  have := IntOp.cmpi_slt.1 hi
  rwa [show (100000#32 : BitVec 32).toInt = 100000 from by decide] at this

/-- Every float argument's entries are real numbers, and every edge's source index is in `[0, 100000)`. -/
theorem of_pre (a0 : FVec Ideal S100000x64 .f32) (a1 : IVec S2x1280000 32) (a2 : FVec Ideal S1280000 .f32)
    (a3 : FVec Ideal S64x64 .f32) (a4 : FVec Ideal S64 .f32) (a5 : FVec Ideal S64x64 .f32) (a6 : FVec Ideal S64 .f32)
    (a7 : FVec Ideal S64x64 .f32) (a8 : FVec Ideal S64 .f32)
    (h : fn (F := Ideal) a0 a1 a2 a3 a4 a5 a6 a7 a8 = fun _ => 1#1) :
    (∀ i, ∃ r : ℝ, a0 i = (r : EReal)) ∧ (∀ i, ∃ r : ℝ, a2 i = (r : EReal))
    ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal))
    ∧ (∀ e : Fin 1280000, 0 ≤ (a1 (ix2 (0 : Fin 2) e)).toInt ∧ (a1 (ix2 (0 : Fin 2) e)).toInt < 100000) := by
  -- the scalar result at its one index, with the printed chain of operations laid open
  have h0 := congrFun h ix0
  dsimp only [fn, fn_part1, fn_part2] at h0
  -- a conjunction by `and` of one-bit words is 1 exactly when every conjunct is
  simp only [Idealize.ShloMosaic.andi, IntOp.andi_eq_one] at h0
  obtain ⟨⟨⟨⟨⟨⟨⟨⟨⟨h0, h2⟩, h3⟩, h4⟩, h5⟩, h6⟩, h7⟩, h8⟩, hge⟩, hlt⟩ := h0
  exact ⟨real_of_all a0 _ _ _ h0, real_of_all a2 _ _ _ h2, real_of_all a3 _ _ _ h3, real_of_all a4 _ _ _ h4,
    real_of_all a5 _ _ _ h5, real_of_all a6 _ _ _ h6, real_of_all a7 _ _ _ h7, real_of_all a8 _ _ _ h8,
    fun e => ⟨nonneg_of_all a1 _ _ _ _ _ hge e, lt_of_all a1 _ _ _ _ _ hlt e⟩⟩

end Cert.Pre_finite_inputs

end
-- ==== Proof.Bridge.lean ====
/-
  The two programs' results are the same arrays.

  Both programs apply three layers, each to the result of the one before.  Over real features, real normalised weights,
  a real matrix and bias, and source indices that name nodes, a layer of the kernel's program is entry by entry
  `Cert.Gcn.preK` through the activation (`KT.layer_apply`) and a layer of the reference `Cert.Gcn.preR` through it
  (`RT.layer_apply`), and the two agree over the reals (`Cert.Gcn.preK_eq_preR`); so a layer of either program maps
  equal real features to equal real features (`layer_bridge`).  The precondition makes the first features, the edge
  weights, the matrices and the biases real and the edges' sources nodes; the shared index and weight vectors are the
  same in the two programs; three applications give the three results.
-/
import proofs.«427748_j59313498358226_3_alg».proof.Proof.KHost
import proofs.«427748_j59313498358226_3_alg».proof.Proof.KShared
import proofs.«427748_j59313498358226_3_alg».proof.Proof.RLayer
import proofs.«427748_j59313498358226_3_alg».proof.Proof.SharedFacts
import proofs.«427748_j59313498358226_3_alg».proof.Proof.PreFacts
import proofs.«427748_j59313498358226_3_alg».proof.Defs

set_option maxRecDepth 16384

noncomputable section

namespace Cert.Bridge

open Idealize.ShloMosaic Idealize.ShloMosaic.ValueIdx Idealize.SL.Sem
open Cert.KernelIdeal (KT.layer)

/-- One layer of either program takes equal real features to equal real features. -/
theorem layer_bridge (relu : Bool)
    (hk : FVec Ideal Cert.KernelIdeal.S100000x64 .f32) (hr : FVec Ideal Cert.ReferenceIdeal.S100000x64 .f32)
    (H : Fin 100000 → Fin 64 → ℝ) (hHk : ∀ n k, hk (ix2 n k) = (H n k : EReal)) (hHr : ∀ n k, hr (ix2 n k) = (H n k : EReal))
    (a1 : IVec Cert.ReferenceIdeal.S2x1280000 32) (a2 : FVec Ideal Cert.ReferenceIdeal.S1280000 .f32)
    (rowf colf : IVec Cert.KernelIdeal.S1380000 32) (norm : FVec Ideal Cert.KernelIdeal.S1380000 .f32)
    (hR : rowf = Cert.ReferenceIdeal.Read.val_main_v5 (F := Ideal) a1)
    (hC : colf = Cert.ReferenceIdeal.Read.val_main_v6 (F := Ideal) a1)
    (hN : norm = Cert.ReferenceIdeal.Read.val_main_v31 (F := Ideal) a1 a2)
    (ν : Fin 1380000 → ℝ) (hν : ∀ e, Cert.ReferenceIdeal.Read.val_main_v31 (F := Ideal) a1 a2 (ix1 e) = (ν e : EReal))
    (ρ : Fin 1380000 → Fin 100000)
    (hρ : ∀ e, (Cert.ReferenceIdeal.Read.val_main_v5 (F := Ideal) a1 (ix1 e)).toInt = ((ρ e).val : ℤ))
    (W : FVec Ideal Cert.KernelIdeal.S64x64 .f32) (b : FVec Ideal Cert.KernelIdeal.S64 .f32)
    (hW : ∀ i, ∃ r : ℝ, W i = (r : EReal)) (hb : ∀ i, ∃ r : ℝ, b i = (r : EReal)) :
    ∃ H' : Fin 100000 → Fin 64 → ℝ,
      (∀ n j, Cert.KernelIdeal.KT.layer relu hk rowf colf norm W b (ix2 n j) = (H' n j : EReal))
      ∧ (∀ n j, Cert.ReferenceIdeal.RT.layer relu hr a1 a2 W b (ix2 n j) = (H' n j : EReal)) := by
  choose Wr hWr using fun k j => hW (ix2 k j)
  choose br hbr using fun j => hb (ix1 j)
  refine ⟨fun n j => Cert.Gcn.act relu (Cert.Gcn.preR
      (fun e => (Cert.ReferenceIdeal.Read.val_main_v6 (F := Ideal) a1 (ix1 e)).toInt) ρ ν H Wr br n j), fun n j => ?_, fun n j => ?_⟩
  · subst hR hC hN
    rw [Cert.KernelIdeal.KT.layer_apply relu hk _ _ _ W b H hHk ν hν Wr hWr br hbr ρ hρ n j, Cert.Gcn.preK_eq_preR]
  · exact Cert.ReferenceIdeal.RT.layer_apply relu hr a1 a2 W b H hHr ν hν Wr hWr br hbr ρ hρ n j

/-- The reference's three results are the kernel's program's three layers. -/
theorem results_eq
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    Cert.ReferenceIdeal.Value.res_main_v49 m' c = Cert.KernelIdeal.Gen.out1 m g c
    ∧ Cert.ReferenceIdeal.Value.res_main_v67 m' c = Cert.KernelIdeal.Gen.out2 m g c
    ∧ Cert.ReferenceIdeal.Value.res_main_v84 m' c = Cert.KernelIdeal.Gen.out3 m g c := by
  obtain ⟨e0, e1, e2, e3, e4, e5, e6, e7, e8⟩ := hagree c
  rw [Cert.ReferenceIdeal.Read.val_main_v49_eq, Cert.ReferenceIdeal.Read.val_main_v67_eq,
    Cert.ReferenceIdeal.Read.val_main_v84_eq, e0, e1, e2, e3, e4, e5, e6, e7, e8,
    Cert.ReferenceIdeal.RT.val49_eq, Cert.ReferenceIdeal.RT.val67_eq, Cert.ReferenceIdeal.RT.val84_eq]
  obtain ⟨p0, p2, p3, p4, p5, p6, p7, p8, prow⟩ := Cert.Pre_finite_inputs.of_pre _ _ _ _ _ _ _ _ _ (hpre c)
  obtain ⟨ν, hν⟩ := Cert.ReferenceIdeal.RT.norm_real (m ((c.tc : Thread Cert.KernelIdeal.nD Cert.KernelIdeal.τ).loc Cert.KernelIdeal.main_arg1)) (m ((c.tc : Thread Cert.KernelIdeal.nD Cert.KernelIdeal.τ).loc Cert.KernelIdeal.main_arg2)) p2
  obtain ⟨ρ, hρ⟩ := Cert.ReferenceIdeal.RT.row_node (m ((c.tc : Thread Cert.KernelIdeal.nD Cert.KernelIdeal.τ).loc Cert.KernelIdeal.main_arg1)) prow
  choose H0 hH0 using fun n k => p0 (ix2 n k)
  have hR := Cert.KernelIdeal.Gen.W3_rowf m g c
  have hC := Cert.KernelIdeal.Gen.W3_colf m g c
  have hN := Cert.KernelIdeal.Gen.W3_norm m g c
  obtain ⟨H1, k1, r1⟩ := layer_bridge true _ _ H0 hH0 hH0 _ _ _ _ _ hR hC hN ν hν ρ hρ (m ((c.tc : Thread Cert.KernelIdeal.nD Cert.KernelIdeal.τ).loc Cert.KernelIdeal.main_arg3)) (m ((c.tc : Thread Cert.KernelIdeal.nD Cert.KernelIdeal.τ).loc Cert.KernelIdeal.main_arg4)) p3 p4
  obtain ⟨H2, k2, r2⟩ := layer_bridge true _ _ H1 k1 r1 _ _ _ _ _ hR hC hN ν hν ρ hρ (m ((c.tc : Thread Cert.KernelIdeal.nD Cert.KernelIdeal.τ).loc Cert.KernelIdeal.main_arg5)) (m ((c.tc : Thread Cert.KernelIdeal.nD Cert.KernelIdeal.τ).loc Cert.KernelIdeal.main_arg6)) p5 p6
  obtain ⟨H3, k3, r3⟩ := layer_bridge false _ _ H2 k2 r2 _ _ _ _ _ hR hC hN ν hν ρ hρ (m ((c.tc : Thread Cert.KernelIdeal.nD Cert.KernelIdeal.τ).loc Cert.KernelIdeal.main_arg7)) (m ((c.tc : Thread Cert.KernelIdeal.nD Cert.KernelIdeal.τ).loc Cert.KernelIdeal.main_arg8)) p7 p8
  refine ⟨funext fun i => ?_, funext fun i => ?_, funext fun i => ?_⟩
  · rw [eq_ix2 i]; exact (r1 _ _).trans (k1 _ _).symm
  · rw [eq_ix2 i]; exact (r2 _ _).trans (k2 _ _).symm
  · rw [eq_ix2 i]; exact (r3 _ _).trans (k3 _ _).symm

end Cert.Bridge

end
-- ==== Proof.lean ====
/-
  A three-layer graph convolution over 100000 nodes with 64 features and 1280000 weighted edges plus one self-loop per
  node: each layer sends node `n` to  act (Σ_{edges e into n} norm e · (h (source e) · W) + b),  the edges' normalised
  weights `norm` computed once from the node degrees.

  The kernel's program aggregates first and multiplies afterwards: it sums the scaled SOURCE rows into each node, lays
  two nodes' 64 sums side by side in a row of 128, and multiplies, in a launch of ten blocks of 5000 rows, by the layer's
  matrix laid twice on the diagonal of a [128, 128] one.  The reference multiplies every node's row by the matrix first
  and aggregates the products.  At the exact extended reals the two agree once everything in sight is a real number —
  the finite sums commute and the product distributes over them —, which the precondition gives: every float argument
  finite, and every edge's source index in `[0, 100000)`.  That last conjunct is needed: the kernel's program reads a
  source row through a take that yields a filler for an index out of range, where the reference's plain indexing
  clamps the index, so outside the range the two programs differ.

  The frames of the two kernel programs are the generated ones; the reference's is its generated run with the results
  dropped.  The idealization rewrote nothing, so there is nothing to preserve.  For the value claim the kernel's run is
  stated once more with its three results named (each one layer of the one before: KHost), the reference's run names
  its own three, and the two triples are the same arrays (Bridge).
-/
import proofs.«427748_j59313498358226_3_alg».proof.Defs
import proofs.«427748_j59313498358226_3_alg».proof.Proof.Gen.Kernel
import proofs.«427748_j59313498358226_3_alg».proof.Proof.Gen.Kernel.Skeleton
import proofs.«427748_j59313498358226_3_alg».proof.Proof.Gen.Kernel.Launch
import proofs.«427748_j59313498358226_3_alg».proof.Proof.Gen.Kernel.Points
import proofs.«427748_j59313498358226_3_alg».proof.Proof.Gen.Kernel.Frame
import proofs.«427748_j59313498358226_3_alg».proof.Proof.Gen.KernelIdeal
import proofs.«427748_j59313498358226_3_alg».proof.Proof.Gen.KernelIdeal.Skeleton
import proofs.«427748_j59313498358226_3_alg».proof.Proof.Gen.KernelIdeal.Launch
import proofs.«427748_j59313498358226_3_alg».proof.Proof.Gen.KernelIdeal.Points
import proofs.«427748_j59313498358226_3_alg».proof.Proof.Gen.KernelIdeal.Frame
import proofs.«427748_j59313498358226_3_alg».proof.Proof.Gen.ReferenceIdeal
import proofs.«427748_j59313498358226_3_alg».proof.Proof.Gen.ReferenceIdeal.Run
import proofs.«427748_j59313498358226_3_alg».proof.Proof.Gen.ReferenceIdeal.Read
import proofs.«427748_j59313498358226_3_alg».proof.Proof.Gen.Pre_finite_inputs
import proofs.«427748_j59313498358226_3_alg».proof.Proof.KRun
import proofs.«427748_j59313498358226_3_alg».proof.Proof.KHost
import proofs.«427748_j59313498358226_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's generated run, its results forgotten. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both programs run, and end with the same four results: the features themselves and the three layers. -/
theorem algebraic : Cert.algebraic_KernelIdeal_ReferenceIdeal := by
  intro m g m' g' hpre hagree
  refine ⟨fun c => m ((c.tc : Thread Cert.KernelIdeal.nD Cert.KernelIdeal.τ).loc Cert.KernelIdeal.main_arg0),
    fun c => Cert.KernelIdeal.Gen.out1 m g c, fun c => Cert.KernelIdeal.Gen.out2 m g c,
    fun c => Cert.KernelIdeal.Gen.out3 m g c, ?_, ?_⟩
  · refine (θ_run Cert.KernelIdeal.defs _ _).mono (fun r h c => ?_) (Cert.KernelIdeal.Gen.run_results m g)
    obtain ⟨⟨h1, h2, h3⟩, ha⟩ := h c
    obtain ⟨e1, e2, e3⟩ := Cert.KernelIdeal.Gen.results m g c
    exact ⟨ha.1, h1.trans e1, h2.trans e2, h3.trans e3, ha⟩
  · refine (θ_run Cert.ReferenceIdeal.defs _ _).mono (fun r h c => ?_)
      (Cert.ReferenceIdeal.Value.run (F := Ideal) m' g')
    obtain ⟨h0, h1, h2, h3, ha⟩ := h c
    obtain ⟨e1, e2, e3⟩ := Cert.Bridge.results_eq m g m' hpre hagree c
    exact ⟨h0.trans (hagree c).1, h1.trans e1, h2.trans e2, h3.trans e3, ha⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
